-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x16 : Shape := ⟨2, ![1600000, 16]⟩
abbrev S2x1600000 : Shape := ⟨2, ![2, 1600000]⟩
abbrev S64x128 : Shape := ⟨2, ![64, 128]⟩
abbrev S128 : Shape := ⟨1, ![128]⟩
abbrev S16x128 : Shape := ⟨2, ![16, 128]⟩
abbrev S3x128x128 : Shape := ⟨3, ![3, 128, 128]⟩
abbrev S3x128 : Shape := ⟨2, ![3, 128]⟩
abbrev S128x128 : Shape := ⟨2, ![128, 128]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg2 : IVec S2x1600000 32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : IVec S1x1600000 32 := (extractStridedSlice S1x1600000 ![0, 0] · slices_S2x1600000_S1x1600000_0_0) main_arg2
  let main_v60 : IVec S1600000 32 := shapeCast S1600000 main_v59 shapeCasts_S1x1600000_S1600000
  let main_c_22 : IVec S_ 32 := constantI S_ 32 0#32
  let main_v61 : IVec S1600000 32 := broadcastInDim S1600000 ![] bcast_S_S1600000 main_c_22
  let main_v62 : IVec S1600000 1 := cmpi .sge main_v60 main_v61
  let main_v63 : IVec S1x1600000 32 := (extractStridedSlice S1x1600000 ![0, 0] · slices_S2x1600000_S1x1600000_0_0) main_arg2
  let main_v64 : IVec S1600000 32 := shapeCast S1600000 main_v63 shapeCasts_S1x1600000_S1600000
  let main_c_23 : IVec S_ 32 := constantI S_ 32 100000#32
  let main_v65 : IVec S1600000 32 := broadcastInDim S1600000 ![] bcast_S_S1600000 main_c_23
  let main_v66 : IVec S1600000 1 := cmpi .slt main_v64 main_v65
  let main_v67 : IVec S1600000 1 := andi main_v62 main_v66
  let main_c_24 : IVec S_ 1 := constantI S_ 1 1#1
  let main_v68 : IVec S_ 1 := (fun x v => Host.reduce IntOp.andi x v reducesTo_S1600000_S_d0 h_S_) main_v67 main_c_24
  fn_part4 (F := F) main_v58 main_v68

def fn_part2 {F : FTy → Type} [FloatOps F] (main_arg2 : IVec S2x1600000 32) (main_arg8 : FVec F S3x128 .f32) (main_arg9 : FVec F S128x128 .f32) (main_arg10 : FVec F S128 .f32) (main_arg11 : FVec F S128 .f32) (main_arg12 : FVec F S128 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_arg12 main_v48 main_v49 main_v50

def fn_part1 {F : FTy → Type} [FloatOps F] (main_arg2 : IVec S2x1600000 32) (main_arg5 : FVec F S16x128 .f32) (main_arg6 : FVec F S128 .f32) (main_arg7 : FVec F S3x128x128 .f32) (main_arg8 : FVec F S3x128 .f32) (main_arg9 : FVec F S128x128 .f32) (main_arg10 : FVec F S128 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S16x128 .f32 := Host.absf main_arg5
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg7
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg2 main_arg8 main_arg9 main_arg10 main_arg11 main_arg12 main_v33

def fn {F : FTy → Type} [FloatOps F] (main_arg0 : FVec F S100000x64 .f32) (main_arg1 : FVec F S1600000x16 .f32) (main_arg2 : IVec S2x1600000 32) (main_arg3 : FVec F S64x128 .f32) (main_arg4 : FVec F S128 .f32) (main_arg5 : FVec F S16x128 .f32) (main_arg6 : FVec F S128 .f32) (main_arg7 : FVec F S3x128x128 .f32) (main_arg8 : FVec F S3x128 .f32) (main_arg9 : FVec F S128x128 .f32) (main_arg10 : FVec F S128 .f32) (main_arg11 : FVec F S128 .f32) (main_arg12 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_v13 main_v16
-- ==== Kernel.lean ====
abbrev S100000x64 : Shape := ⟨2, ![100000, 64]⟩
abbrev S1600000x16 : Shape := ⟨2, ![1600000, 16]⟩
abbrev S2x1600000 : Shape := ⟨2, ![2, 1600000]⟩
abbrev S64x128 : Shape := ⟨2, ![64, 128]⟩
abbrev S128 : Shape := ⟨1, ![128]⟩
abbrev S16x128 : Shape := ⟨2, ![16, 128]⟩
abbrev S3x128x128 : Shape := ⟨3, ![3, 128, 128]⟩
abbrev S3x128 : Shape := ⟨2, ![3, 128]⟩
abbrev S128x128 : Shape := ⟨2, ![128, 128]⟩
abbrev S1x1600000 : Shape := ⟨2, ![1, 1600000]⟩
abbrev S1600000 : Shape := ⟨1, ![1600000]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S8000x16 : Shape := ⟨2, ![8000, 16]⟩
abbrev S8000x128 : Shape := ⟨2, ![8000, 128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1x128x128 : Shape := ⟨3, ![1, 128, 128]⟩
abbrev S5000 : Shape := ⟨1, ![5000]⟩
abbrev S5000x1 : Shape := ⟨2, ![5000, 1]⟩

abbrev nBuf : Space → Nat
  | .hbm => 127
  | .vmem => 64
  | .smem => 0
  | _ => 0

abbrev bufTy : (tb : Table) → Fin (tcTables nBuf tb) → BufTy
  | .hbm, ⟨0, _⟩ => ⟨S100000x64, .f32⟩
  | .hbm, ⟨1, _⟩ => ⟨S1600000x16, .f32⟩
  | .hbm, ⟨2, _⟩ => ⟨S2x1600000, .i32⟩
  | .hbm, ⟨3, _⟩ => ⟨S64x128, .f32⟩
  | .hbm, ⟨4, _⟩ => ⟨S128, .f32⟩
  | .hbm, ⟨5, _⟩ => ⟨S16x128, .f32⟩
  | .hbm, ⟨6, _⟩ => ⟨S128, .f32⟩
  | .hbm, ⟨7, _⟩ => ⟨S3x128x128, .f32⟩
  | .hbm, ⟨8, _⟩ => ⟨S3x128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S100000x128, .f32⟩
  | .hbm, ⟨23, _⟩ => ⟨S1600000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1, .i32⟩
  | .hbm, ⟨33, _⟩ => ⟨S_, .i32⟩
  | .hbm, ⟨34, _⟩ => ⟨S1600000x1, .i32⟩
  | .hbm, ⟨35, _⟩ => ⟨S1600000x1, .i1⟩
  | .hbm, ⟨36, _⟩ => ⟨S1x1, .i32⟩
  | .hbm, ⟨37, _⟩ => ⟨S1600000x1, .i32⟩
  | .hbm, ⟨38, _⟩ => ⟨S1600000x1, .i1⟩
  | .hbm, ⟨39, _⟩ => ⟨S1600000x1, .i1⟩
  | .hbm, ⟨40, _⟩ => ⟨S_, .i1⟩
  | .hbm, ⟨41, _⟩ => ⟨S1600000, .i1⟩
  | .hbm, ⟨42, _⟩ => ⟨S1600000x128, .f32⟩
  | .hbm, ⟨43, _⟩ => ⟨S1600000x128, .i1⟩
  | .hbm, ⟨44, _⟩ => ⟨S_, .f32⟩
  | .hbm, ⟨45, _⟩ => ⟨S1600000x128, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S1x128, .f32⟩
  | .hbm, ⟨53, _⟩ => ⟨S128, .f32⟩
  | .hbm, ⟨54, _⟩ => ⟨S1x128, .f32⟩
  | .hbm, ⟨55, _⟩ => ⟨S1x128x128, .f32⟩
  | .hbm, ⟨56, _⟩ => ⟨S128x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1, .i32⟩
  | .hbm, ⟨67, _⟩ => ⟨S_, .i32⟩
  | .hbm, ⟨68, _⟩ => ⟨S1600000x1, .i32⟩
  | .hbm, ⟨69, _⟩ => ⟨S1600000x1, .i1⟩
  | .hbm, ⟨70, _⟩ => ⟨S1x1, .i32⟩
  | .hbm, ⟨71, _⟩ => ⟨S1600000x1, .i32⟩
  | .hbm, ⟨72, _⟩ => ⟨S1600000x1, .i1⟩
  | .hbm, ⟨73, _⟩ => ⟨S1600000x1, .i1⟩
  | .hbm, ⟨74, _⟩ => ⟨S_, .i1⟩
  | .hbm, ⟨75, _⟩ => ⟨S1600000, .i1⟩
  | .hbm, ⟨76, _⟩ => ⟨S1600000x128, .f32⟩
  | .hbm, ⟨77, _⟩ => ⟨S1600000x128, .i1⟩
  | .hbm, ⟨78, _⟩ => ⟨S_, .f32⟩
  | .hbm, ⟨79, _⟩ => ⟨S1600000x128, .f32⟩
  | .hbm, ⟨80, _⟩ => ⟨S1600000x128, .f32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S1x128, .f32⟩
  | .hbm, ⟨87, _⟩ => ⟨S128, .f32⟩
  | .hbm, ⟨88, _⟩ => ⟨S1x128, .f32⟩
  | .hbm, ⟨89, _⟩ => ⟨S1x128x128, .f32⟩
  | .hbm, ⟨90, _⟩ => ⟨S128x128, .f32⟩
  | .hbm, ⟨91, _⟩ => ⟨S100000x128, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1, .i32⟩
  | .hbm, ⟨101, _⟩ => ⟨S_, .i32⟩
  | .hbm, ⟨102, _⟩ => ⟨S1600000x1, .i32⟩
  | .hbm, ⟨103, _⟩ => ⟨S1600000x1, .i1⟩
  | .hbm, ⟨104, _⟩ => ⟨S1x1, .i32⟩
  | .hbm, ⟨105, _⟩ => ⟨S1600000x1, .i32⟩
  | .hbm, ⟨106, _⟩ => ⟨S1600000x1, .i1⟩
  | .hbm, ⟨107, _⟩ => ⟨S1600000x1, .i1⟩
  | .hbm, ⟨108, _⟩ => ⟨S_, .i1⟩
  | .hbm, ⟨109, _⟩ => ⟨S1600000, .i1⟩
  | .hbm, ⟨110, _⟩ => ⟨S1600000x128, .f32⟩
  | .hbm, ⟨111, _⟩ => ⟨S1600000x128, .i1⟩
  | .hbm, ⟨112, _⟩ => ⟨S_, .f32⟩
  | .hbm, ⟨113, _⟩ => ⟨S1600000x128, .f32⟩
  | .hbm, ⟨114, _⟩ => ⟨S1600000x128, .f32⟩
  | .hbm, ⟨115, _⟩ => ⟨S1600000x128, .f32⟩
  | .hbm, ⟨116, _⟩ => ⟨S_, .f32⟩
  | .hbm, ⟨117, _⟩ => ⟨S100000x128, .f32⟩
  | .hbm, ⟨118, _⟩ => ⟨S1600000x1, .i32⟩
  | .hbm, ⟨119, _⟩ => ⟨S100000x128, .f32⟩
  | .hbm, ⟨120, _⟩ => ⟨S1x128, .f32⟩
  | .hbm, ⟨121, _⟩ => ⟨S128, .f32⟩
  | .hbm, ⟨122, _⟩ => ⟨S1x128, .f32⟩
  | .hbm, ⟨123, _⟩ => ⟨S1x128x128, .f32⟩
  | .hbm, ⟨124, _⟩ => ⟨S128x128, .f32⟩
  | .hbm, ⟨125, _⟩ => ⟨S100000x128, .f32⟩
  | .hbm, ⟨126, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S8000x16, .f32⟩
  | .local _ .vmem, ⟨7, _⟩ => ⟨S8000x16, .f32⟩
  | .local _ .vmem, ⟨8, _⟩ => ⟨S16x128, .f32⟩
  | .local _ .vmem, ⟨9, _⟩ => ⟨S1x128, .f32⟩
  | .local _ .vmem, ⟨10, _⟩ => ⟨S8000x128, .f32⟩
  | .local _ .vmem, ⟨11, _⟩ => ⟨S8000x128, .f32⟩
  | .local _ .vmem, ⟨12, _⟩ => ⟨S8000x128, .f32⟩
  | .local _ .vmem, ⟨13, _⟩ => ⟨S8000x128, .f32⟩
  | .local _ .vmem, ⟨14, _⟩ => ⟨S8000x128, .f32⟩
  | .local _ .vmem, ⟨15, _⟩ => ⟨S8000x128, .f32⟩
  | .local _ .vmem, ⟨16, _⟩ => ⟨S8000x128, .f32⟩
  | .local _ .vmem, ⟨17, _⟩ => ⟨S8000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S8000x128, .f32⟩
  | .local _ .vmem, ⟨27, _⟩ => ⟨S8000x128, .f32⟩
  | .local _ .vmem, ⟨28, _⟩ => ⟨S8000x128, .f32⟩
  | .local _ .vmem, ⟨29, _⟩ => ⟨S8000x128, .f32⟩
  | .local _ .vmem, ⟨30, _⟩ => ⟨S8000x128, .f32⟩
  | .local _ .vmem, ⟨31, _⟩ => ⟨S8000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S8000x128, .f32⟩
  | .local _ .vmem, ⟨41, _⟩ => ⟨S8000x128, .f32⟩
  | .local _ .vmem, ⟨42, _⟩ => ⟨S8000x128, .f32⟩
  | .local _ .vmem, ⟨43, _⟩ => ⟨S8000x128, .f32⟩
  | .local _ .vmem, ⟨44, _⟩ => ⟨S8000x128, .f32⟩
  | .local _ .vmem, ⟨45, _⟩ => ⟨S8000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v11 : Ref sig .tc := ⟨.hbm, 46, rfl⟩
abbrev main_v12 : Ref sig .tc := ⟨.hbm, 47, rfl⟩
abbrev main_cst : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v22 : Ref sig .tc := ⟨.hbm, 80, rfl⟩
abbrev main_v23 : Ref sig .tc := ⟨.hbm, 81, rfl⟩
abbrev main_cst_0 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_call2_c : Ref sig .tc := ⟨.hbm, 92, rfl⟩
abbrev main_call2_v0 : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_c_1 : Ref sig .tc := ⟨.hbm, 100, rfl⟩
abbrev main_call2_c_2 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_3 : Ref sig .tc := ⟨.hbm, 108, rfl⟩
abbrev main_call2_v12 : Ref sig .tc := ⟨.hbm, 109, rfl⟩
abbrev main_call2_v13 : Ref sig .tc := ⟨.hbm, 110, rfl⟩
abbrev main_call2_v14 : Ref sig .tc := ⟨.hbm, 111, rfl⟩
abbrev main_call2_cst : Ref sig .tc := ⟨.hbm, 112, rfl⟩
abbrev main_call2_v15 : Ref sig .tc := ⟨.hbm, 113, rfl⟩
abbrev main_v33 : Ref sig .tc := ⟨.hbm, 114, rfl⟩
abbrev main_v34 : Ref sig .tc := ⟨.hbm, 115, rfl⟩
abbrev main_cst_1 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg3_0 : Ref sig .tc := ⟨.vmem, 51, rfl⟩
abbrev cc7_stg4_0 : Ref sig .tc := ⟨.vmem, 52, rfl⟩
abbrev cc7_stg4_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg1_1 : Ref sig .tc := ⟨.vmem, 57, rfl⟩
abbrev cc8_stg2_0 : Ref sig .tc := ⟨.vmem, 58, rfl⟩
abbrev cc8_stg3_0 : Ref sig .tc := ⟨.vmem, 59, rfl⟩
abbrev cc8_stg4_0 : Ref sig .tc := ⟨.vmem, 60, rfl⟩
abbrev cc8_stg5_0 : Ref sig .tc := ⟨.vmem, 61, rfl⟩
abbrev cc8_stg6_0 : Ref sig .tc := ⟨.vmem, 62, rfl⟩
abbrev cc8_stg6_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem3_0 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem3_0 : DmaSem sig := 51
abbrev cc7_sem4_0 : DmaSem sig := 52
abbrev cc7_sem4_1 : DmaSem sig := 53
abbrev cc8_sem0_0 : DmaSem sig := 54
abbrev cc8_sem0_1 : DmaSem sig := 55
abbrev cc8_sem1_0 : DmaSem sig := 56
abbrev cc8_sem1_1 : DmaSem sig := 57
abbrev cc8_sem2_0 : DmaSem sig := 58
abbrev cc8_sem3_0 : DmaSem sig := 59
abbrev cc8_sem4_0 : DmaSem sig := 60
abbrev cc8_sem5_0 : DmaSem sig := 61
abbrev cc8_sem6_0 : DmaSem sig := 62
abbrev cc8_sem6_1 : DmaSem sig := 63

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![200], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S8000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S8000x16_S8000x16_0_0 : ∀ a, (![0, 0] : Fin 2 → Nat) a + S8000x16.size a ≤ S8000x16.size a
  h_S8000x16 : 0 < S8000x16.numel
  inb_S16x128_S16x128_0_0 : ∀ a, (![0, 0] : Fin 2 → Nat) a + S16x128.size a ≤ S16x128.size a
  h_S16x128 : 0 < S16x128.numel
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  shapeCasts_S8000x128_S8000x128 : S8000x128.ShapeCasts S8000x128
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  reduces_S5000x128_S5000 : S5000x128.Reduces [1] S5000
  shapeCasts_S5000_S5000x1 : S5000.ShapeCasts S5000x1
  broadcasts_S5000x1_S5000x128 : S5000x1.Broadcasts S5000x128
  dot_S5000x64_S64x128_S5000x128_1_0_0_1_n_n_wf : DotDims.WF S5000x64 S64x128 S5000x128 [1] [0] [0] [1] [] []
  dot_S8000x16_S16x128_S8000x128_1_0_0_1_n_n_wf : DotDims.WF S8000x16 S16x128 S8000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S1600000x16.size a
  hwx1_0 : ∀ i : grid1.Coords, EltTy.bits .f32 = 32 ∨ (Rect.block (s := S1600000x16) S8000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S1600000x128.size a
  hwx1_3 : ∀ i : grid1.Coords, EltTy.bits .f32 = 32 ∨ (Rect.block (s := S1600000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S1600000x128.size a
  hwx2_0 : ∀ i : grid2.Coords, EltTy.bits .f32 = 32 ∨ (Rect.block (s := S1600000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S1600000x128.size a
  hwx2_1 : ∀ i : grid2.Coords, EltTy.bits .f32 = 32 ∨ (Rect.block (s := S1600000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S1600000x128.size a
  hwx2_2 : ∀ i : grid2.Coords, EltTy.bits .f32 = 32 ∨ (Rect.block (s := S1600000x128) S8000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S1600000x128.size a
  hwx4_0 : ∀ i : grid4.Coords, EltTy.bits .f32 = 32 ∨ (Rect.block (s := S1600000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S1600000x128.size a
  hwx4_1 : ∀ i : grid4.Coords, EltTy.bits .f32 = 32 ∨ (Rect.block (s := S1600000x128) S8000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x128.size a ≤ S1600000x128.size a
  hwx4_2 : ∀ i : grid4.Coords, EltTy.bits .f32 = 32 ∨ (Rect.block (s := S1600000x128) S8000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x128.size a ≤ S1600000x128.size a
  hwx6_0 : ∀ i : grid6.Coords, EltTy.bits .f32 = 32 ∨ (Rect.block (s := S1600000x128) S8000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x128.size a ≤ S1600000x128.size a
  hwx6_1 : ∀ i : grid6.Coords, EltTy.bits .f32 = 32 ∨ (Rect.block (s := S1600000x128) S8000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8000x128.size a ≤ S1600000x128.size a
  hwx6_2 : ∀ i : grid6.Coords, EltTy.bits .f32 = 32 ∨ (Rect.block (s := S1600000x128) S8000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S100000x128.size a
  hwx7_4 : ∀ i : grid7.Coords, EltTy.bits .f32 = 32 ∨ (Rect.block (s := S100000x128) S5000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S100000x128.size a
  hwx8_1 : ∀ i : grid8.Coords, EltTy.bits .f32 = 32 ∨ (Rect.block (s := S100000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S100000x128.size a
  hwx8_6 : ∀ i : grid8.Coords, EltTy.bits .f32 = 32 ∨ (Rect.block (s := S100000x128) S5000x128.size (cc8_transform_6 i) (hinb8_6 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S8000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v9) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v18) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v21) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v22) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v23) S8000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v21) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v26) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v31) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v29) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v32) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v33) S8000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v10) S8000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v34) S8000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v32) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v37) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v42) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v40) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v43) S5000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v9) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v43) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg9) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v6) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v7) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v8) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v44) S5000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S100000x64 : Shape := ⟨2, ![100000, 64]⟩
abbrev S1600000x16 : Shape := ⟨2, ![1600000, 16]⟩
abbrev S2x1600000 : Shape := ⟨2, ![2, 1600000]⟩
abbrev S64x128 : Shape := ⟨2, ![64, 128]⟩
abbrev S128 : Shape := ⟨1, ![128]⟩
abbrev S16x128 : Shape := ⟨2, ![16, 128]⟩
abbrev S3x128x128 : Shape := ⟨3, ![3, 128, 128]⟩
abbrev S3x128 : Shape := ⟨2, ![3, 128]⟩
abbrev S128x128 : Shape := ⟨2, ![128, 128]⟩
abbrev S1x1600000 : Shape := ⟨2, ![1, 1600000]⟩
abbrev S1600000 : Shape := ⟨1, ![1600000]⟩
abbrev S100000x128 : Shape := ⟨2, ![100000, 128]⟩
abbrev S1x128 : Shape := ⟨2, ![1, 128]⟩
abbrev S1600000x128 : Shape := ⟨2, ![1600000, 128]⟩
abbrev S_ : Shape := ⟨0, ![]⟩
abbrev S1600000x1 : Shape := ⟨2, ![1600000, 1]⟩
abbrev S1x128x128 : Shape := ⟨3, ![1, 128, 128]⟩
abbrev S100000 : Shape := ⟨1, ![100000]⟩
abbrev S100000x1 : Shape := ⟨2, ![100000, 1]⟩

abbrev nBuf : Space → Nat
  | .hbm => 158
  | .vmem => 0
  | .smem => 0
  | _ => 0

abbrev hbmTy0_0 (i : Nat) : BufTy := match i % 128 with
  | 0 => ⟨S100000x64, .f32⟩
  | 1 => ⟨S1600000x16, .f32⟩
  | 2 => ⟨S2x1600000, .i32⟩
  | 3 => ⟨S64x128, .f32⟩
  | 4 => ⟨S128, .f32⟩
  | 5 => ⟨S16x128, .f32⟩
  | 6 => ⟨S128, .f32⟩
  | 7 => ⟨S3x128x128, .f32⟩
  | 8 => ⟨S3x128, .f32⟩
  | 9 => ⟨S128x128, .f32⟩
  | 10 => ⟨S128, .f32⟩
  | 11 => ⟨S128, .f32⟩
  | 12 => ⟨S128, .f32⟩
  | 13 => ⟨S1x1600000, .i32⟩
  | 14 => ⟨S1600000, .i32⟩
  | 15 => ⟨S1x1600000, .i32⟩
  | 16 => ⟨S1600000, .i32⟩
  | 17 => ⟨S100000x128, .f32⟩
  | 18 => ⟨S1x128, .f32⟩
  | 19 => ⟨S100000x128, .f32⟩
  | 20 => ⟨S100000x128, .f32⟩
  | 21 => ⟨S1600000x128, .f32⟩
  | 22 => ⟨S1x128, .f32⟩
  | 23 => ⟨S1600000x128, .f32⟩
  | 24 => ⟨S1600000x128, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S1600000x128, .f32⟩
  | 35 => ⟨S_, .f32⟩
  | 36 => ⟨S1600000x128, .f32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S100000x128, .f32⟩
  | 43 => ⟨S1x128x128, .f32⟩
  | 44 => ⟨S128x128, .f32⟩
  | 45 => ⟨S100000x128, .f32⟩
  | 46 => ⟨S1x128, .f32⟩
  | 47 => ⟨S128, .f32⟩
  | 48 => ⟨S1x128, .f32⟩
  | 49 => ⟨S100000x128, .f32⟩
  | 50 => ⟨S100000x128, .f32⟩
  | 51 => ⟨S_, .f32⟩
  | 52 => ⟨S100000x128, .f32⟩
  | 53 => ⟨S100000x128, .i1⟩
  | 54 => ⟨S_, .f32⟩
  | 55 => ⟨S100000x128, .f32⟩
  | 56 => ⟨S100000x128, .f32⟩
  | 57 => ⟨S100000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S1600000x128, .f32⟩
  | 68 => ⟨S_, .f32⟩
  | 69 => ⟨S1600000x128, .f32⟩
  | 70 => ⟨S1600000x128, .f32⟩
  | 71 => ⟨S_, .f32⟩
  | 72 => ⟨S100000x128, .f32⟩
  | 73 => ⟨S1600000x1, .i32⟩
  | 74 => ⟨S100000x128, .f32⟩
  | 75 => ⟨S100000x128, .f32⟩
  | 76 => ⟨S1x128x128, .f32⟩
  | 77 => ⟨S128x128, .f32⟩
  | 78 => ⟨S100000x128, .f32⟩
  | 79 => ⟨S1x128, .f32⟩
  | 80 => ⟨S128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .i1⟩
  | 87 => ⟨S_, .f32⟩
  | 88 => ⟨S100000x128, .f32⟩
  | 89 => ⟨S100000x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S1600000x128, .f32⟩
  | 101 => ⟨S_, .f32⟩
  | 102 => ⟨S1600000x128, .f32⟩
  | 103 => ⟨S1600000x128, .f32⟩
  | 104 => ⟨S_, .f32⟩
  | 105 => ⟨S100000x128, .f32⟩
  | 106 => ⟨S1600000x1, .i32⟩
  | 107 => ⟨S100000x128, .f32⟩
  | 108 => ⟨S100000x128, .f32⟩
  | 109 => ⟨S1x128x128, .f32⟩
  | 110 => ⟨S128x128, .f32⟩
  | 111 => ⟨S100000x128, .f32⟩
  | 112 => ⟨S1x128, .f32⟩
  | 113 => ⟨S128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .i1⟩
  | 120 => ⟨S_, .f32⟩
  | 121 => ⟨S100000x128, .f32⟩
  | 122 => ⟨S100000x128, .f32⟩
  | 123 => ⟨S100000x128, .f32⟩
  | 124 => ⟨S100000x128, .f32⟩
  | 125 => ⟨S100000x128, .f32⟩
  | 126 => ⟨S1x128, .f32⟩
  | 127 => ⟨S100000x128, .f32⟩
  | _ => ⟨S100000x64, .f32⟩

abbrev hbmTy0_1 (i : Nat) : BufTy := match i % 128 with
  | 0 => ⟨S100000x128, .f32⟩
  | 1 => ⟨S_, .f32⟩
  | 2 => ⟨S100000, .f32⟩
  | 3 => ⟨S100000x1, .f32⟩
  | 4 => ⟨S_, .f32⟩
  | 5 => ⟨S100000x1, .f32⟩
  | 6 => ⟨S100000x1, .f32⟩
  | 7 => ⟨S100000x128, .f32⟩
  | 8 => ⟨S100000x128, .f32⟩
  | 9 => ⟨S100000x128, .f32⟩
  | 10 => ⟨S_, .f32⟩
  | 11 => ⟨S100000, .f32⟩
  | 12 => ⟨S100000x1, .f32⟩
  | 13 => ⟨S_, .f32⟩
  | 14 => ⟨S100000x1, .f32⟩
  | 15 => ⟨S100000x1, .f32⟩
  | 16 => ⟨S100000x128, .f32⟩
  | 17 => ⟨S100000x128, .f32⟩
  | 18 => ⟨S_, .f32⟩
  | 19 => ⟨S100000x1, .f32⟩
  | 20 => ⟨S100000x1, .f32⟩
  | 21 => ⟨S100000x1, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_1 : Ref sig .tc := ⟨.hbm, 51, rfl⟩
abbrev main_v33 : Ref sig .tc := ⟨.hbm, 52, rfl⟩
abbrev main_v34 : Ref sig .tc := ⟨.hbm, 53, rfl⟩
abbrev main_cst_2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_3 : Ref sig .tc := ⟨.hbm, 58, rfl⟩
abbrev main_v38 : Ref sig .tc := ⟨.hbm, 59, rfl⟩
abbrev main_v39 : Ref sig .tc := ⟨.hbm, 60, rfl⟩
abbrev main_c_4 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call2_cst : Ref sig .tc := ⟨.hbm, 68, rfl⟩
abbrev main_call2_v0 : Ref sig .tc := ⟨.hbm, 69, rfl⟩
abbrev main_v46 : Ref sig .tc := ⟨.hbm, 70, rfl⟩
abbrev main_cst_5 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_6 : Ref sig .tc := ⟨.hbm, 84, rfl⟩
abbrev main_v59 : Ref sig .tc := ⟨.hbm, 85, rfl⟩
abbrev main_v60 : Ref sig .tc := ⟨.hbm, 86, rfl⟩
abbrev main_cst_7 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_8 : Ref sig .tc := ⟨.hbm, 91, rfl⟩
abbrev main_v64 : Ref sig .tc := ⟨.hbm, 92, rfl⟩
abbrev main_v65 : Ref sig .tc := ⟨.hbm, 93, rfl⟩
abbrev main_c_9 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call4_cst : Ref sig .tc := ⟨.hbm, 101, rfl⟩
abbrev main_call4_v0 : Ref sig .tc := ⟨.hbm, 102, rfl⟩
abbrev main_v72 : Ref sig .tc := ⟨.hbm, 103, rfl⟩
abbrev main_cst_10 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_11 : Ref sig .tc := ⟨.hbm, 117, rfl⟩
abbrev main_v85 : Ref sig .tc := ⟨.hbm, 118, rfl⟩
abbrev main_v86 : Ref sig .tc := ⟨.hbm, 119, rfl⟩
abbrev main_cst_12 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_13 : Ref sig .tc := ⟨.hbm, 129, rfl⟩
abbrev main_v95 : Ref sig .tc := ⟨.hbm, 130, rfl⟩
abbrev main_v96 : Ref sig .tc := ⟨.hbm, 131, rfl⟩
abbrev main_cst_14 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_15 : Ref sig .tc := ⟨.hbm, 138, rfl⟩
abbrev main_v102 : Ref sig .tc := ⟨.hbm, 139, rfl⟩
abbrev main_v103 : Ref sig .tc := ⟨.hbm, 140, rfl⟩
abbrev main_cst_16 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_17 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S1600000x128_0_1 : S1x128.BroadcastsInDim S1600000x128 (![0, 1] : Fin 2 → Fin S1600000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  dot_S100000x64_S64x128_S100000x128_1_0_0_1_n_n_wf : DotDims.WF S100000x64 S64x128 S100000x128 [1] [0] [0] [1] [] []
  dot_S1600000x16_S16x128_S1600000x128_1_0_0_1_n_n_wf : DotDims.WF S1600000x16 S16x128 S1600000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S1600000x16_S16x128_S1600000x128_1_0_0_1_n_n : DotDims S1600000x16 S16x128 S1600000x128 where
  lhsContracting := [1]
  rhsContracting := [0]
  lhsNonContracting := [0]
  rhsNonContracting := [1]
  lhsBatch := []
  rhsBatch := []
  wf := dot_S1600000x16_S16x128_S1600000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
import Idealize.ShloMosaic.PureOps.Ideal
import Idealize.ShloMosaic.Lib.ValueIdx

/-!
The mathematics both programs compute, index by index over the extended reals.

A node row `p` of the network state is a vector of 128 numbers.  A dense layer sends row `p` of `x` to
`Σ_k x[p,k]·W[k,q] + b[q]`; a message is `max(h_src + e, 0)`; a node update is the leaky rectifier of a dense layer
applied to `h + agg`; the head is a dense layer of `skip + h` followed by a layer normalisation of each row.
Every constant is kept as the 32-bit word both programs carry.
-/

noncomputable section

namespace Cert.Spec

open Idealize.ShloMosaic Idealize.ShloMosaic.ValueIdx

/-- A two-axis array of extended reals. -/
abbrev A2 (a b : Nat) : Type := (⟨2, ![a, b]⟩ : Shape).Idx → EReal
/-- A one-axis array of extended reals. -/
abbrev A1 (a : Nat) : Type := (⟨1, ![a]⟩ : Shape).Idx → EReal

/-- A `1 × 128` array read as its one row. -/
def unrow (b2 : A2 1 128) : A1 128 := fun i => b2 (ix2 0 (i 0))

/-- The word of `0.0`. -/
abbrev zeroW : EReal := Ideal.ofBits .f32 0x00000000#32
/-- The word of the leaky slope `f32(0.01)`. -/
abbrev slopeW : EReal := Ideal.ofBits .f32 0x3C23D70A#32
/-- The word of `128.0`. -/
abbrev c128W : EReal := Ideal.ofBits .f32 0x43000000#32
/-- The word of `f32(1e-5)`. -/
abbrev epsW : EReal := Ideal.ofBits .f32 0x3727C5AC#32

/-- One entry of a dense layer: `Σ_k x[p,k]·W[k,q] + b[q]`. -/
def denseAt {M K : Nat} (x : A2 M K) (W : A2 K 128) (b : A1 128) (p : Fin M) (q : Fin 128) : EReal :=
  (∑ k : Fin K, x (ix2 p k) * W (ix2 k q)) + b (ix1 q)

/-- A dense layer over all rows. -/
def dense {M K : Nat} (x : A2 M K) (W : A2 K 128) (b : A1 128) : A2 M 128 :=
  fun i => denseAt x W b (i 0) (i 1)

/-- The message on an edge: `max(h_src + e, 0)`, entry by entry. -/
def msg {M : Nat} (hs e : A2 M 128) : A2 M 128 := fun i => max (hs i + e i) zeroW

/-- The leaky rectifier: `y` where `y ≥ 0`, else `slope · y`. -/
def leaky (y : EReal) : EReal :=
  Scalar.select (FloatOps.cmpf (F := Ideal) (φ := .f32) .oge y zeroW) y (slopeW * y)

/-- A node update: the leaky rectifier of a dense layer applied to `h + agg`. -/
def upd {M : Nat} (h agg : A2 M 128) (W : A2 128 128) (b : A1 128) : A2 M 128 :=
  fun i => leaky (denseAt (fun j => h j + agg j) W b (i 0) (i 1))

/-- Layer normalisation of one row `y` at lane `q`: `(y_q − μ)·rsqrt(σ² + ε)·γ_q + β_q` with `μ = Σy/128`,
    `σ² = Σ(y−μ)²/128`. -/
def lnAt (y : Fin 128 → EReal) (g b : A1 128) (q : Fin 128) : EReal :=
  let mu : EReal := Ideal.div (∑ k : Fin 128, y k) c128W
  let var : EReal := Ideal.div (∑ k : Fin 128, (y k - mu) * (y k - mu)) c128W
  (y q - mu) * Ideal.rsqrt (var + epsW) * g (ix1 q) + b (ix1 q)

/-- The head: a dense layer of `skip + h`, then the layer normalisation of each row. -/
def head {M : Nat} (skip h : A2 M 128) (W : A2 128 128) (b g bt : A1 128) : A2 M 128 :=
  fun i => lnAt (fun q => denseAt (fun j => skip j + h j) W b (i 0) q) g bt (i 1)

end Cert.Spec

end
-- ==== Proof.KTake.lean ====
import proofs.«412457_j20298015441381_1_alg».proof.KernelIdeal
import Idealize.ShloMosaic.PureOps.Ideal
import Idealize.ShloMosaic.Lib.ReduceAll
import Idealize.ShloMosaic.Lib.ValueIdx
import Idealize.ShloMosaic.Lib.Pipeline.Value
import Idealize.ShloMosaic.Lib.StableHlo.Predicate

noncomputable section

namespace Cert.KernelIdeal.KV

open Cert.KernelIdeal Idealize.ShloMosaic
open Cert.KernelIdeal.Facts₀ Cert.KernelIdeal.Facts

variable [Cert.KernelIdeal.Facts]

/-- Every source index is a node: `0 ≤ s < 100000` as signed 32-bit words. -/
def SrcOk (src : IVec S1600000 32) : Prop :=
  ∀ i : S1600000.Idx, IntOp.cmpi .sge (src i) 0#32 = 1#1 ∧ IntOp.cmpi .slt (src i) 100000#32 = 1#1

/-- The gather's index column: a negative source index counts from the end (`s + 100000`). -/
def widxK (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The kernel program's row look-up: the gathered rows where the wrapped index lies in `[0, 99999]`, the
    not-a-number word elsewhere. -/
def takeK (h : FVec Ideal S100000x128 .f32) (src : IVec S1600000 32) : FVec Ideal S1600000x128 .f32 :=
  select
    (broadcastInDim S1600000x128 ![0] bcast_S1600000_S1600000x128_0
      (Host.reduce IntOp.andi
        (andi (cmpi .sge (widxK src) (broadcastInDim S1600000x1 ![] bcast_S_S1600000x1 (constantI S_ 32 0#32)))
          (cmpi .sle (widxK src) (broadcastInDim S1600000x1 ![0, 1] bcast_S1x1_S1600000x1_0_1
            (broadcastInDim S1x1 ![1] bcast_S1_S1x1_1 (constantI S1 32 99999#32)))))
        (constantI S_ 1 1#1) reducesTo_S1600000x1_S1600000_d1 h_S_))
    (Host.gather gather_S100000x128_S1600000x1_S1600000x128_1_0_n_n_0_1_1128 h (widxK src))
    (broadcastInDim S1600000x128 ![] bcast_S_S1600000x128 (constant (F := Ideal) S_ .f32 0x7FC00000#32))

/-- A left fold by `and` from 1 over bits that are all 1 stays 1. -/
theorem foldl_andi_all_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_all_one f hf l

/-- A reduction by `and` from 1 of an array of bits that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_all_one x hx _

/-- A select on a bit that is 1 is its first operand. -/
theorem select_of_one {α : Type} (c : BitVec 1) (a b : α) (hc : c = 1#1) : Scalar.select c a b = a := by
  rw [hc]; exact ValueIdx.select_one a b

/-- The word arithmetic of the range test.  A signed word `s` with `0 ≤ s < 100000` is not negative, so the wrap leaves
    it alone, and it passes `0 ≤ s ≤ 99999`. -/
theorem wrap_in_range (s : BitVec 32) (h0 : IntOp.cmpi .sge s 0#32 = 1#1) (h1 : IntOp.cmpi .slt s 100000#32 = 1#1) :
    Scalar.select (IntOp.cmpi .slt s 0#32) (IntOp.addi s 100000#32) s = s ∧ IntOp.cmpi .sle s 99999#32 = 1#1 := by
  have z : (0#32 : BitVec 32).toInt = 0 := by decide
  have c : (100000#32 : BitVec 32).toInt = 100000 := by decide
  have c' : (99999#32 : BitVec 32).toInt = 99999 := by decide
  simp only [IntOp.cmpi, StableHlo.Predicate.ofBool_eq_one_iff, BitVec.sle, BitVec.slt, decide_eq_true_eq, z, c] at h0 h1
  constructor
  · have hn : IntOp.cmpi .slt s 0#32 = 0#1 := by
      simp only [IntOp.cmpi, BitVec.slt, z]
      rw [decide_eq_false (by omega)]
      rfl
    rw [hn]
    exact ValueIdx.select_zero _ _
  · simp only [IntOp.cmpi, StableHlo.Predicate.ofBool_eq_one_iff, BitVec.sle, decide_eq_true_eq, c']
    omega

/-- An entry of the index column is the wrapped source index of an edge. -/
theorem widxK_apply (src : IVec S1600000 32) (k : S1600000x1.Idx) :
    ∃ k' : S1600000.Idx,
      widxK src k = Scalar.select (IntOp.cmpi .slt (src k') 0#32) (IntOp.addi (src k') 100000#32) (src k') :=
  ⟨_, rfl⟩

/-- With every source index a node, the range test passes on every edge and the look-up is the plain gather. -/
theorem takeK_eq (h : FVec Ideal S100000x128 .f32) (src : IVec S1600000 32) (hs : SrcOk src) :
    takeK h src = Host.gather gather_S100000x128_S1600000x1_S1600000x128_1_0_n_n_0_1_1128 h (widxK src) := by
  funext i
  unfold takeK
  rw [ValueIdx.select_apply]
  refine select_of_one _ _ _ ?_
  -- the mask at `i` is the reduced range test at row `i 0`; the test is 1 at every entry of the index column
  unfold broadcastInDim
  refine reduce_andi_of_all _ _ _ _ rfl (fun k => ?_) _
  -- the index column at `k` is the wrapped source index of an edge `k'`, which the wrap leaves alone
  obtain ⟨k', hk⟩ := widxK_apply src k
  obtain ⟨hw, hle⟩ := wrap_in_range (src k') (hs k').1 (hs k').2
  have hk2 : widxK src k = src k' := hk.trans hw
  refine IntOp.andi_eq_one.2 ⟨?_, ?_⟩
  · show IntOp.cmpi .sge (widxK src k) 0#32 = 1#1
    rw [hk2]; exact (hs k').1
  · show IntOp.cmpi .sle (widxK src k) 99999#32 = 1#1
    rw [hk2]; exact hle

end Cert.KernelIdeal.KV

end
-- ==== Proof.KHost.lean ====
import proofs.«412457_j20298015441381_1_alg».proof.Proof.Gen.KernelIdeal.Frame
import proofs.«412457_j20298015441381_1_alg».proof.Proof.Spec
import proofs.«412457_j20298015441381_1_alg».proof.Proof.KTake
import Idealize.ShloMosaic.Lib.StableHlo.Run
import Idealize.ShloMosaic.Lib.Pipeline.Value
import Idealize.ShloMosaic.Lib.ValueLayout

/-!
The host operations between the kernel program's pallas_calls, read as values: from ANY buffer contents `W`, what each
stretch leaves in the buffers the next pallas_call (or a later stretch) reads — the edge list's two rows, the bias rows
as `1 × 128` arrays, the row look-up with its range test, the scatter-add, one layer's slice of the stacked weights —
and that it leaves every buffer it does not write as it found it.
-/

set_option maxRecDepth 16384

noncomputable section

namespace Cert.KernelIdeal.KV

open Cert.KernelIdeal Cert.KernelIdeal.Gen Idealize.ShloMosaic Idealize.ShloMosaic.TcCoe Idealize.SL.Sem
open Idealize.ShloMosaic.StableHlo

/-- Row 0 of the edge list: the source node of each edge. -/
def srcK (ei : IVec S2x1600000 32) : IVec S1600000 32 :=
  shapeCast S1600000 (extractStridedSlice S1x1600000 ![0, 0] ei slices_S2x1600000_S1x1600000_0_0) shapeCasts_S1x1600000_S1600000
/-- Row 1 of the edge list: the destination node of each edge. -/
def dstK (ei : IVec S2x1600000 32) : IVec S1600000 32 :=
  shapeCast S1600000 (extractStridedSlice S1x1600000 ![1, 0] ei slices_S2x1600000_S1x1600000_1_0) shapeCasts_S1x1600000_S1600000
/-- A vector of 128 numbers as a `1 × 128` array. -/
def rowK (b : FVec Ideal S128 .f32) : FVec Ideal S1x128 .f32 := shapeCast S1x128 b shapeCasts_S128_S1x128
/-- The messages summed into their destination rows, from zero. -/
def aggK (ms : FVec Ideal S1600000x128 .f32) (dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst) ms
/-- Layer 0's weight matrix and bias vector out of the stacked parameters. -/
def w0K (Wc : FVec Ideal S3x128x128 .f32) : FVec Ideal S128x128 .f32 :=
  shapeCast S128x128 (extractStridedSlice S1x128x128 ![0, 0, 0] Wc slices_S3x128x128_S1x128x128_0_0_0) shapeCasts_S1x128x128_S128x128
def b0K (bc : FVec Ideal S3x128 .f32) : FVec Ideal S128 .f32 :=
  shapeCast S128 (extractStridedSlice S1x128 ![0, 0] bc slices_S3x128_S1x128_0_0) shapeCasts_S1x128_S128
/-- Layer 1's. -/
def w1K (Wc : FVec Ideal S3x128x128 .f32) : FVec Ideal S128x128 .f32 :=
  shapeCast S128x128 (extractStridedSlice S1x128x128 ![1, 0, 0] Wc slices_S3x128x128_S1x128x128_1_0_0) shapeCasts_S1x128x128_S128x128
def b1K (bc : FVec Ideal S3x128 .f32) : FVec Ideal S128 .f32 :=
  shapeCast S128 (extractStridedSlice S1x128 ![1, 0] bc slices_S3x128_S1x128_1_0) shapeCasts_S1x128_S128
/-- Layer 2's. -/
def w2K (Wc : FVec Ideal S3x128x128 .f32) : FVec Ideal S128x128 .f32 :=
  shapeCast S128x128 (extractStridedSlice S1x128x128 ![2, 0, 0] Wc slices_S3x128x128_S1x128x128_2_0_0) shapeCasts_S1x128x128_S128x128
def b2K (bc : FVec Ideal S3x128 .f32) : FVec Ideal S128 .f32 :=
  shapeCast S128 (extractStridedSlice S1x128 ![2, 0] bc slices_S3x128_S1x128_2_0) shapeCasts_S1x128_S128

variable (W : Valuation τ sig (Elt Ideal))

/-! ## The first stretch: the edge list's rows and the bias rows -/

theorem h0_v1 : after hostOps0 W (Proc.devRef .tc main_v1) = srcK (W (Proc.devRef .tc main_arg2)) := by
  after_results; rfl
theorem h0_v3 : after hostOps0 W (Proc.devRef .tc main_v3) = dstK (W (Proc.devRef .tc main_arg2)) := by
  after_results; rfl
theorem h0_v4 : after hostOps0 W (Proc.devRef .tc main_v4) = rowK (W (Proc.devRef .tc main_arg4)) := by
  after_results; rfl
theorem h0_v5 : after hostOps0 W (Proc.devRef .tc main_v5) = rowK (W (Proc.devRef .tc main_arg6)) := by
  after_results; rfl
theorem h0_v6 : after hostOps0 W (Proc.devRef .tc main_v6) = rowK (W (Proc.devRef .tc main_arg10)) := by
  after_results; rfl
theorem h0_v7 : after hostOps0 W (Proc.devRef .tc main_v7) = rowK (W (Proc.devRef .tc main_arg11)) := by
  after_results; rfl
theorem h0_v8 : after hostOps0 W (Proc.devRef .tc main_v8) = rowK (W (Proc.devRef .tc main_arg12)) := by
  after_results; rfl

/-! ## The scatter-adds and the layers' parameter slices (three stretches of one shape) -/

theorem h3_v15 : after hostOps3 W (Proc.devRef .tc main_v15) = aggK (W (Proc.devRef .tc main_v12)) (W (Proc.devRef .tc main_v3)) := by
  after_results; rfl
theorem h3_v18 : after hostOps3 W (Proc.devRef .tc main_v18) = rowK (b0K (W (Proc.devRef .tc main_arg8))) := by
  after_results; rfl
theorem h3_v20 : after hostOps3 W (Proc.devRef .tc main_v20) = w0K (W (Proc.devRef .tc main_arg7)) := by
  after_results; rfl
theorem h5_v26 : after hostOps5 W (Proc.devRef .tc main_v26) = aggK (W (Proc.devRef .tc main_v23)) (W (Proc.devRef .tc main_v3)) := by
  after_results; rfl
theorem h5_v29 : after hostOps5 W (Proc.devRef .tc main_v29) = rowK (b1K (W (Proc.devRef .tc main_arg8))) := by
  after_results; rfl
theorem h5_v31 : after hostOps5 W (Proc.devRef .tc main_v31) = w1K (W (Proc.devRef .tc main_arg7)) := by
  after_results; rfl
theorem h7_v37 : after hostOps7 W (Proc.devRef .tc main_v37) = aggK (W (Proc.devRef .tc main_v34)) (W (Proc.devRef .tc main_v3)) := by
  after_results; rfl
theorem h7_v40 : after hostOps7 W (Proc.devRef .tc main_v40) = rowK (b2K (W (Proc.devRef .tc main_arg8))) := by
  after_results; rfl
theorem h7_v42 : after hostOps7 W (Proc.devRef .tc main_v42) = w2K (W (Proc.devRef .tc main_arg7)) := by
  after_results; rfl

/-- A vector read back out of its `1 × 128` array. -/
theorem unrow_rowK (b : FVec Ideal S128 .f32) : Cert.Spec.unrow (rowK b) = b := by
  funext i
  obtain ⟨q, rfl⟩ : ∃ q : Fin 128, i = ValueIdx.ix1 q := ⟨i 0, ValueIdx.eq_ix1 i⟩
  exact ValueIdx.shapeCast_a_1a_apply b _ 0 q

end Cert.KernelIdeal.KV

end
-- ==== Proof.KHostTake.lean ====
import proofs.«412457_j20298015441381_1_alg».proof.Proof.Gen.KernelIdeal.Frame
import proofs.«412457_j20298015441381_1_alg».proof.Proof.KTake
import Idealize.ShloMosaic.Lib.StableHlo.Run

/-!
The kernel program's three row look-ups, read as values: from ANY buffer contents `W`, the stretch of host operations
that `jnp.take` lowers to leaves in its result buffer the gathered rows passed through the range test (`takeK`) of the
node state and the source indices it finds in `W`.
-/

set_option maxRecDepth 16384

noncomputable section

namespace Cert.KernelIdeal.KV

open Cert.KernelIdeal Cert.KernelIdeal.Gen Idealize.ShloMosaic Idealize.ShloMosaic.TcCoe Idealize.SL.Sem
open Idealize.ShloMosaic.StableHlo

/-- The range test of an index column: 1 at the rows whose index lies in `[0, 99999]`. -/
def maskOf (idx : IVec S1600000x1 32) : IVec S1600000 1 :=
  Host.reduce IntOp.andi
    (andi (cmpi .sge idx (broadcastInDim S1600000x1 ![] bcast_S_S1600000x1 (constantI S_ 32 0#32)))
      (cmpi .sle idx (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The gathered rows passed through a row mask: the gathered row where the mask is 1, the not-a-number word elsewhere. -/
def pickOf (h : FVec Ideal S100000x128 .f32) (idx : IVec S1600000x1 32) (m : IVec S1600000 1) :
    FVec Ideal S1600000x128 .f32 :=
  select (broadcastInDim S1600000x128 ![0] bcast_S1600000_S1600000x128_0 m)
    (Host.gather gather_S100000x128_S1600000x1_S1600000x128_1_0_n_n_0_1_1128 h idx)
    (broadcastInDim S1600000x128 ![] bcast_S_S1600000x128 (constant (F := Ideal) S_ .f32 0x7FC00000#32))

/-- The row look-up is the pick of the gathered rows under the range test of the wrapped index column. -/
theorem takeK_eq_pick (h : FVec Ideal S100000x128 .f32) (src : IVec S1600000 32) :
    takeK h src = pickOf h (widxK src) (maskOf (widxK src)) := rfl

/-- A line of operations run as three stretches in a row: the first `n`, the next `m`, the rest. -/
theorem after_cut (ops : List (HloOp τ sig (Elt Ideal))) (V : Valuation τ sig (Elt Ideal)) (n m : Nat)
    (b : DevRef τ sig) :
    after ops V b = after ((ops.drop n).drop m) (after ((ops.drop n).take m) (after (ops.take n) V)) b := by
  rw [← after_append, ← after_append, List.take_append_drop, List.take_append_drop]

variable (W : Valuation τ sig (Elt Ideal))

/-! Reading a stretch: each operation's result is rewritten to its function's value at its own buffer and to what was
there at any other; a buffer's contents pass between a value's type and the buffer's own type along an equation of
types that is the identity at a literal buffer, so the transports cancel and what is left is the composed term. -/

/-! ### The first look-up

Its 23 operations in three stretches: the wrapped index column (8 operations), the range test (10), the gather and
the pick (5).  Each stretch is read from ANY contents: what it leaves in its result, and that it leaves alone the
buffers a later stretch reads. -/

/-- The first stretch leaves the wrapped source indices, as a column. -/
theorem idx0 : after (hostOps2.take 8) W (Proc.devRef .tc main_call0_v5) = widxK (W (Proc.devRef .tc main_v1)) := by
  simp only [hostOps2, List.take_succ_cons, List.take_zero, List.drop_succ_cons, List.drop_zero]
  after_results
  simp only [TRef.toBuf, TRef.ofBuf, cast_cast, cast_eq]
  unfold widxK
  rfl

/-- The first stretch does not write the node state. -/
theorem idx0_keep : after (hostOps2.take 8) W (Proc.devRef .tc main_v9) = W (Proc.devRef .tc main_v9) := by
  simp only [hostOps2, List.take_succ_cons, List.take_zero]
  after_results

/-- The second stretch leaves the range test of the index column it finds. -/
theorem mask0 : after ((hostOps2.drop 8).take 10) W (Proc.devRef .tc main_call0_v12) = maskOf (W (Proc.devRef .tc main_call0_v5)) := by
  simp only [hostOps2, List.take_succ_cons, List.take_zero, List.drop_succ_cons, List.drop_zero]
  after_results
  simp only [TRef.toBuf, TRef.ofBuf, cast_cast, cast_eq]
  unfold maskOf
  rfl

/-- The second stretch does not write the node state. -/
theorem mask0_keep_h : after ((hostOps2.drop 8).take 10) W (Proc.devRef .tc main_v9) = W (Proc.devRef .tc main_v9) := by
  simp only [hostOps2, List.take_succ_cons, List.take_zero, List.drop_succ_cons, List.drop_zero]
  after_results

/-- The second stretch does not write the index column. -/
theorem mask0_keep_idx : after ((hostOps2.drop 8).take 10) W (Proc.devRef .tc main_call0_v5) = W (Proc.devRef .tc main_call0_v5) := by
  simp only [hostOps2, List.take_succ_cons, List.take_zero, List.drop_succ_cons, List.drop_zero]
  after_results

/-- The third stretch leaves the pick of the gathered rows under the mask it finds. -/
theorem pick0 : after ((hostOps2.drop 8).drop 10) W (Proc.devRef .tc main_v11)
    = pickOf (W (Proc.devRef .tc main_v9)) (W (Proc.devRef .tc main_call0_v5)) (W (Proc.devRef .tc main_call0_v12)) := by
  simp only [hostOps2, List.take_succ_cons, List.take_zero, List.drop_succ_cons, List.drop_zero]
  after_results
  simp only [TRef.toBuf, TRef.ofBuf, cast_cast, cast_eq]
  unfold pickOf
  rfl

theorem h2_v11 : after hostOps2 W (Proc.devRef .tc main_v11) = takeK (W (Proc.devRef .tc main_v9)) (W (Proc.devRef .tc main_v1)) := by
  have hA := idx0 W
  have hAk := idx0_keep W
  have hB := mask0 (after (hostOps2.take 8) W)
  have hBk := mask0_keep_h (after (hostOps2.take 8) W)
  have hBi := mask0_keep_idx (after (hostOps2.take 8) W)
  have hC := pick0 (after ((hostOps2.drop 8).take 10) (after (hostOps2.take 8) W))
  rw [after_cut hostOps2 W 8 10, hC, hB, hBk, hBi, hA, hAk]
  exact (takeK_eq_pick _ _).symm

/-! ### The second look-up

Its 23 operations in three stretches: the wrapped index column (8 operations), the range test (10), the gather and
the pick (5).  Each stretch is read from ANY contents: what it leaves in its result, and that it leaves alone the
buffers a later stretch reads. -/

/-- The first stretch leaves the wrapped source indices, as a column. -/
theorem idx1 : after (hostOps4.take 8) W (Proc.devRef .tc main_call1_v5) = widxK (W (Proc.devRef .tc main_v1)) := by
  simp only [hostOps4, List.take_succ_cons, List.take_zero, List.drop_succ_cons, List.drop_zero]
  after_results
  simp only [TRef.toBuf, TRef.ofBuf, cast_cast, cast_eq]
  unfold widxK
  rfl

/-- The first stretch does not write the node state. -/
theorem idx1_keep : after (hostOps4.take 8) W (Proc.devRef .tc main_v21) = W (Proc.devRef .tc main_v21) := by
  simp only [hostOps4, List.take_succ_cons, List.take_zero]
  after_results

/-- The second stretch leaves the range test of the index column it finds. -/
theorem mask1 : after ((hostOps4.drop 8).take 10) W (Proc.devRef .tc main_call1_v12) = maskOf (W (Proc.devRef .tc main_call1_v5)) := by
  simp only [hostOps4, List.take_succ_cons, List.take_zero, List.drop_succ_cons, List.drop_zero]
  after_results
  simp only [TRef.toBuf, TRef.ofBuf, cast_cast, cast_eq]
  unfold maskOf
  rfl

/-- The second stretch does not write the node state. -/
theorem mask1_keep_h : after ((hostOps4.drop 8).take 10) W (Proc.devRef .tc main_v21) = W (Proc.devRef .tc main_v21) := by
  simp only [hostOps4, List.take_succ_cons, List.take_zero, List.drop_succ_cons, List.drop_zero]
  after_results

/-- The second stretch does not write the index column. -/
theorem mask1_keep_idx : after ((hostOps4.drop 8).take 10) W (Proc.devRef .tc main_call1_v5) = W (Proc.devRef .tc main_call1_v5) := by
  simp only [hostOps4, List.take_succ_cons, List.take_zero, List.drop_succ_cons, List.drop_zero]
  after_results

/-- The third stretch leaves the pick of the gathered rows under the mask it finds. -/
theorem pick1 : after ((hostOps4.drop 8).drop 10) W (Proc.devRef .tc main_v22)
    = pickOf (W (Proc.devRef .tc main_v21)) (W (Proc.devRef .tc main_call1_v5)) (W (Proc.devRef .tc main_call1_v12)) := by
  simp only [hostOps4, List.take_succ_cons, List.take_zero, List.drop_succ_cons, List.drop_zero]
  after_results
  simp only [TRef.toBuf, TRef.ofBuf, cast_cast, cast_eq]
  unfold pickOf
  rfl

theorem h4_v22 : after hostOps4 W (Proc.devRef .tc main_v22) = takeK (W (Proc.devRef .tc main_v21)) (W (Proc.devRef .tc main_v1)) := by
  have hA := idx1 W
  have hAk := idx1_keep W
  have hB := mask1 (after (hostOps4.take 8) W)
  have hBk := mask1_keep_h (after (hostOps4.take 8) W)
  have hBi := mask1_keep_idx (after (hostOps4.take 8) W)
  have hC := pick1 (after ((hostOps4.drop 8).take 10) (after (hostOps4.take 8) W))
  rw [after_cut hostOps4 W 8 10, hC, hB, hBk, hBi, hA, hAk]
  exact (takeK_eq_pick _ _).symm

/-! ### The third look-up

Its 23 operations in three stretches: the wrapped index column (8 operations), the range test (10), the gather and
the pick (5).  Each stretch is read from ANY contents: what it leaves in its result, and that it leaves alone the
buffers a later stretch reads. -/

/-- The first stretch leaves the wrapped source indices, as a column. -/
theorem idx2 : after (hostOps6.take 8) W (Proc.devRef .tc main_call2_v5) = widxK (W (Proc.devRef .tc main_v1)) := by
  simp only [hostOps6, List.take_succ_cons, List.take_zero, List.drop_succ_cons, List.drop_zero]
  after_results
  simp only [TRef.toBuf, TRef.ofBuf, cast_cast, cast_eq]
  unfold widxK
  rfl

/-- The first stretch does not write the node state. -/
theorem idx2_keep : after (hostOps6.take 8) W (Proc.devRef .tc main_v32) = W (Proc.devRef .tc main_v32) := by
  simp only [hostOps6, List.take_succ_cons, List.take_zero]
  after_results

/-- The second stretch leaves the range test of the index column it finds. -/
theorem mask2 : after ((hostOps6.drop 8).take 10) W (Proc.devRef .tc main_call2_v12) = maskOf (W (Proc.devRef .tc main_call2_v5)) := by
  simp only [hostOps6, List.take_succ_cons, List.take_zero, List.drop_succ_cons, List.drop_zero]
  after_results
  simp only [TRef.toBuf, TRef.ofBuf, cast_cast, cast_eq]
  unfold maskOf
  rfl

/-- The second stretch does not write the node state. -/
theorem mask2_keep_h : after ((hostOps6.drop 8).take 10) W (Proc.devRef .tc main_v32) = W (Proc.devRef .tc main_v32) := by
  simp only [hostOps6, List.take_succ_cons, List.take_zero, List.drop_succ_cons, List.drop_zero]
  after_results

/-- The second stretch does not write the index column. -/
theorem mask2_keep_idx : after ((hostOps6.drop 8).take 10) W (Proc.devRef .tc main_call2_v5) = W (Proc.devRef .tc main_call2_v5) := by
  simp only [hostOps6, List.take_succ_cons, List.take_zero, List.drop_succ_cons, List.drop_zero]
  after_results

/-- The third stretch leaves the pick of the gathered rows under the mask it finds. -/
theorem pick2 : after ((hostOps6.drop 8).drop 10) W (Proc.devRef .tc main_v33)
    = pickOf (W (Proc.devRef .tc main_v32)) (W (Proc.devRef .tc main_call2_v5)) (W (Proc.devRef .tc main_call2_v12)) := by
  simp only [hostOps6, List.take_succ_cons, List.take_zero, List.drop_succ_cons, List.drop_zero]
  after_results
  simp only [TRef.toBuf, TRef.ofBuf, cast_cast, cast_eq]
  unfold pickOf
  rfl

theorem h6_v33 : after hostOps6 W (Proc.devRef .tc main_v33) = takeK (W (Proc.devRef .tc main_v32)) (W (Proc.devRef .tc main_v1)) := by
  have hA := idx2 W
  have hAk := idx2_keep W
  have hB := mask2 (after (hostOps6.take 8) W)
  have hBk := mask2_keep_h (after (hostOps6.take 8) W)
  have hBi := mask2_keep_idx (after (hostOps6.take 8) W)
  have hC := pick2 (after ((hostOps6.drop 8).take 10) (after (hostOps6.take 8) W))
  rw [after_cut hostOps6 W 8 10, hC, hB, hBk, hBi, hA, hAk]
  exact (takeK_eq_pick _ _).symm

end Cert.KernelIdeal.KV

end
-- ==== Proof.KDense0.lean ====
import proofs.«412457_j20298015441381_1_alg».proof.Proof.Gen.KernelIdeal.Frame
import proofs.«412457_j20298015441381_1_alg».proof.Proof.Spec
import Idealize.ShloMosaic.Lib.Pipeline.Value
import Idealize.ShloMosaic.Lib.ValueLayout
import Idealize.ShloMosaic.PureOps.Ideal.Laws

/-!
A dense layer computed block by block.  The region walks its grid; at a point it holds a block of rows of the input,
the whole weight matrix and the bias row, and writes the block of rows `Σ_k x[p,k]·W[k,q] + b[q]` of the output.  Here:
the body's arithmetic at one entry of its block, each block as the rows of its array, and the output array after the
whole grid as the specification's dense layer of the arrays as the region finds them.
-/

noncomputable section

namespace Cert.KernelIdeal.KV

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The contraction of this dense layer, entry by entry -/

/-- Row axis of the left operand: the output's row. -/
theorem lhs_dense0_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- Column axis of the left operand: the summation variable. -/
theorem lhs_dense0_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- Row axis of the right operand: the summation variable. -/
theorem rhs_dense0_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
/-- Column axis of the right operand: the output's column. -/
theorem rhs_dense0_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The product of a block of rows with the weight matrix, accumulated onto zero, at entry `(p, q)`:
    `Σ_k x[p,k]·W[k,q]`. -/
theorem matmul_dense0_apply (x : FVec Ideal S5000x64 .bf16) (W : FVec Ideal S64x128 .bf16) (p : Fin 5000) (q : Fin 128) :
    FloatOps.matmul dot_S5000x64_S64x128_S5000x128_1_0_0_1_n_n none x W (constant (F := Ideal) S5000x128 .f32 0x00000000#32) (ix2 p q)
      = ∑ k : Fin 64, x (ix2 p k) * W (ix2 k q) := by
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p q) ((ValueIdx.contrEquiv1 dot_S5000x64_S64x128_S5000x128_1_0_0_1_n_n 64 rfl rfl).symm k) = ix2 p k := funext fun a => Fin.ext (by
    match a with
    | ⟨0, _⟩ => exact lhs_dense0_0 _ _
    | ⟨1, _⟩ => exact (lhs_dense0_1 _ _).trans hk)
  have er : dot_S5000x64_S64x128_S5000x128_1_0_0_1_n_n.rhsIdx (ix2 p q) ((ValueIdx.contrEquiv1 dot_S5000x64_S64x128_S5000x128_1_0_0_1_n_n 64 rfl rfl).symm k) = ix2 k q := funext fun a => Fin.ext (by
    match a with
    | ⟨0, _⟩ => exact (rhs_dense0_0 _ _).trans hk
    | ⟨1, _⟩ => exact rhs_dense0_1 _ _)
  rw [el, er]

/-- The body's arithmetic at entry `(p, q)` of its block: the rounding to the narrower format is the identity on the
    extended reals, the bias row is repeated down the block, so the entry is `Σ_k x[p,k]·W[k,q] + b[0,q]`. -/
theorem pay_dense0_apply (x0 : Vec Ideal S5000x64 .f32) (x1 : Vec Ideal S64x128 .f32) (x2 : Vec Ideal S1x128 .f32)
    (p : Fin 5000) (q : Fin 128) :
    (k0_pay1 (F := Ideal) x0 x1 x2) (ix2 p q) = (∑ k : Fin 64, x0 (ix2 p k) * x1 (ix2 k q)) + x2 (ix2 (0 : Fin 1) q) := by
  unfold k0_pay1
  refine (addf_apply _ _ _).trans ?_
  refine congrArg₂ (· + ·) ?_ ?_
  · exact matmul_dense0_apply _ _ p q
  · rw [shapeCast_self]
    exact broadcastTo_1b_ab_apply x2 broadcasts_S1x128_S5000x128 p q

/-! ## The specification's entry, as a function of the entries it reads -/

/-- An entry of the dense layer depends only on row `p` of `x`, column `q` of `W` and entry `q` of `b`. -/
theorem denseAt_congr_dense0 {M M' K : Nat} (x : Cert.Spec.A2 M K) (x' : Cert.Spec.A2 M' K) (W W' : Cert.Spec.A2 K 128)
    (b b' : Cert.Spec.A1 128) (p : Fin M) (r : Fin M') (q : Fin 128)
    (hx : ∀ k : Fin K, x (ix2 p k) = x' (ix2 r k)) (hW : ∀ k : Fin K, W (ix2 k q) = W' (ix2 k q))
    (hb : b (ix1 q) = b' (ix1 q)) :
    Cert.Spec.denseAt x W b p q = Cert.Spec.denseAt x' W' b' r q := by
  unfold Cert.Spec.denseAt
  rw [hb]
  exact congrArg (· + b' (ix1 q)) (Finset.sum_congr rfl fun k _ => by rw [hx k, hW k])

/-- The dense layer at an index whose coordinates are `r` and `q`. -/
theorem dense_at_dense0 {M K : Nat} (x : Cert.Spec.A2 M K) (W : Cert.Spec.A2 K 128) (b : Cert.Spec.A1 128)
    (i : (⟨2, ![M, 128]⟩ : Shape).Idx) (r : Fin M) (q : Fin 128) (h0 : (i 0).val = r.val) (h1 : (i 1).val = q.val) :
    Cert.Spec.dense x W b i = Cert.Spec.denseAt x W b r q :=
  (congrArg₂ (Cert.Spec.denseAt x W b) (Fin.ext h0) (Fin.ext h1) :
    Cert.Spec.denseAt x W b (i 0) (i 1) = Cert.Spec.denseAt x W b r q)

/-- The body's arithmetic at entry `(p, q)` of its block is the specification's entry of the block's rows. -/
theorem pay_dense0_spec (x0 : Vec Ideal S5000x64 .f32) (x1 : Vec Ideal S64x128 .f32) (x2 : Vec Ideal S1x128 .f32)
    (p : Fin 5000) (q : Fin 128) :
    (k0_pay1 (F := Ideal) x0 x1 x2) (ix2 p q) = Cert.Spec.denseAt (M := 5000) (K := 64) x0 x1 (Cert.Spec.unrow x2) p q :=
  pay_dense0_apply x0 x1 x2 p q

/-! ## From the blocks to the whole array -/

theorem zero_offsets_dense0 : (![0, 0] : Fin 2 → Nat) = fun _ => 0 := funext fun a => by fin_cases a <;> rfl

/-- The block index maps, decided once over the grid's 20 points: the rows of `x` and of the output move with the
    point, the weight matrix and the bias row stay at block `(0, 0)`. -/
theorem block_indices_dense0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(p, k)` of the block of `x` at point `t` is entry `(5000·t + p, k)` of `x`. -/
theorem x_block_dense0 (c : Dev nD) (t : Fin cfg0.N) (p : Fin 5000) (k : Fin 64) (r : Fin 100000) (hr : r.val = t.val * 5000 + p.val) :
    (iblk0 V c 0 t : Vec Ideal S5000x64 .f32) (ix2 p k) = (V c main_arg0 : S100000x64.Idx → Elt Ideal .f32) (ix2 r k) := by
  obtain ⟨e0, e1, -⟩ := block_indices_dense0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega

/-- The block of the weight matrix at every point is the whole matrix. -/
theorem w_block_dense0 (c : Dev nD) (t : Fin cfg0.N) (k : Fin 64) (q : Fin 128) :
    (iblk0 V c 1 t : Vec Ideal S64x128 .f32) (ix2 k q) = (V c main_arg3 : S64x128.Idx → Elt Ideal .f32) (ix2 k q) := by
  obtain ⟨-, -, e0, e1, -⟩ := block_indices_dense0 t
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 64 + 1 * k.val = k.val; omega
  | ⟨1, _⟩ => show win0_1.index t (1 : Fin 2) * 128 + 1 * q.val = q.val; omega

/-- The block of the bias at every point is its one row. -/
theorem b_block_dense0 (c : Dev nD) (t : Fin cfg0.N) (q : Fin 128) :
    (iblk0 V c 2 t : Vec Ideal S1x128 .f32) (ix2 (0 : Fin 1) q) = (V c main_v4 : S1x128.Idx → Elt Ideal .f32) (ix2 (0 : Fin 1) q) := by
  obtain ⟨-, -, -, -, e0, e1, -⟩ := block_indices_dense0 t
  show V c main_v4 (((cfg0.win 2).blk t).view.emb (ix2 (0 : Fin 1) q)) = V c main_v4 (ix2 (0 : Fin 1) q)
  refine congrArg (V c main_v4) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- WHAT POINT `t` WRITES BACK is block `t` of the dense layer of the arrays as the region finds them. -/
theorem flushed_dense0 (c : Dev nD) (t : Fin cfg0.N) :
    (dat0 (F := Ideal) V c).flushed 3 t = ((cfg0.win 3).blk t).view.read (Elt Ideal)
      (Cert.Spec.dense (V c main_arg0) (V c main_arg3) (Cert.Spec.unrow (V c main_v4))) := by
  show (cfg0.win 3).cut (grid0.coords t) ((dat0 V c).after 3 t) = _
  rw [after0_3]
  unfold out0_3
  rw [View.canon_unit_zero zero_offsets_dense0]
  simp only [View.ld_unit_zero (S := S5000x64) zero_offsets_dense0, View.ld_unit_zero (S := S64x128) zero_offsets_dense0, View.ld_unit_zero (S := S1x128) zero_offsets_dense0]
  obtain ⟨-, -, -, -, -, -, e0, e1⟩ := block_indices_dense0 t
  have key : ∀ j : S5000x128.Idx, (k0_pay1 (F := Ideal) (iblk0 V c 0 t) (iblk0 V c 1 t) (iblk0 V c 2 t)) j
      = Cert.Spec.dense (V c main_arg0) (V c main_arg3) (Cert.Spec.unrow (V c main_v4)) (((cfg0.win 3).blk t).view.emb j) := by
    intro j
    obtain ⟨p, q, rfl⟩ : ∃ (p : Fin 5000) (q : Fin 128), j = ix2 p q := ⟨j 0, j 1, eq_ix2 j⟩
    have hN : cfg0.N = 20 := N_0
    have ht : t.val < cfg0.N := t.isLt
    have hp : p.val < 5000 := p.isLt
    have h0 : ((((cfg0.win 3).blk t).view.emb (ix2 p q)) 0).val = t.val * 5000 + p.val := by
      show win0_3.index t (0 : Fin 2) * 5000 + 1 * p.val = _; omega
    have h1 : ((((cfg0.win 3).blk t).view.emb (ix2 p q)) 1).val = q.val := by
      show win0_3.index t (1 : Fin 2) * 128 + 1 * q.val = _; omega
    refine (pay_dense0_spec _ _ _ p q).trans ?_
    refine (denseAt_congr_dense0 _ (V c main_arg0) _ (V c main_arg3) _ (Cert.Spec.unrow (V c main_v4)) p
      (⟨t.val * 5000 + p.val, by omega⟩ : Fin 100000) q
      (fun k => x_block_dense0 V c t p k _ rfl) (fun k => w_block_dense0 V c t k q) (b_block_dense0 V c t q)).trans ?_
    exact (dense_at_dense0 _ _ _ _ _ q h0 h1).symm
  exact funext key

/-- An index of the array is in point `t`'s block iff each coordinate is in the block's range on its axis. -/
theorem mem_block_dense0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v9).slice (win0_3.rect t)).set ↔ _
  rw [View.set_slice_whole, Rect.mem_set_unit]
  exact Iff.rfl

/-- Every entry of the output lies in some point's block: row `r` in the block of point `r / 5000`. -/
theorem cover_dense0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have htv : t.val = (i 0).val / 5000 := rfl
  obtain ⟨-, -, -, -, -, -, e0, e1⟩ := block_indices_dense0 t
  refine ⟨t, flush0_3 t, ?_⟩
  rw [mem_block_dense0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY after the region: the dense layer of `x`, the weight matrix and the bias row as the region finds them. -/
theorem region0_arr (c : Dev nD) :
    (dat0 (F := Ideal) V c).arrAt 3 cfg0.N = Cert.Spec.dense (V c main_arg0) (V c main_arg3) (Cert.Spec.unrow (V c main_v4)) :=
  (dat0 (F := Ideal) V c).arrAt_eq_of_cover 3 _ (fun t _ => flushed_dense0 V c t) cover_dense0

end Cert.KernelIdeal.KV

end
-- ==== Proof.KDense1.lean ====
import proofs.«412457_j20298015441381_1_alg».proof.Proof.Gen.KernelIdeal.Frame
import proofs.«412457_j20298015441381_1_alg».proof.Proof.Spec
import Idealize.ShloMosaic.Lib.Pipeline.Value
import Idealize.ShloMosaic.Lib.ValueLayout
import Idealize.ShloMosaic.PureOps.Ideal.Laws

/-!
A dense layer computed block by block.  The region walks its grid; at a point it holds a block of rows of the input,
the whole weight matrix and the bias row, and writes the block of rows `Σ_k x[p,k]·W[k,q] + b[q]` of the output.  Here:
the body's arithmetic at one entry of its block, each block as the rows of its array, and the output array after the
whole grid as the specification's dense layer of the arrays as the region finds them.
-/

noncomputable section

namespace Cert.KernelIdeal.KV

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The contraction of this dense layer, entry by entry -/

/-- Row axis of the left operand: the output's row. -/
theorem lhs_dense1_0 (i : S8000x128.Idx) (q : dot_S8000x16_S16x128_S8000x128_1_0_0_1_n_n.contr.Idx) :
    (dot_S8000x16_S16x128_S8000x128_1_0_0_1_n_n.lhsIdx i q 0).val = (i 0).val := by
  unfold DotDims.lhsIdx
  rw [dif_neg (show ¬(0 : Fin S8000x16.rank) ∈ dot_S8000x16_S16x128_S8000x128_1_0_0_1_n_n.lhsBatch by decide), dif_pos (show (0 : Fin S8000x16.rank) ∈ dot_S8000x16_S16x128_S8000x128_1_0_0_1_n_n.lhsNonContracting by decide)]
  rfl
/-- Column axis of the left operand: the summation variable. -/
theorem lhs_dense1_1 (i : S8000x128.Idx) (q : dot_S8000x16_S16x128_S8000x128_1_0_0_1_n_n.contr.Idx) :
    (dot_S8000x16_S16x128_S8000x128_1_0_0_1_n_n.lhsIdx i q 1).val = (q ⟨0, by decide⟩).val :=
  dot_S8000x16_S16x128_S8000x128_1_0_0_1_n_n.lhsIdx_val_of_single rfl i q
/-- Row axis of the right operand: the summation variable. -/
theorem rhs_dense1_0 (i : S8000x128.Idx) (q : dot_S8000x16_S16x128_S8000x128_1_0_0_1_n_n.contr.Idx) :
    (dot_S8000x16_S16x128_S8000x128_1_0_0_1_n_n.rhsIdx i q 0).val = (q ⟨0, by decide⟩).val :=
  dot_S8000x16_S16x128_S8000x128_1_0_0_1_n_n.rhsIdx_val_of_single rfl i q
/-- Column axis of the right operand: the output's column. -/
theorem rhs_dense1_1 (i : S8000x128.Idx) (q : dot_S8000x16_S16x128_S8000x128_1_0_0_1_n_n.contr.Idx) :
    (dot_S8000x16_S16x128_S8000x128_1_0_0_1_n_n.rhsIdx i q 1).val = (i 1).val := by
  unfold DotDims.rhsIdx
  rw [dif_neg (show ¬(1 : Fin S16x128.rank) ∈ dot_S8000x16_S16x128_S8000x128_1_0_0_1_n_n.rhsBatch by decide), dif_pos (show (1 : Fin S16x128.rank) ∈ dot_S8000x16_S16x128_S8000x128_1_0_0_1_n_n.rhsNonContracting by decide)]
  rfl

/-- The product of a block of rows with the weight matrix, accumulated onto zero, at entry `(p, q)`:
    `Σ_k x[p,k]·W[k,q]`. -/
theorem matmul_dense1_apply (x : FVec Ideal S8000x16 .bf16) (W : FVec Ideal S16x128 .bf16) (p : Fin 8000) (q : Fin 128) :
    FloatOps.matmul dot_S8000x16_S16x128_S8000x128_1_0_0_1_n_n none x W (constant (F := Ideal) S8000x128 .f32 0x00000000#32) (ix2 p q)
      = ∑ k : Fin 16, x (ix2 p k) * W (ix2 k q) := by
  rw [Ideal.matmul_constant_zero_apply, ← Equiv.sum_comp (ValueIdx.contrEquiv1 dot_S8000x16_S16x128_S8000x128_1_0_0_1_n_n 16 rfl rfl).symm]
  refine Finset.sum_congr rfl fun k _ => ?_
  have hk := ValueIdx.contrEquiv1_symm_val dot_S8000x16_S16x128_S8000x128_1_0_0_1_n_n 16 rfl rfl k
  have el : dot_S8000x16_S16x128_S8000x128_1_0_0_1_n_n.lhsIdx (ix2 p q) ((ValueIdx.contrEquiv1 dot_S8000x16_S16x128_S8000x128_1_0_0_1_n_n 16 rfl rfl).symm k) = ix2 p k := funext fun a => Fin.ext (by
    match a with
    | ⟨0, _⟩ => exact lhs_dense1_0 _ _
    | ⟨1, _⟩ => exact (lhs_dense1_1 _ _).trans hk)
  have er : dot_S8000x16_S16x128_S8000x128_1_0_0_1_n_n.rhsIdx (ix2 p q) ((ValueIdx.contrEquiv1 dot_S8000x16_S16x128_S8000x128_1_0_0_1_n_n 16 rfl rfl).symm k) = ix2 k q := funext fun a => Fin.ext (by
    match a with
    | ⟨0, _⟩ => exact (rhs_dense1_0 _ _).trans hk
    | ⟨1, _⟩ => exact rhs_dense1_1 _ _)
  rw [el, er]

/-- The body's arithmetic at entry `(p, q)` of its block: the rounding to the narrower format is the identity on the
    extended reals, the bias row is repeated down the block, so the entry is `Σ_k x[p,k]·W[k,q] + b[0,q]`. -/
theorem pay_dense1_apply (x0 : Vec Ideal S8000x16 .f32) (x1 : Vec Ideal S16x128 .f32) (x2 : Vec Ideal S1x128 .f32)
    (p : Fin 8000) (q : Fin 128) :
    (k1_pay1 (F := Ideal) x0 x1 x2) (ix2 p q) = (∑ k : Fin 16, x0 (ix2 p k) * x1 (ix2 k q)) + x2 (ix2 (0 : Fin 1) q) := by
  unfold k1_pay1
  refine (addf_apply _ _ _).trans ?_
  refine congrArg₂ (· + ·) ?_ ?_
  · exact matmul_dense1_apply _ _ p q
  · rw [shapeCast_self]
    exact broadcastTo_1b_ab_apply x2 broadcasts_S1x128_S8000x128 p q

/-! ## The specification's entry, as a function of the entries it reads -/

/-- An entry of the dense layer depends only on row `p` of `x`, column `q` of `W` and entry `q` of `b`. -/
theorem denseAt_congr_dense1 {M M' K : Nat} (x : Cert.Spec.A2 M K) (x' : Cert.Spec.A2 M' K) (W W' : Cert.Spec.A2 K 128)
    (b b' : Cert.Spec.A1 128) (p : Fin M) (r : Fin M') (q : Fin 128)
    (hx : ∀ k : Fin K, x (ix2 p k) = x' (ix2 r k)) (hW : ∀ k : Fin K, W (ix2 k q) = W' (ix2 k q))
    (hb : b (ix1 q) = b' (ix1 q)) :
    Cert.Spec.denseAt x W b p q = Cert.Spec.denseAt x' W' b' r q := by
  unfold Cert.Spec.denseAt
  rw [hb]
  exact congrArg (· + b' (ix1 q)) (Finset.sum_congr rfl fun k _ => by rw [hx k, hW k])

/-- The dense layer at an index whose coordinates are `r` and `q`. -/
theorem dense_at_dense1 {M K : Nat} (x : Cert.Spec.A2 M K) (W : Cert.Spec.A2 K 128) (b : Cert.Spec.A1 128)
    (i : (⟨2, ![M, 128]⟩ : Shape).Idx) (r : Fin M) (q : Fin 128) (h0 : (i 0).val = r.val) (h1 : (i 1).val = q.val) :
    Cert.Spec.dense x W b i = Cert.Spec.denseAt x W b r q :=
  (congrArg₂ (Cert.Spec.denseAt x W b) (Fin.ext h0) (Fin.ext h1) :
    Cert.Spec.denseAt x W b (i 0) (i 1) = Cert.Spec.denseAt x W b r q)

/-- The body's arithmetic at entry `(p, q)` of its block is the specification's entry of the block's rows. -/
theorem pay_dense1_spec (x0 : Vec Ideal S8000x16 .f32) (x1 : Vec Ideal S16x128 .f32) (x2 : Vec Ideal S1x128 .f32)
    (p : Fin 8000) (q : Fin 128) :
    (k1_pay1 (F := Ideal) x0 x1 x2) (ix2 p q) = Cert.Spec.denseAt (M := 8000) (K := 16) x0 x1 (Cert.Spec.unrow x2) p q :=
  pay_dense1_apply x0 x1 x2 p q

/-! ## From the blocks to the whole array -/

theorem zero_offsets_dense1 : (![0, 0] : Fin 2 → Nat) = fun _ => 0 := funext fun a => by fin_cases a <;> rfl

/-- The block index maps, decided once over the grid's 200 points: the rows of `x` and of the output move with the
    point, the weight matrix and the bias row stay at block `(0, 0)`. -/
theorem block_indices_dense1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry `(p, k)` of the block of `x` at point `t` is entry `(8000·t + p, k)` of `x`. -/
theorem x_block_dense1 (c : Dev nD) (t : Fin cfg1.N) (p : Fin 8000) (k : Fin 16) (r : Fin 1600000) (hr : r.val = t.val * 8000 + p.val) :
    (iblk1 V c 0 t : Vec Ideal S8000x16 .f32) (ix2 p k) = (V c main_arg1 : S1600000x16.Idx → Elt Ideal .f32) (ix2 r k) := by
  obtain ⟨e0, e1, -⟩ := block_indices_dense1 t
  show V c main_arg1 (((cfg1.win 0).blk t).view.emb (ix2 p k)) = V c main_arg1 (ix2 r k)
  refine congrArg (V c main_arg1) (funext fun a => Fin.ext ?_)
  match a with
  | ⟨0, _⟩ => show win1_0.index t (0 : Fin 2) * 8000 + 1 * p.val = r.val; omega
  | ⟨1, _⟩ => show win1_0.index t (1 : Fin 2) * 16 + 1 * k.val = k.val; omega

/-- The block of the weight matrix at every point is the whole matrix. -/
theorem w_block_dense1 (c : Dev nD) (t : Fin cfg1.N) (k : Fin 16) (q : Fin 128) :
    (iblk1 V c 1 t : Vec Ideal S16x128 .f32) (ix2 k q) = (V c main_arg5 : S16x128.Idx → Elt Ideal .f32) (ix2 k q) := by
  obtain ⟨-, -, e0, e1, -⟩ := block_indices_dense1 t
  show V c main_arg5 (((cfg1.win 1).blk t).view.emb (ix2 k q)) = V c main_arg5 (ix2 k q)
  refine congrArg (V c main_arg5) (funext fun a => Fin.ext ?_)
  match a with
  | ⟨0, _⟩ => show win1_1.index t (0 : Fin 2) * 16 + 1 * k.val = k.val; omega
  | ⟨1, _⟩ => show win1_1.index t (1 : Fin 2) * 128 + 1 * q.val = q.val; omega

/-- The block of the bias at every point is its one row. -/
theorem b_block_dense1 (c : Dev nD) (t : Fin cfg1.N) (q : Fin 128) :
    (iblk1 V c 2 t : Vec Ideal S1x128 .f32) (ix2 (0 : Fin 1) q) = (V c main_v5 : S1x128.Idx → Elt Ideal .f32) (ix2 (0 : Fin 1) q) := by
  obtain ⟨-, -, -, -, e0, e1, -⟩ := block_indices_dense1 t
  show V c main_v5 (((cfg1.win 2).blk t).view.emb (ix2 (0 : Fin 1) q)) = V c main_v5 (ix2 (0 : Fin 1) q)
  refine congrArg (V c main_v5) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- WHAT POINT `t` WRITES BACK is block `t` of the dense layer of the arrays as the region finds them. -/
theorem flushed_dense1 (c : Dev nD) (t : Fin cfg1.N) :
    (dat1 (F := Ideal) V c).flushed 3 t = ((cfg1.win 3).blk t).view.read (Elt Ideal)
      (Cert.Spec.dense (V c main_arg1) (V c main_arg5) (Cert.Spec.unrow (V c main_v5))) := by
  show (cfg1.win 3).cut (grid1.coords t) ((dat1 V c).after 3 t) = _
  rw [after1_3]
  unfold out1_3
  rw [View.canon_unit_zero zero_offsets_dense1]
  simp only [View.ld_unit_zero (S := S8000x16) zero_offsets_dense1, View.ld_unit_zero (S := S16x128) zero_offsets_dense1, View.ld_unit_zero (S := S1x128) zero_offsets_dense1]
  obtain ⟨-, -, -, -, -, -, e0, e1⟩ := block_indices_dense1 t
  have key : ∀ j : S8000x128.Idx, (k1_pay1 (F := Ideal) (iblk1 V c 0 t) (iblk1 V c 1 t) (iblk1 V c 2 t)) j
      = Cert.Spec.dense (V c main_arg1) (V c main_arg5) (Cert.Spec.unrow (V c main_v5)) (((cfg1.win 3).blk t).view.emb j) := by
    intro j
    obtain ⟨p, q, rfl⟩ : ∃ (p : Fin 8000) (q : Fin 128), j = ix2 p q := ⟨j 0, j 1, eq_ix2 j⟩
    have hN : cfg1.N = 200 := N_1
    have ht : t.val < cfg1.N := t.isLt
    have hp : p.val < 8000 := p.isLt
    have h0 : ((((cfg1.win 3).blk t).view.emb (ix2 p q)) 0).val = t.val * 8000 + p.val := by
      show win1_3.index t (0 : Fin 2) * 8000 + 1 * p.val = _; omega
    have h1 : ((((cfg1.win 3).blk t).view.emb (ix2 p q)) 1).val = q.val := by
      show win1_3.index t (1 : Fin 2) * 128 + 1 * q.val = _; omega
    refine (pay_dense1_spec _ _ _ p q).trans ?_
    refine (denseAt_congr_dense1 _ (V c main_arg1) _ (V c main_arg5) _ (Cert.Spec.unrow (V c main_v5)) p
      (⟨t.val * 8000 + p.val, by omega⟩ : Fin 1600000) q
      (fun k => x_block_dense1 V c t p k _ rfl) (fun k => w_block_dense1 V c t k q) (b_block_dense1 V c t q)).trans ?_
    exact (dense_at_dense1 _ _ _ _ _ q h0 h1).symm
  exact funext key

/-- An index of the array is in point `t`'s block iff each coordinate is in the block's range on its axis. -/
theorem mem_block_dense1 (t : Fin cfg1.N) (i : S1600000x128.Idx) :
    i ∈ ((cfg1.win 3).blk t).view.set ↔ ∀ a : Fin 2, win1_3.index t a * S8000x128.size a ≤ (i a).val ∧ (i a).val < win1_3.index t a * S8000x128.size a + S8000x128.size a := by
  show i ∈ ((View.whole main_v10).slice (win1_3.rect t)).set ↔ _
  rw [View.set_slice_whole, Rect.mem_set_unit]
  exact Iff.rfl

/-- Every entry of the output lies in some point's block: row `r` in the block of point `r / 8000`. -/
theorem cover_dense1 (i : S1600000x128.Idx) :
    ∃ t : Fin cfg1.N, (cfg1.win 3).flush t = true ∧ i ∈ ((cfg1.win 3).blk t).view.set := by
  have hi0 : (i 0).val < 1600000 := (i 0).isLt
  have hi1 : (i 1).val < 128 := (i 1).isLt
  have hN : cfg1.N = 200 := N_1
  let t : Fin cfg1.N := ⟨(i 0).val / 8000, by rw [hN]; omega⟩
  have htv : t.val = (i 0).val / 8000 := rfl
  obtain ⟨-, -, -, -, -, -, e0, e1⟩ := block_indices_dense1 t
  refine ⟨t, flush1_3 t, ?_⟩
  rw [mem_block_dense1]
  intro a
  match a with
  | ⟨0, _⟩ => show win1_3.index t (0 : Fin 2) * 8000 ≤ (i 0).val ∧ (i 0).val < win1_3.index t (0 : Fin 2) * 8000 + 8000; omega
  | ⟨1, _⟩ => show win1_3.index t (1 : Fin 2) * 128 ≤ (i 1).val ∧ (i 1).val < win1_3.index t (1 : Fin 2) * 128 + 128; omega

/-- THE ARRAY after the region: the dense layer of `x`, the weight matrix and the bias row as the region finds them. -/
theorem region1_arr (c : Dev nD) :
    (dat1 (F := Ideal) V c).arrAt 3 cfg1.N = Cert.Spec.dense (V c main_arg1) (V c main_arg5) (Cert.Spec.unrow (V c main_v5)) :=
  (dat1 (F := Ideal) V c).arrAt_eq_of_cover 3 _ (fun t _ => flushed_dense1 V c t) cover_dense1

end Cert.KernelIdeal.KV

end
-- ==== Proof.KMsg2.lean ====
import proofs.«412457_j20298015441381_1_alg».proof.Proof.Gen.KernelIdeal.Frame
import proofs.«412457_j20298015441381_1_alg».proof.Proof.Spec
import Idealize.ShloMosaic.Lib.Pipeline.Value

noncomputable section

namespace Cert.KernelIdeal.KV

open Cert.KernelIdeal Cert.KernelIdeal.Gen Idealize.ShloMosaic Idealize.ShloMosaic.TcCoe Idealize.SL.Sem
open Idealize.ShloMosaic.Pipeline (Dat)

/-! ## The message body at one entry

The body adds the two loaded blocks entry by entry and takes the maximum with the zero word; the two shape casts
keep the shape, so they change nothing. -/

/-- The body's result at entry `j` of a block: `max (hs j + e j) 0`. -/
theorem msg2_entry (hs e : Vec Ideal S8000x128 .f32) (j : S8000x128.Idx) :
    (k2_pay1 (F := Ideal) hs e) j = max (hs j + e j) Cert.Spec.zeroW := by
  unfold k2_pay1
  simp only [shapeCast_self]
  rfl

/-- The zero offset of the one store, as a constant function. -/
theorem msg2_origin : (![0, 0] : Fin 2 → Nat) = fun _ => 0 := funext fun a => by fin_cases a <;> rfl

/-- Over the grid of 200 points: the two input blocks sit at the output block's position, which is block `t` of the
    rows and the single block of the lanes. -/
theorem msg2_positions : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) = t.val
    ∧ win2_2.index t (1 : Fin 2) = 0 :=
  (by decide +kernel : ∀ t : Fin grid2.N, _)

/-- Two arrays read at equal places give the same message entry. -/
theorem msg2_reads (hs e : S1600000x128.Idx → EReal) (i0 i1 i2 : S1600000x128.Idx) (h0 : i0 = i2) (h1 : i1 = i2) :
    max (hs i0 + e i1) Cert.Spec.zeroW = Cert.Spec.msg hs e i2 := by
  rw [h0, h1]; rfl

variable (V : (c : Dev nD) → (b : Ref sig .tc) → Buf (Elt Ideal) ((c : Thread nD τ).loc b))

/-- What point `t` writes back is rows `8000·t … 8000·t + 7999` of the message array. -/
theorem msg2_block (c : Dev nD) (t : Fin cfg2.N) :
    (dat2 (F := Ideal) V c).flushed 2 t
      = ((cfg2.win 2).blk t).view.read (Elt Ideal) (Cert.Spec.msg (V c main_v11) (V c main_v10)) := by
  show (cfg2.win 2).cut (grid2.coords t) ((dat2 (F := Ideal) V c).after 2 t) = _
  rw [after2_2]
  unfold out2_2
  rw [View.canon_unit_zero msg2_origin]
  simp only [View.ld_unit_zero (S := S8000x128) msg2_origin]
  obtain ⟨e0, e1, e2, e3, -, -⟩ := msg2_positions t
  funext j
  refine (msg2_entry _ _ j).trans ?_
  have h0 : ((cfg2.win 0).blk t).view.emb j = ((cfg2.win 2).blk t).view.emb j := by
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 8000 + 1 * (j 0).val = win2_2.index t (0 : Fin 2) * 8000 + 1 * (j 0).val; omega
    | ⟨1, _⟩ => show win2_1.index t (1 : Fin 2) * 128 + 1 * (j 1).val = win2_2.index t (1 : Fin 2) * 128 + 1 * (j 1).val; omega
  exact msg2_reads (V c main_v11) (V c main_v10) _ _ _ h0 h1

/-- Entry `i` of the array lies in point `t`'s block iff each coordinate lies in the block's range on its axis. -/
theorem msg2_mem_block (t : Fin cfg2.N) (i : S1600000x128.Idx) :
    i ∈ ((cfg2.win 2).blk t).view.set ↔ ∀ a : Fin 2, win2_2.index t a * S8000x128.size a ≤ (i a).val
      ∧ (i a).val < win2_2.index t a * S8000x128.size a + S8000x128.size a := by
  show i ∈ ((View.whole main_v12).slice (win2_2.rect t)).set ↔ _
  rw [View.set_slice_whole, Rect.mem_set_unit]
  exact Iff.rfl

/-- Row `r` lies in the block of point `r / 8000`: the 200 blocks of 8000 rows fill the 1600000 rows. -/
theorem msg2_cover (i : S1600000x128.Idx) :
    ∃ t : Fin cfg2.N, (cfg2.win 2).flush t = true ∧ i ∈ ((cfg2.win 2).blk t).view.set := by
  have hi0 : (i 0).val < 1600000 := (i 0).isLt
  have hi1 : (i 1).val < 128 := (i 1).isLt
  have hN : cfg2.N = 200 := N_2
  let t : Fin cfg2.N := ⟨(i 0).val / 8000, by omega⟩
  obtain ⟨-, -, -, -, q0, q1⟩ := msg2_positions t
  have ht : t.val = (i 0).val / 8000 := rfl
  refine ⟨t, flush2_2 t, ?_⟩
  rw [msg2_mem_block]
  intro a
  match a with
  | ⟨0, _⟩ => show win2_2.index t (0 : Fin 2) * 8000 ≤ (i 0).val ∧ (i 0).val < win2_2.index t (0 : Fin 2) * 8000 + 8000; omega
  | ⟨1, _⟩ => show win2_2.index t (1 : Fin 2) * 128 ≤ (i 1).val ∧ (i 1).val < win2_2.index t (1 : Fin 2) * 128 + 128; omega

theorem region2_arr (c : Dev nD) :
    (dat2 (F := Ideal) V c).arrAt 2 cfg2.N = Cert.Spec.msg (V c main_v11) (V c main_v10) :=
  (dat2 (F := Ideal) V c).arrAt_eq_of_cover 2 (Cert.Spec.msg (V c main_v11) (V c main_v10))
    (fun t _ => msg2_block V c t) (msg2_cover)

end Cert.KernelIdeal.KV

end
-- ==== Proof.KMsg4.lean ====
import proofs.«412457_j20298015441381_1_alg».proof.Proof.Gen.KernelIdeal.Frame
import proofs.«412457_j20298015441381_1_alg».proof.Proof.Spec
import Idealize.ShloMosaic.Lib.Pipeline.Value

noncomputable section

namespace Cert.KernelIdeal.KV

open Cert.KernelIdeal Cert.KernelIdeal.Gen Idealize.ShloMosaic Idealize.ShloMosaic.TcCoe Idealize.SL.Sem
open Idealize.ShloMosaic.Pipeline (Dat)

/-! ## The message body at one entry

The body adds the two loaded blocks entry by entry and takes the maximum with the zero word; the two shape casts
keep the shape, so they change nothing. -/

/-- The body's result at entry `j` of a block: `max (hs j + e j) 0`. -/
theorem msg4_entry (hs e : Vec Ideal S8000x128 .f32) (j : S8000x128.Idx) :
    (k4_pay1 (F := Ideal) hs e) j = max (hs j + e j) Cert.Spec.zeroW := by
  unfold k4_pay1
  simp only [shapeCast_self]
  rfl

/-- The zero offset of the one store, as a constant function. -/
theorem msg4_origin : (![0, 0] : Fin 2 → Nat) = fun _ => 0 := funext fun a => by fin_cases a <;> rfl

/-- Over the grid of 200 points: the two input blocks sit at the output block's position, which is block `t` of the
    rows and the single block of the lanes. -/
theorem msg4_positions : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = win4_2.index t (1 : Fin 2)
    ∧ win4_2.index t (0 : Fin 2) = t.val
    ∧ win4_2.index t (1 : Fin 2) = 0 :=
  (by decide +kernel : ∀ t : Fin grid4.N, _)

/-- Two arrays read at equal places give the same message entry. -/
theorem msg4_reads (hs e : S1600000x128.Idx → EReal) (i0 i1 i2 : S1600000x128.Idx) (h0 : i0 = i2) (h1 : i1 = i2) :
    max (hs i0 + e i1) Cert.Spec.zeroW = Cert.Spec.msg hs e i2 := by
  rw [h0, h1]; rfl

variable (V : (c : Dev nD) → (b : Ref sig .tc) → Buf (Elt Ideal) ((c : Thread nD τ).loc b))

/-- What point `t` writes back is rows `8000·t … 8000·t + 7999` of the message array. -/
theorem msg4_block (c : Dev nD) (t : Fin cfg4.N) :
    (dat4 (F := Ideal) V c).flushed 2 t
      = ((cfg4.win 2).blk t).view.read (Elt Ideal) (Cert.Spec.msg (V c main_v22) (V c main_v10)) := by
  show (cfg4.win 2).cut (grid4.coords t) ((dat4 (F := Ideal) V c).after 2 t) = _
  rw [after4_2]
  unfold out4_2
  rw [View.canon_unit_zero msg4_origin]
  simp only [View.ld_unit_zero (S := S8000x128) msg4_origin]
  obtain ⟨e0, e1, e2, e3, -, -⟩ := msg4_positions t
  funext j
  refine (msg4_entry _ _ j).trans ?_
  have h0 : ((cfg4.win 0).blk t).view.emb j = ((cfg4.win 2).blk t).view.emb j := by
    funext a; apply Fin.ext
    match a with
    | ⟨0, _⟩ => show win4_0.index t (0 : Fin 2) * 8000 + 1 * (j 0).val = win4_2.index t (0 : Fin 2) * 8000 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb j = ((cfg4.win 2).blk t).view.emb j := by
    funext a; apply Fin.ext
    match a with
    | ⟨0, _⟩ => show win4_1.index t (0 : Fin 2) * 8000 + 1 * (j 0).val = win4_2.index t (0 : Fin 2) * 8000 + 1 * (j 0).val; omega
    | ⟨1, _⟩ => show win4_1.index t (1 : Fin 2) * 128 + 1 * (j 1).val = win4_2.index t (1 : Fin 2) * 128 + 1 * (j 1).val; omega
  exact msg4_reads (V c main_v22) (V c main_v10) _ _ _ h0 h1

/-- Entry `i` of the array lies in point `t`'s block iff each coordinate lies in the block's range on its axis. -/
theorem msg4_mem_block (t : Fin cfg4.N) (i : S1600000x128.Idx) :
    i ∈ ((cfg4.win 2).blk t).view.set ↔ ∀ a : Fin 2, win4_2.index t a * S8000x128.size a ≤ (i a).val
      ∧ (i a).val < win4_2.index t a * S8000x128.size a + S8000x128.size a := by
  show i ∈ ((View.whole main_v23).slice (win4_2.rect t)).set ↔ _
  rw [View.set_slice_whole, Rect.mem_set_unit]
  exact Iff.rfl

/-- Row `r` lies in the block of point `r / 8000`: the 200 blocks of 8000 rows fill the 1600000 rows. -/
theorem msg4_cover (i : S1600000x128.Idx) :
    ∃ t : Fin cfg4.N, (cfg4.win 2).flush t = true ∧ i ∈ ((cfg4.win 2).blk t).view.set := by
  have hi0 : (i 0).val < 1600000 := (i 0).isLt
  have hi1 : (i 1).val < 128 := (i 1).isLt
  have hN : cfg4.N = 200 := N_4
  let t : Fin cfg4.N := ⟨(i 0).val / 8000, by omega⟩
  obtain ⟨-, -, -, -, q0, q1⟩ := msg4_positions t
  have ht : t.val = (i 0).val / 8000 := rfl
  refine ⟨t, flush4_2 t, ?_⟩
  rw [msg4_mem_block]
  intro a
  match a with
  | ⟨0, _⟩ => show win4_2.index t (0 : Fin 2) * 8000 ≤ (i 0).val ∧ (i 0).val < win4_2.index t (0 : Fin 2) * 8000 + 8000; omega
  | ⟨1, _⟩ => show win4_2.index t (1 : Fin 2) * 128 ≤ (i 1).val ∧ (i 1).val < win4_2.index t (1 : Fin 2) * 128 + 128; omega

theorem region4_arr (c : Dev nD) :
    (dat4 (F := Ideal) V c).arrAt 2 cfg4.N = Cert.Spec.msg (V c main_v22) (V c main_v10) :=
  (dat4 (F := Ideal) V c).arrAt_eq_of_cover 2 (Cert.Spec.msg (V c main_v22) (V c main_v10))
    (fun t _ => msg4_block V c t) (msg4_cover)

end Cert.KernelIdeal.KV

end
-- ==== Proof.KMsg6.lean ====
import proofs.«412457_j20298015441381_1_alg».proof.Proof.Gen.KernelIdeal.Frame
import proofs.«412457_j20298015441381_1_alg».proof.Proof.Spec
import Idealize.ShloMosaic.Lib.Pipeline.Value

noncomputable section

namespace Cert.KernelIdeal.KV

open Cert.KernelIdeal Cert.KernelIdeal.Gen Idealize.ShloMosaic Idealize.ShloMosaic.TcCoe Idealize.SL.Sem
open Idealize.ShloMosaic.Pipeline (Dat)

/-! ## The message body at one entry

The body adds the two loaded blocks entry by entry and takes the maximum with the zero word; the two shape casts
keep the shape, so they change nothing. -/

/-- The body's result at entry `j` of a block: `max (hs j + e j) 0`. -/
theorem msg6_entry (hs e : Vec Ideal S8000x128 .f32) (j : S8000x128.Idx) :
    (k6_pay1 (F := Ideal) hs e) j = max (hs j + e j) Cert.Spec.zeroW := by
  unfold k6_pay1
  simp only [shapeCast_self]
  rfl

/-- The zero offset of the one store, as a constant function. -/
theorem msg6_origin : (![0, 0] : Fin 2 → Nat) = fun _ => 0 := funext fun a => by fin_cases a <;> rfl

/-- Over the grid of 200 points: the two input blocks sit at the output block's position, which is block `t` of the
    rows and the single block of the lanes. -/
theorem msg6_positions : ∀ t : Fin cfg6.N, win6_0.index t (0 : Fin 2) = win6_2.index t (0 : Fin 2)
    ∧ win6_0.index t (1 : Fin 2) = win6_2.index t (1 : Fin 2)
    ∧ win6_1.index t (0 : Fin 2) = win6_2.index t (0 : Fin 2)
    ∧ win6_1.index t (1 : Fin 2) = win6_2.index t (1 : Fin 2)
    ∧ win6_2.index t (0 : Fin 2) = t.val
    ∧ win6_2.index t (1 : Fin 2) = 0 :=
  (by decide +kernel : ∀ t : Fin grid6.N, _)

/-- Two arrays read at equal places give the same message entry. -/
theorem msg6_reads (hs e : S1600000x128.Idx → EReal) (i0 i1 i2 : S1600000x128.Idx) (h0 : i0 = i2) (h1 : i1 = i2) :
    max (hs i0 + e i1) Cert.Spec.zeroW = Cert.Spec.msg hs e i2 := by
  rw [h0, h1]; rfl

variable (V : (c : Dev nD) → (b : Ref sig .tc) → Buf (Elt Ideal) ((c : Thread nD τ).loc b))

/-- What point `t` writes back is rows `8000·t … 8000·t + 7999` of the message array. -/
theorem msg6_block (c : Dev nD) (t : Fin cfg6.N) :
    (dat6 (F := Ideal) V c).flushed 2 t
      = ((cfg6.win 2).blk t).view.read (Elt Ideal) (Cert.Spec.msg (V c main_v33) (V c main_v10)) := by
  show (cfg6.win 2).cut (grid6.coords t) ((dat6 (F := Ideal) V c).after 2 t) = _
  rw [after6_2]
  unfold out6_2
  rw [View.canon_unit_zero msg6_origin]
  simp only [View.ld_unit_zero (S := S8000x128) msg6_origin]
  obtain ⟨e0, e1, e2, e3, -, -⟩ := msg6_positions t
  funext j
  refine (msg6_entry _ _ j).trans ?_
  have h0 : ((cfg6.win 0).blk t).view.emb j = ((cfg6.win 2).blk t).view.emb j := by
    funext a; apply Fin.ext
    match a with
    | ⟨0, _⟩ => show win6_0.index t (0 : Fin 2) * 8000 + 1 * (j 0).val = win6_2.index t (0 : Fin 2) * 8000 + 1 * (j 0).val; omega
    | ⟨1, _⟩ => show win6_0.index t (1 : Fin 2) * 128 + 1 * (j 1).val = win6_2.index t (1 : Fin 2) * 128 + 1 * (j 1).val; omega
  have h1 : ((cfg6.win 1).blk t).view.emb j = ((cfg6.win 2).blk t).view.emb j := by
    funext a; apply Fin.ext
    match a with
    | ⟨0, _⟩ => show win6_1.index t (0 : Fin 2) * 8000 + 1 * (j 0).val = win6_2.index t (0 : Fin 2) * 8000 + 1 * (j 0).val; omega
    | ⟨1, _⟩ => show win6_1.index t (1 : Fin 2) * 128 + 1 * (j 1).val = win6_2.index t (1 : Fin 2) * 128 + 1 * (j 1).val; omega
  exact msg6_reads (V c main_v33) (V c main_v10) _ _ _ h0 h1

/-- Entry `i` of the array lies in point `t`'s block iff each coordinate lies in the block's range on its axis. -/
theorem msg6_mem_block (t : Fin cfg6.N) (i : S1600000x128.Idx) :
    i ∈ ((cfg6.win 2).blk t).view.set ↔ ∀ a : Fin 2, win6_2.index t a * S8000x128.size a ≤ (i a).val
      ∧ (i a).val < win6_2.index t a * S8000x128.size a + S8000x128.size a := by
  show i ∈ ((View.whole main_v34).slice (win6_2.rect t)).set ↔ _
  rw [View.set_slice_whole, Rect.mem_set_unit]
  exact Iff.rfl

/-- Row `r` lies in the block of point `r / 8000`: the 200 blocks of 8000 rows fill the 1600000 rows. -/
theorem msg6_cover (i : S1600000x128.Idx) :
    ∃ t : Fin cfg6.N, (cfg6.win 2).flush t = true ∧ i ∈ ((cfg6.win 2).blk t).view.set := by
  have hi0 : (i 0).val < 1600000 := (i 0).isLt
  have hi1 : (i 1).val < 128 := (i 1).isLt
  have hN : cfg6.N = 200 := N_6
  let t : Fin cfg6.N := ⟨(i 0).val / 8000, by omega⟩
  obtain ⟨-, -, -, -, q0, q1⟩ := msg6_positions t
  have ht : t.val = (i 0).val / 8000 := rfl
  refine ⟨t, flush6_2 t, ?_⟩
  rw [msg6_mem_block]
  intro a
  match a with
  | ⟨0, _⟩ => show win6_2.index t (0 : Fin 2) * 8000 ≤ (i 0).val ∧ (i 0).val < win6_2.index t (0 : Fin 2) * 8000 + 8000; omega
  | ⟨1, _⟩ => show win6_2.index t (1 : Fin 2) * 128 ≤ (i 1).val ∧ (i 1).val < win6_2.index t (1 : Fin 2) * 128 + 128; omega

theorem region6_arr (c : Dev nD) :
    (dat6 (F := Ideal) V c).arrAt 2 cfg6.N = Cert.Spec.msg (V c main_v33) (V c main_v10) :=
  (dat6 (F := Ideal) V c).arrAt_eq_of_cover 2 (Cert.Spec.msg (V c main_v33) (V c main_v10))
    (fun t _ => msg6_block V c t) (msg6_cover)

end Cert.KernelIdeal.KV

end
-- ==== Proof.KUpd3.lean ====
import proofs.«412457_j20298015441381_1_alg».proof.Proof.Gen.KernelIdeal.Frame
import proofs.«412457_j20298015441381_1_alg».proof.Proof.Spec
import Idealize.ShloMosaic.Lib.ValueLayout
import Idealize.ShloMosaic.PureOps.Ideal.Laws

noncomputable section

namespace Cert.KernelIdeal.KV

open Cert.KernelIdeal Cert.KernelIdeal.Gen Idealize.ShloMosaic Idealize.ShloMosaic.TcCoe Idealize.SL.Sem
open Idealize.ShloMosaic.ValueIdx

/-! ## The matrix product of the body, entry by entry -/

/-- The left operand's row coordinate in the product's sum is the output's row. -/
theorem upd3_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the summation index. -/
theorem upd3_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the summation index. -/
theorem upd3_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem upd3_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product with a zero accumulator at entry `(p, q)` is `Σ_k x[p,k]·W[k,q]`. -/
theorem upd3_matmul_at (x : FVec Ideal S5000x128 .bf16) (W : FVec Ideal S128x128 .bf16) (p : Fin 5000) (q : Fin 128) :
    matmul dot_S5000x128_S128x128_S5000x128_1_0_0_1_n_n none x W (constant (F := Ideal) S5000x128 .f32 0x00000000#32) (ix2 p q)
      = ∑ k : Fin 128, x (ix2 p k) * W (ix2 k q) := by
  refine (Ideal.matmul_constant_zero_apply dot_S5000x128_S128x128_S5000x128_1_0_0_1_n_n none x W (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact upd3_lhs_0 _ _
    | ⟨1, _⟩ => exact (upd3_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (upd3_rhs_0 _ _).trans hk
    | ⟨1, _⟩ => exact upd3_rhs_1 _ _)
  rw [el, er]

/-! ## The body's result at an entry -/

/-- The body's result at entry `(p, q)` of its blocks: the leaky rectifier of `Σ_k (h+agg)[p,k]·W[k,q] + b[q]`. -/
theorem upd3_pay_at (x0 x1 : Vec Ideal S5000x128 .f32) (x2 : Vec Ideal S128x128 .f32) (x3 : Vec Ideal S1x128 .f32) (p : Fin 5000) (q : Fin 128) :
    k3_pay1 (F := Ideal) x0 x1 x2 x3 (ix2 p q)
      = Cert.Spec.leaky ((∑ k : Fin 128, (x0 (ix2 p k) + x1 (ix2 p k)) * x2 (ix2 k q)) + x3 (ix2 (0 : Fin 1) q)) := by
  unfold k3_pay1
  simp only [shapeCast_self]
  rw [select_apply, cmpf_apply, mulf_apply, addf_apply, broadcast_apply, broadcast_apply, broadcastTo_1b_ab_apply, upd3_matmul_at]
  simp only [truncf_apply, addf_apply]
  rfl

/-- The body's result at entry `(p, q)` of a block whose rows are rows `r` of `h` and `agg`, beside the whole
    `W` and the bias row, is the node update at `(r, q)`. -/
theorem upd3_block_at (h agg : Cert.Spec.A2 100000 128) (W : Cert.Spec.A2 128 128) (B : Cert.Spec.A2 1 128)
    (x0 x1 : Vec Ideal S5000x128 .f32) (x2 : Vec Ideal S128x128 .f32) (x3 : Vec Ideal S1x128 .f32)
    (r : Fin 100000) (p : Fin 5000) (q : Fin 128)
    (h0 : ∀ k : Fin 128, x0 (ix2 p k) = h (ix2 r k)) (h1 : ∀ k : Fin 128, x1 (ix2 p k) = agg (ix2 r k))
    (h2 : ∀ k : Fin 128, x2 (ix2 k q) = W (ix2 k q)) (h3 : x3 (ix2 (0 : Fin 1) q) = B (ix2 (0 : Fin 1) q)) :
    k3_pay1 (F := Ideal) x0 x1 x2 x3 (ix2 p q) = Cert.Spec.upd h agg W (Cert.Spec.unrow B) (ix2 r q) := by
  rw [upd3_pay_at, h3]
  simp only [h0, h1, h2]
  rfl

/-! ## From the blocks to the array -/

variable (V : (c : Dev nD) → (b : Ref sig .tc) → Buf (Elt Ideal) ((c : Thread nD τ).loc b))

/-- The offset `(0, 0)` is zero on both axes. -/
theorem upd3_off_zero : (![0, 0] : Fin 2 → Nat) = fun _ => 0 := funext fun a => by fin_cases a <;> rfl

/-- The block index maps, decided over the grid: the blocks of `h` and `agg` move with the output's block down the
    rows; `W` and the bias row stay; the output's block index stays in its range. -/
theorem upd3_idx : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) ≤ 19
    ∧ win3_4.index t (1 : Fin 2) = 0 :=
  (by decide +kernel : ∀ t : Fin grid3.N, _)

/-- Every block of 5,000 rows is some grid point's. -/
theorem upd3_onto : ∀ q0 : Fin 20, ∃ t : Fin cfg3.N, win3_4.index t = ![q0.val, 0] :=
  (by decide +kernel : ∀ q0 : Fin 20, ∃ t : Fin grid3.N, win3_4.index t = ![q0.val, 0])

/-- What grid point `t` writes back is block `t` of the node update of the input arrays as the region finds them. -/
theorem upd3_flushed (c : Dev nD) (t : Fin cfg3.N) :
    (dat3 (F := Ideal) V c).flushed 4 t = ((cfg3.win 4).blk t).view.read (Elt Ideal)
      (Cert.Spec.upd (V c main_v9) (V c main_v15) (V c main_v20) (Cert.Spec.unrow (V c main_v18))) := by
  show (cfg3.win 4).cut (grid3.coords t) ((dat3 V c).after 4 t) = _
  rw [after3_4]
  unfold out3_4
  rw [View.canon_unit_zero upd3_off_zero]
  simp only [View.ld_unit_zero (S := S5000x128) upd3_off_zero, View.ld_unit_zero (S := S128x128) upd3_off_zero,
    View.ld_unit_zero (S := S1x128) upd3_off_zero]
  obtain ⟨e0, e1, e2, e3, e4, e5, e6, e7, e8, e9⟩ := upd3_idx t
  funext j
  obtain ⟨p, q, rfl⟩ : ∃ (p : Fin 5000) (q : Fin 128), j = ix2 p q := ⟨j 0, j 1, eq_ix2 j⟩
  have hr : win3_4.index t (0 : Fin 2) * 5000 + 1 * p.val < 100000 := by have := p.isLt; omega
  have h4 : ((cfg3.win 4).blk t).view.emb (ix2 p q)
      = ix2 (⟨win3_4.index t (0 : Fin 2) * 5000 + 1 * p.val, hr⟩ : Fin 100000) q := by
    funext a; apply Fin.ext
    match a with
    | ⟨0, _⟩ => rfl
    | ⟨1, _⟩ => show win3_4.index t (1 : Fin 2) * 128 + 1 * q.val = q.val; omega
  refine (upd3_block_at (V c main_v9) (V c main_v15) (V c main_v20) (V c main_v18)
    (iblk3 V c 0 t) (iblk3 V c 1 t) (iblk3 V c 2 t) (iblk3 V c 3 t)
    ⟨win3_4.index t (0 : Fin 2) * 5000 + 1 * p.val, hr⟩ p q ?_ ?_ ?_ ?_).trans ?_
  · intro k
    show V c main_v9 (((cfg3.win 0).blk t).view.emb (ix2 p k)) = _
    refine congrArg _ (funext fun a => Fin.ext ?_)
    match a with
    | ⟨0, _⟩ => show win3_0.index t (0 : Fin 2) * 5000 + 1 * p.val = win3_4.index t (0 : Fin 2) * 5000 + 1 * p.val; omega
    | ⟨1, _⟩ => show win3_0.index t (1 : Fin 2) * 128 + 1 * k.val = k.val; omega
  · intro k
    show V c main_v15 (((cfg3.win 1).blk t).view.emb (ix2 p k)) = _
    refine congrArg _ (funext fun a => Fin.ext ?_)
    match a with
    | ⟨0, _⟩ => show win3_1.index t (0 : Fin 2) * 5000 + 1 * p.val = win3_4.index t (0 : Fin 2) * 5000 + 1 * p.val; omega
    | ⟨1, _⟩ => show win3_1.index t (1 : Fin 2) * 128 + 1 * k.val = k.val; omega
  · intro k
    show V c main_v20 (((cfg3.win 2).blk t).view.emb (ix2 k q)) = _
    refine congrArg _ (funext fun a => Fin.ext ?_)
    match a with
    | ⟨0, _⟩ => show win3_2.index t (0 : Fin 2) * 128 + 1 * k.val = k.val; omega
    | ⟨1, _⟩ => show win3_2.index t (1 : Fin 2) * 128 + 1 * q.val = q.val; omega
  · show V c main_v18 (((cfg3.win 3).blk t).view.emb (ix2 (0 : Fin 1) q)) = _
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * q.val = q.val; omega
  · show _ = Cert.Spec.upd (V c main_v9) (V c main_v15) (V c main_v20) (Cert.Spec.unrow (V c main_v18))
      (((cfg3.win 4).blk t).view.emb (ix2 p q))
    rw [h4]

/-- An index of the output array is in point `t`'s block iff each coordinate is in the block's range on its axis. -/
theorem upd3_mem_blk (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v21).slice (win3_4.rect t)).set ↔ _
  rw [View.set_slice_whole, Rect.mem_set_unit]
  exact Iff.rfl

/-- Every index of the output array lies in some point's block: row `r` in the block of point `r / 5000`. -/
theorem upd3_cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, ht⟩ := upd3_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [upd3_mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

theorem region3_arr (c : Dev nD) :
    (dat3 (F := Ideal) V c).arrAt 4 cfg3.N = Cert.Spec.upd (V c main_v9) (V c main_v15) (V c main_v20) (Cert.Spec.unrow (V c main_v18)) :=
  (dat3 (F := Ideal) V c).arrAt_eq_of_cover 4 _ (fun t _ => upd3_flushed V c t) upd3_cover

end Cert.KernelIdeal.KV

end
-- ==== Proof.KUpd5.lean ====
import proofs.«412457_j20298015441381_1_alg».proof.Proof.Gen.KernelIdeal.Frame
import proofs.«412457_j20298015441381_1_alg».proof.Proof.Spec
import Idealize.ShloMosaic.Lib.ValueLayout
import Idealize.ShloMosaic.PureOps.Ideal.Laws

noncomputable section

namespace Cert.KernelIdeal.KV

open Cert.KernelIdeal Cert.KernelIdeal.Gen Idealize.ShloMosaic Idealize.ShloMosaic.TcCoe Idealize.SL.Sem
open Idealize.ShloMosaic.ValueIdx

/-! ## The matrix product of the body, entry by entry -/

/-- The left operand's row coordinate in the product's sum is the output's row. -/
theorem upd5_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the summation index. -/
theorem upd5_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the summation index. -/
theorem upd5_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem upd5_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product with a zero accumulator at entry `(p, q)` is `Σ_k x[p,k]·W[k,q]`. -/
theorem upd5_matmul_at (x : FVec Ideal S5000x128 .bf16) (W : FVec Ideal S128x128 .bf16) (p : Fin 5000) (q : Fin 128) :
    matmul dot_S5000x128_S128x128_S5000x128_1_0_0_1_n_n none x W (constant (F := Ideal) S5000x128 .f32 0x00000000#32) (ix2 p q)
      = ∑ k : Fin 128, x (ix2 p k) * W (ix2 k q) := by
  refine (Ideal.matmul_constant_zero_apply dot_S5000x128_S128x128_S5000x128_1_0_0_1_n_n none x W (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact upd5_lhs_0 _ _
    | ⟨1, _⟩ => exact (upd5_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (upd5_rhs_0 _ _).trans hk
    | ⟨1, _⟩ => exact upd5_rhs_1 _ _)
  rw [el, er]

/-! ## The body's result at an entry -/

/-- The body's result at entry `(p, q)` of its blocks: the leaky rectifier of `Σ_k (h+agg)[p,k]·W[k,q] + b[q]`. -/
theorem upd5_pay_at (x0 x1 : Vec Ideal S5000x128 .f32) (x2 : Vec Ideal S128x128 .f32) (x3 : Vec Ideal S1x128 .f32) (p : Fin 5000) (q : Fin 128) :
    k5_pay1 (F := Ideal) x0 x1 x2 x3 (ix2 p q)
      = Cert.Spec.leaky ((∑ k : Fin 128, (x0 (ix2 p k) + x1 (ix2 p k)) * x2 (ix2 k q)) + x3 (ix2 (0 : Fin 1) q)) := by
  unfold k5_pay1
  simp only [shapeCast_self]
  rw [select_apply, cmpf_apply, mulf_apply, addf_apply, broadcast_apply, broadcast_apply, broadcastTo_1b_ab_apply, upd5_matmul_at]
  simp only [truncf_apply, addf_apply]
  rfl

/-- The body's result at entry `(p, q)` of a block whose rows are rows `r` of `h` and `agg`, beside the whole
    `W` and the bias row, is the node update at `(r, q)`. -/
theorem upd5_block_at (h agg : Cert.Spec.A2 100000 128) (W : Cert.Spec.A2 128 128) (B : Cert.Spec.A2 1 128)
    (x0 x1 : Vec Ideal S5000x128 .f32) (x2 : Vec Ideal S128x128 .f32) (x3 : Vec Ideal S1x128 .f32)
    (r : Fin 100000) (p : Fin 5000) (q : Fin 128)
    (h0 : ∀ k : Fin 128, x0 (ix2 p k) = h (ix2 r k)) (h1 : ∀ k : Fin 128, x1 (ix2 p k) = agg (ix2 r k))
    (h2 : ∀ k : Fin 128, x2 (ix2 k q) = W (ix2 k q)) (h3 : x3 (ix2 (0 : Fin 1) q) = B (ix2 (0 : Fin 1) q)) :
    k5_pay1 (F := Ideal) x0 x1 x2 x3 (ix2 p q) = Cert.Spec.upd h agg W (Cert.Spec.unrow B) (ix2 r q) := by
  rw [upd5_pay_at, h3]
  simp only [h0, h1, h2]
  rfl

/-! ## From the blocks to the array -/

variable (V : (c : Dev nD) → (b : Ref sig .tc) → Buf (Elt Ideal) ((c : Thread nD τ).loc b))

/-- The offset `(0, 0)` is zero on both axes. -/
theorem upd5_off_zero : (![0, 0] : Fin 2 → Nat) = fun _ => 0 := funext fun a => by fin_cases a <;> rfl

/-- The block index maps, decided over the grid: the blocks of `h` and `agg` move with the output's block down the
    rows; `W` and the bias row stay; the output's block index stays in its range. -/
theorem upd5_idx : ∀ t : Fin cfg5.N, win5_0.index t (0 : Fin 2) = win5_4.index t (0 : Fin 2)
    ∧ win5_0.index t (1 : Fin 2) = 0
    ∧ win5_1.index t (0 : Fin 2) = win5_4.index t (0 : Fin 2)
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) ≤ 19
    ∧ win5_4.index t (1 : Fin 2) = 0 :=
  (by decide +kernel : ∀ t : Fin grid5.N, _)

/-- Every block of 5,000 rows is some grid point's. -/
theorem upd5_onto : ∀ q0 : Fin 20, ∃ t : Fin cfg5.N, win5_4.index t = ![q0.val, 0] :=
  (by decide +kernel : ∀ q0 : Fin 20, ∃ t : Fin grid5.N, win5_4.index t = ![q0.val, 0])

/-- What grid point `t` writes back is block `t` of the node update of the input arrays as the region finds them. -/
theorem upd5_flushed (c : Dev nD) (t : Fin cfg5.N) :
    (dat5 (F := Ideal) V c).flushed 4 t = ((cfg5.win 4).blk t).view.read (Elt Ideal)
      (Cert.Spec.upd (V c main_v21) (V c main_v26) (V c main_v31) (Cert.Spec.unrow (V c main_v29))) := by
  show (cfg5.win 4).cut (grid5.coords t) ((dat5 V c).after 4 t) = _
  rw [after5_4]
  unfold out5_4
  rw [View.canon_unit_zero upd5_off_zero]
  simp only [View.ld_unit_zero (S := S5000x128) upd5_off_zero, View.ld_unit_zero (S := S128x128) upd5_off_zero,
    View.ld_unit_zero (S := S1x128) upd5_off_zero]
  obtain ⟨e0, e1, e2, e3, e4, e5, e6, e7, e8, e9⟩ := upd5_idx t
  funext j
  obtain ⟨p, q, rfl⟩ : ∃ (p : Fin 5000) (q : Fin 128), j = ix2 p q := ⟨j 0, j 1, eq_ix2 j⟩
  have hr : win5_4.index t (0 : Fin 2) * 5000 + 1 * p.val < 100000 := by have := p.isLt; omega
  have h4 : ((cfg5.win 4).blk t).view.emb (ix2 p q)
      = ix2 (⟨win5_4.index t (0 : Fin 2) * 5000 + 1 * p.val, hr⟩ : Fin 100000) q := by
    funext a; apply Fin.ext
    match a with
    | ⟨0, _⟩ => rfl
    | ⟨1, _⟩ => show win5_4.index t (1 : Fin 2) * 128 + 1 * q.val = q.val; omega
  refine (upd5_block_at (V c main_v21) (V c main_v26) (V c main_v31) (V c main_v29)
    (iblk5 V c 0 t) (iblk5 V c 1 t) (iblk5 V c 2 t) (iblk5 V c 3 t)
    ⟨win5_4.index t (0 : Fin 2) * 5000 + 1 * p.val, hr⟩ p q ?_ ?_ ?_ ?_).trans ?_
  · intro k
    show V c main_v21 (((cfg5.win 0).blk t).view.emb (ix2 p k)) = _
    refine congrArg _ (funext fun a => Fin.ext ?_)
    match a with
    | ⟨0, _⟩ => show win5_0.index t (0 : Fin 2) * 5000 + 1 * p.val = win5_4.index t (0 : Fin 2) * 5000 + 1 * p.val; omega
    | ⟨1, _⟩ => show win5_0.index t (1 : Fin 2) * 128 + 1 * k.val = k.val; omega
  · intro k
    show V c main_v26 (((cfg5.win 1).blk t).view.emb (ix2 p k)) = _
    refine congrArg _ (funext fun a => Fin.ext ?_)
    match a with
    | ⟨0, _⟩ => show win5_1.index t (0 : Fin 2) * 5000 + 1 * p.val = win5_4.index t (0 : Fin 2) * 5000 + 1 * p.val; omega
    | ⟨1, _⟩ => show win5_1.index t (1 : Fin 2) * 128 + 1 * k.val = k.val; omega
  · intro k
    show V c main_v31 (((cfg5.win 2).blk t).view.emb (ix2 k q)) = _
    refine congrArg _ (funext fun a => Fin.ext ?_)
    match a with
    | ⟨0, _⟩ => show win5_2.index t (0 : Fin 2) * 128 + 1 * k.val = k.val; omega
    | ⟨1, _⟩ => show win5_2.index t (1 : Fin 2) * 128 + 1 * q.val = q.val; omega
  · show V c main_v29 (((cfg5.win 3).blk t).view.emb (ix2 (0 : Fin 1) q)) = _
    refine congrArg _ (funext fun a => Fin.ext ?_)
    match a with
    | ⟨0, _⟩ => show win5_3.index t (0 : Fin 2) * 1 + 1 * 0 = 0; omega
    | ⟨1, _⟩ => show win5_3.index t (1 : Fin 2) * 128 + 1 * q.val = q.val; omega
  · show _ = Cert.Spec.upd (V c main_v21) (V c main_v26) (V c main_v31) (Cert.Spec.unrow (V c main_v29))
      (((cfg5.win 4).blk t).view.emb (ix2 p q))
    rw [h4]

/-- An index of the output array is in point `t`'s block iff each coordinate is in the block's range on its axis. -/
theorem upd5_mem_blk (t : Fin cfg5.N) (i : S100000x128.Idx) :
    i ∈ ((cfg5.win 4).blk t).view.set ↔ ∀ a : Fin 2, win5_4.index t a * S5000x128.size a ≤ (i a).val
      ∧ (i a).val < win5_4.index t a * S5000x128.size a + S5000x128.size a := by
  show i ∈ ((View.whole main_v32).slice (win5_4.rect t)).set ↔ _
  rw [View.set_slice_whole, Rect.mem_set_unit]
  exact Iff.rfl

/-- Every index of the output array lies in some point's block: row `r` in the block of point `r / 5000`. -/
theorem upd5_cover (i : S100000x128.Idx) :
    ∃ t : Fin cfg5.N, (cfg5.win 4).flush t = true ∧ i ∈ ((cfg5.win 4).blk t).view.set := by
  have hi0 : (i 0).val < 100000 := (i 0).isLt
  have hi1 : (i 1).val < 128 := (i 1).isLt
  obtain ⟨t, ht⟩ := upd5_onto ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [upd5_mem_blk]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

theorem region5_arr (c : Dev nD) :
    (dat5 (F := Ideal) V c).arrAt 4 cfg5.N = Cert.Spec.upd (V c main_v21) (V c main_v26) (V c main_v31) (Cert.Spec.unrow (V c main_v29)) :=
  (dat5 (F := Ideal) V c).arrAt_eq_of_cover 4 _ (fun t _ => upd5_flushed V c t) upd5_cover

end Cert.KernelIdeal.KV

end
-- ==== Proof.KUpd7.lean ====
import proofs.«412457_j20298015441381_1_alg».proof.Proof.Gen.KernelIdeal.Frame
import proofs.«412457_j20298015441381_1_alg».proof.Proof.Spec
import Idealize.ShloMosaic.Lib.ValueLayout
import Idealize.ShloMosaic.PureOps.Ideal.Laws

noncomputable section

namespace Cert.KernelIdeal.KV

open Cert.KernelIdeal Cert.KernelIdeal.Gen Idealize.ShloMosaic Idealize.ShloMosaic.TcCoe Idealize.SL.Sem
open Idealize.ShloMosaic.ValueIdx

/-! ## The matrix product of the body, entry by entry -/

/-- The left operand's row coordinate in the product's sum is the output's row. -/
theorem upd7_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the summation index. -/
theorem upd7_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the summation index. -/
theorem upd7_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem upd7_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product with a zero accumulator at entry `(p, q)` is `Σ_k x[p,k]·W[k,q]`. -/
theorem upd7_matmul_at (x : FVec Ideal S5000x128 .bf16) (W : FVec Ideal S128x128 .bf16) (p : Fin 5000) (q : Fin 128) :
    matmul dot_S5000x128_S128x128_S5000x128_1_0_0_1_n_n none x W (constant (F := Ideal) S5000x128 .f32 0x00000000#32) (ix2 p q)
      = ∑ k : Fin 128, x (ix2 p k) * W (ix2 k q) := by
  refine (Ideal.matmul_constant_zero_apply dot_S5000x128_S128x128_S5000x128_1_0_0_1_n_n none x W (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact upd7_lhs_0 _ _
    | ⟨1, _⟩ => exact (upd7_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (upd7_rhs_0 _ _).trans hk
    | ⟨1, _⟩ => exact upd7_rhs_1 _ _)
  rw [el, er]

/-! ## The body's result at an entry -/

/-- The body's result at entry `(p, q)` of its blocks: the leaky rectifier of `Σ_k (h+agg)[p,k]·W[k,q] + b[q]`. -/
theorem upd7_pay_at (x0 x1 : Vec Ideal S5000x128 .f32) (x2 : Vec Ideal S128x128 .f32) (x3 : Vec Ideal S1x128 .f32) (p : Fin 5000) (q : Fin 128) :
    k7_pay1 (F := Ideal) x0 x1 x2 x3 (ix2 p q)
      = Cert.Spec.leaky ((∑ k : Fin 128, (x0 (ix2 p k) + x1 (ix2 p k)) * x2 (ix2 k q)) + x3 (ix2 (0 : Fin 1) q)) := by
  unfold k7_pay1
  simp only [shapeCast_self]
  rw [select_apply, cmpf_apply, mulf_apply, addf_apply, broadcast_apply, broadcast_apply, broadcastTo_1b_ab_apply, upd7_matmul_at]
  simp only [truncf_apply, addf_apply]
  rfl

/-- The body's result at entry `(p, q)` of a block whose rows are rows `r` of `h` and `agg`, beside the whole
    `W` and the bias row, is the node update at `(r, q)`. -/
theorem upd7_block_at (h agg : Cert.Spec.A2 100000 128) (W : Cert.Spec.A2 128 128) (B : Cert.Spec.A2 1 128)
    (x0 x1 : Vec Ideal S5000x128 .f32) (x2 : Vec Ideal S128x128 .f32) (x3 : Vec Ideal S1x128 .f32)
    (r : Fin 100000) (p : Fin 5000) (q : Fin 128)
    (h0 : ∀ k : Fin 128, x0 (ix2 p k) = h (ix2 r k)) (h1 : ∀ k : Fin 128, x1 (ix2 p k) = agg (ix2 r k))
    (h2 : ∀ k : Fin 128, x2 (ix2 k q) = W (ix2 k q)) (h3 : x3 (ix2 (0 : Fin 1) q) = B (ix2 (0 : Fin 1) q)) :
    k7_pay1 (F := Ideal) x0 x1 x2 x3 (ix2 p q) = Cert.Spec.upd h agg W (Cert.Spec.unrow B) (ix2 r q) := by
  rw [upd7_pay_at, h3]
  simp only [h0, h1, h2]
  rfl

/-! ## From the blocks to the array -/

variable (V : (c : Dev nD) → (b : Ref sig .tc) → Buf (Elt Ideal) ((c : Thread nD τ).loc b))

/-- The offset `(0, 0)` is zero on both axes. -/
theorem upd7_off_zero : (![0, 0] : Fin 2 → Nat) = fun _ => 0 := funext fun a => by fin_cases a <;> rfl

/-- The block index maps, decided over the grid: the blocks of `h` and `agg` move with the output's block down the
    rows; `W` and the bias row stay; the output's block index stays in its range. -/
theorem upd7_idx : ∀ t : Fin cfg7.N, win7_0.index t (0 : Fin 2) = win7_4.index t (0 : Fin 2)
    ∧ win7_0.index t (1 : Fin 2) = 0
    ∧ win7_1.index t (0 : Fin 2) = win7_4.index t (0 : Fin 2)
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) ≤ 19
    ∧ win7_4.index t (1 : Fin 2) = 0 :=
  (by decide +kernel : ∀ t : Fin grid7.N, _)

/-- Every block of 5,000 rows is some grid point's. -/
theorem upd7_onto : ∀ q0 : Fin 20, ∃ t : Fin cfg7.N, win7_4.index t = ![q0.val, 0] :=
  (by decide +kernel : ∀ q0 : Fin 20, ∃ t : Fin grid7.N, win7_4.index t = ![q0.val, 0])

/-- What grid point `t` writes back is block `t` of the node update of the input arrays as the region finds them. -/
theorem upd7_flushed (c : Dev nD) (t : Fin cfg7.N) :
    (dat7 (F := Ideal) V c).flushed 4 t = ((cfg7.win 4).blk t).view.read (Elt Ideal)
      (Cert.Spec.upd (V c main_v32) (V c main_v37) (V c main_v42) (Cert.Spec.unrow (V c main_v40))) := by
  show (cfg7.win 4).cut (grid7.coords t) ((dat7 V c).after 4 t) = _
  rw [after7_4]
  unfold out7_4
  rw [View.canon_unit_zero upd7_off_zero]
  simp only [View.ld_unit_zero (S := S5000x128) upd7_off_zero, View.ld_unit_zero (S := S128x128) upd7_off_zero,
    View.ld_unit_zero (S := S1x128) upd7_off_zero]
  obtain ⟨e0, e1, e2, e3, e4, e5, e6, e7, e8, e9⟩ := upd7_idx t
  funext j
  obtain ⟨p, q, rfl⟩ : ∃ (p : Fin 5000) (q : Fin 128), j = ix2 p q := ⟨j 0, j 1, eq_ix2 j⟩
  have hr : win7_4.index t (0 : Fin 2) * 5000 + 1 * p.val < 100000 := by have := p.isLt; omega
  have h4 : ((cfg7.win 4).blk t).view.emb (ix2 p q)
      = ix2 (⟨win7_4.index t (0 : Fin 2) * 5000 + 1 * p.val, hr⟩ : Fin 100000) q := by
    funext a; apply Fin.ext
    match a with
    | ⟨0, _⟩ => rfl
    | ⟨1, _⟩ => show win7_4.index t (1 : Fin 2) * 128 + 1 * q.val = q.val; omega
  refine (upd7_block_at (V c main_v32) (V c main_v37) (V c main_v42) (V c main_v40)
    (iblk7 V c 0 t) (iblk7 V c 1 t) (iblk7 V c 2 t) (iblk7 V c 3 t)
    ⟨win7_4.index t (0 : Fin 2) * 5000 + 1 * p.val, hr⟩ p q ?_ ?_ ?_ ?_).trans ?_
  · intro k
    show V c main_v32 (((cfg7.win 0).blk t).view.emb (ix2 p k)) = _
    refine congrArg _ (funext fun a => Fin.ext ?_)
    match a with
    | ⟨0, _⟩ => show win7_0.index t (0 : Fin 2) * 5000 + 1 * p.val = win7_4.index t (0 : Fin 2) * 5000 + 1 * p.val; omega
    | ⟨1, _⟩ => show win7_0.index t (1 : Fin 2) * 128 + 1 * k.val = k.val; omega
  · intro k
    show V c main_v37 (((cfg7.win 1).blk t).view.emb (ix2 p k)) = _
    refine congrArg _ (funext fun a => Fin.ext ?_)
    match a with
    | ⟨0, _⟩ => show win7_1.index t (0 : Fin 2) * 5000 + 1 * p.val = win7_4.index t (0 : Fin 2) * 5000 + 1 * p.val; omega
    | ⟨1, _⟩ => show win7_1.index t (1 : Fin 2) * 128 + 1 * k.val = k.val; omega
  · intro k
    show V c main_v42 (((cfg7.win 2).blk t).view.emb (ix2 k q)) = _
    refine congrArg _ (funext fun a => Fin.ext ?_)
    match a with
    | ⟨0, _⟩ => show win7_2.index t (0 : Fin 2) * 128 + 1 * k.val = k.val; omega
    | ⟨1, _⟩ => show win7_2.index t (1 : Fin 2) * 128 + 1 * q.val = q.val; omega
  · show V c main_v40 (((cfg7.win 3).blk t).view.emb (ix2 (0 : Fin 1) q)) = _
    refine congrArg _ (funext fun a => Fin.ext ?_)
    match a with
    | ⟨0, _⟩ => show win7_3.index t (0 : Fin 2) * 1 + 1 * 0 = 0; omega
    | ⟨1, _⟩ => show win7_3.index t (1 : Fin 2) * 128 + 1 * q.val = q.val; omega
  · show _ = Cert.Spec.upd (V c main_v32) (V c main_v37) (V c main_v42) (Cert.Spec.unrow (V c main_v40))
      (((cfg7.win 4).blk t).view.emb (ix2 p q))
    rw [h4]

/-- An index of the output array is in point `t`'s block iff each coordinate is in the block's range on its axis. -/
theorem upd7_mem_blk (t : Fin cfg7.N) (i : S100000x128.Idx) :
    i ∈ ((cfg7.win 4).blk t).view.set ↔ ∀ a : Fin 2, win7_4.index t a * S5000x128.size a ≤ (i a).val
      ∧ (i a).val < win7_4.index t a * S5000x128.size a + S5000x128.size a := by
  show i ∈ ((View.whole main_v43).slice (win7_4.rect t)).set ↔ _
  rw [View.set_slice_whole, Rect.mem_set_unit]
  exact Iff.rfl

/-- Every index of the output array lies in some point's block: row `r` in the block of point `r / 5000`. -/
theorem upd7_cover (i : S100000x128.Idx) :
    ∃ t : Fin cfg7.N, (cfg7.win 4).flush t = true ∧ i ∈ ((cfg7.win 4).blk t).view.set := by
  have hi0 : (i 0).val < 100000 := (i 0).isLt
  have hi1 : (i 1).val < 128 := (i 1).isLt
  obtain ⟨t, ht⟩ := upd7_onto ⟨(i 0).val / 5000, by omega⟩
  have q0 : win7_4.index t (0 : Fin 2) = (i 0).val / 5000 := congrFun ht 0
  have q1 : win7_4.index t (1 : Fin 2) = 0 := congrFun ht 1
  refine ⟨t, flush7_4 t, ?_⟩
  rw [upd7_mem_blk]
  intro a
  match a with
  | ⟨0, _⟩ => show win7_4.index t (0 : Fin 2) * 5000 ≤ (i 0).val ∧ (i 0).val < win7_4.index t (0 : Fin 2) * 5000 + 5000; omega
  | ⟨1, _⟩ => show win7_4.index t (1 : Fin 2) * 128 ≤ (i 1).val ∧ (i 1).val < win7_4.index t (1 : Fin 2) * 128 + 128; omega

theorem region7_arr (c : Dev nD) :
    (dat7 (F := Ideal) V c).arrAt 4 cfg7.N = Cert.Spec.upd (V c main_v32) (V c main_v37) (V c main_v42) (Cert.Spec.unrow (V c main_v40)) :=
  (dat7 (F := Ideal) V c).arrAt_eq_of_cover 4 _ (fun t _ => upd7_flushed V c t) upd7_cover

end Cert.KernelIdeal.KV

end
-- ==== Proof.KHead8.lean ====
import proofs.«412457_j20298015441381_1_alg».proof.Proof.Gen.KernelIdeal.Frame
import proofs.«412457_j20298015441381_1_alg».proof.Proof.Spec
import Idealize.ShloMosaic.Lib.Pipeline.Value
import Idealize.ShloMosaic.Lib.ValueLayout
import Idealize.ShloMosaic.PureOps.Ideal.Laws

/-!
The head region over the extended reals: after the pipeline has run over its 20 grid points, the output array is the
specification's head of the input arrays as the region finds them.

A grid point `t` holds rows `t·5000 … t·5000 + 4999` of `skip` and `h`, the whole weight matrix and the three
`1 × 128` rows. Its body computes, for row `p` and lane `q` of the block, `y = (skip + h)·W + b`, the row mean
`μ = Σ_k y[p,k] / 128`, the row variance `σ² = Σ_k (y[p,k] − μ)² / 128`, and
`(y[p,q] − μ)·rsqrt(σ² + ε)·γ[q] + β[q]`. The proof reads the body's arithmetic at an index stage by stage (the dense
stage, the two row statistics, the closing arithmetic), identifies each input block with the rows of its array, and
covers the output array by the 20 blocks.
-/

noncomputable section

namespace Cert.KernelIdeal.KV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Keepdims layout forms -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A lane sum -/

/-- The sum over the 128 lanes of row `r`. -/
theorem laneSum_apply (src : FVec Ideal S5000x128 .f32) (h : S5000x128.Reduces [1] S5000) (hφ : FKind.Formats .f32)
    (hacc : (0x00000000#32 : BitVec 32) = 0x00000000#32) (r : Fin 5000) :
    multiReduction (F := Ideal) .add [1] S5000 src 0x00000000#32 h hφ hacc (ix1 r) = ∑ k : Fin 128, src (ix2 r k) := by
  refine (Ideal.multiReduction_add_single src 0x00000000#32 h hφ hacc (ix1 r)).trans ?_
  refine Finset.sum_congr rfl fun k _ => congrArg src ?_
  funext c
  apply Fin.ext
  match c with
  | ⟨0, _⟩ => rfl
  | ⟨1, _⟩ => rfl

/-! ## The matrix product -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product at `(p, q)`: the sum over the contracted axis. -/
theorem matmul_apply_pq (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  show FloatOps.matmul dot_S5000x128_S128x128_S5000x128_1_0_0_1_n_n none a w (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (rhs_axis0 _ _).trans hk
    | ⟨1, _⟩ => exact rhs_axis1 _ _)
  rw [el, er]

/-! ## The body's arithmetic, cut into its stages -/

/-- The dense stage on a block: `(skip + h)·W + b`, the bias row broadcast over the rows. -/
def denseBlk (x0 x1 : Vec Ideal S5000x128 .f32) (W : Vec Ideal S128x128 .f32) (b : Vec Ideal S1x128 .f32) :
    FVec Ideal S5000x128 .f32 :=
  addf (matmul dot_S5000x128_S128x128_S5000x128_1_0_0_1_n_n none
      (truncf .bf16 (addf (shapeCast S5000x128 x0 shapeCasts_S5000x128_S5000x128) (shapeCast S5000x128 x1 shapeCasts_S5000x128_S5000x128)) bitsLt_bf16_f32)
      (truncf .bf16 W bitsLt_bf16_f32) (constant S5000x128 .f32 0x00000000#32))
    (broadcastTo S5000x128 (shapeCast S1x128 b shapeCasts_S1x128_S1x128) broadcasts_S1x128_S5000x128)

/-- The mean over the lanes of each row, kept as a column: the lane sum divided by the word of 128. -/
def meanCol (y : FVec Ideal S5000x128 .f32) : FVec Ideal S5000x1 .f32 :=
  divf (shapeCast S5000x1 (multiReduction .add [1] S5000 y 0x00000000#32 reduces_S5000x128_S5000 (.inl rfl) rfl) shapeCasts_S5000_S5000x1)
    (broadcast S5000x1 (Scalar.ofBits .f32 0x43000000#32))

/-- A row's entries less the row's mean. -/
def centred (y : FVec Ideal S5000x128 .f32) : FVec Ideal S5000x128 .f32 :=
  subf y (broadcastTo S5000x128 (meanCol y) broadcasts_S5000x1_S5000x128)

/-- The normalisation of each row, scaled by `gamma` and shifted by `beta`. -/
def normBlk (y : FVec Ideal S5000x128 .f32) (g bt : Vec Ideal S1x128 .f32) : FVec Ideal S5000x128 .f32 :=
  addf (mulf (mulf (centred y)
        (broadcastTo S5000x128 (rsqrt (addf (meanCol (mulf (centred y) (centred y))) (broadcast S5000x1 (Scalar.ofBits .f32 0x3727C5AC#32)))) broadcasts_S5000x1_S5000x128))
      (broadcastTo S5000x128 (shapeCast S1x128 g shapeCasts_S1x128_S1x128) broadcasts_S1x128_S5000x128))
    (broadcastTo S5000x128 (shapeCast S1x128 bt shapeCasts_S1x128_S1x128) broadcasts_S1x128_S5000x128)

/-- The body's payload is the normalisation of the dense stage. -/
theorem pay_eq (x0 x1 : Vec Ideal S5000x128 .f32) (W : Vec Ideal S128x128 .f32) (b g bt : Vec Ideal S1x128 .f32) :
    k8_pay1 (F := Ideal) x0 x1 W b g bt = normBlk (denseBlk x0 x1 W b) g bt := rfl

/-! ## The stages at an index -/

/-- The dense stage at `(p, q)`: `Σ_k (x0 + x1)[p,k]·W[k,q] + b[0,q]`. -/
theorem denseBlk_apply (x0 x1 : Vec Ideal S5000x128 .f32) (W : Vec Ideal S128x128 .f32) (b : Vec Ideal S1x128 .f32)
    (p : Fin 5000) (q : Fin 128) :
    denseBlk x0 x1 W b (ix2 p q)
      = (∑ k : Fin 128, (x0 (ix2 p k) + x1 (ix2 p k)) * W (ix2 k q)) + b (ix2 (0 : Fin 1) q) := by
  unfold denseBlk
  rw [addf_apply, matmul_apply_pq, broadcastTo_1b_ab_apply]
  simp only [truncf_apply, addf_apply, shapeCast_self]

/-- The mean column at row `p`: the row's lane sum over the word of 128. -/
theorem meanCol_apply (y : FVec Ideal S5000x128 .f32) (p : Fin 5000) (u : Fin 1) :
    meanCol y (ix2 p u) = Ideal.div (∑ k : Fin 128, y (ix2 p k)) Cert.Spec.c128W := by
  unfold meanCol
  rw [divf_apply, shapeCast_a_a1_apply, laneSum_apply]
  rfl

/-- A centred entry: the entry less its row's mean. -/
theorem centred_apply (y : FVec Ideal S5000x128 .f32) (p : Fin 5000) (q : Fin 128) :
    centred y (ix2 p q) = y (ix2 p q) - Ideal.div (∑ k : Fin 128, y (ix2 p k)) Cert.Spec.c128W := by
  unfold centred
  rw [subf_apply, broadcastTo_a1_ab_apply, meanCol_apply]

/-- The normalised block at `(p, q)` is the layer normalisation of row `p` at lane `q`. -/
theorem normBlk_apply (y : FVec Ideal S5000x128 .f32) (g bt : Vec Ideal S1x128 .f32) (p : Fin 5000) (q : Fin 128) :
    normBlk y g bt (ix2 p q)
      = Cert.Spec.lnAt (fun k => y (ix2 p k)) (Cert.Spec.unrow g) (Cert.Spec.unrow bt) q := by
  unfold normBlk
  rw [addf_apply, mulf_apply, mulf_apply, centred_apply, broadcastTo_a1_ab_apply, broadcastTo_1b_ab_apply,
    broadcastTo_1b_ab_apply, shapeCast_self, shapeCast_self]
  show (_ * Ideal.rsqrt (meanCol (mulf (centred y) (centred y)) (ix2 p (0 : Fin 1)) + Cert.Spec.epsW)) * _ + _ = _
  rw [meanCol_apply]
  simp only [mulf_apply, centred_apply]
  rfl

/-- The body's payload at `(p, q)`: the layer normalisation of the dense row. -/
theorem pay_apply (x0 x1 : Vec Ideal S5000x128 .f32) (W : Vec Ideal S128x128 .f32) (b g bt : Vec Ideal S1x128 .f32)
    (p : Fin 5000) (q : Fin 128) :
    k8_pay1 (F := Ideal) x0 x1 W b g bt (ix2 p q)
      = Cert.Spec.lnAt (fun q' => (∑ k : Fin 128, (x0 (ix2 p k) + x1 (ix2 p k)) * W (ix2 k q')) + b (ix2 (0 : Fin 1) q'))
          (Cert.Spec.unrow g) (Cert.Spec.unrow bt) q := by
  rw [pay_eq, normBlk_apply]
  simp only [denseBlk_apply]

/-! ## From blocks to the array -/

theorem origin2 : (![0, 0] : Fin 2 → Nat) = fun _ => 0 := funext fun a => by fin_cases a <;> rfl

/-- The printed index maps over the grid of 20 points: at point `t` the row windows sit at block `t` and lane block
    0, the weight and the three rows at block `(0, 0)`. -/
theorem blockIdx : ∀ t : Fin cfg8.N,
    win8_6.index t (0 : Fin 2) = t.val ∧ win8_6.index t (1 : Fin 2) = 0
    ∧ win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0 :=
  (by decide +kernel : ∀ t : Fin grid8.N, _)

/-- The head at row `r`, lane `q`, with the dense row written out. -/
theorem head_at (skip h : Cert.Spec.A2 100000 128) (W : Cert.Spec.A2 128 128) (b g bt : Cert.Spec.A2 1 128)
    (r : Fin 100000) (q : Fin 128) :
    Cert.Spec.head skip h W (Cert.Spec.unrow b) (Cert.Spec.unrow g) (Cert.Spec.unrow bt) (ix2 r q)
      = Cert.Spec.lnAt (fun q' => (∑ k : Fin 128, (skip (ix2 r k) + h (ix2 r k)) * W (ix2 k q')) + b (ix2 (0 : Fin 1) q'))
          (Cert.Spec.unrow g) (Cert.Spec.unrow bt) q := rfl

/-! Each input block read where the output's rectangle says: row `p` of block `t` is row `t·5000 + p` of the array;
    the weight and the three rows are whole at every point. -/

theorem skipBlk_at (c : Dev nD) (t : Fin cfg8.N) (p : Fin 5000) (k : Fin 128) (r : Fin 100000)
    (hr : r.val = t.val * 5000 + p.val) : iblk8 V c 0 t (ix2 p k) = V c main_v9 (ix2 r k) := by
  obtain ⟨-, -, e0, e1, -⟩ := blockIdx t
  show V c main_v9 (((cfg8.win 0).blk t).view.emb (ix2 p k)) = V c main_v9 (ix2 r k)
  refine congrArg _ (funext fun a => Fin.ext ?_)
  match a with
  | ⟨0, _⟩ => show win8_0.index t (0 : Fin 2) * 5000 + 1 * p.val = r.val; omega
  | ⟨1, _⟩ => show win8_0.index t (1 : Fin 2) * 128 + 1 * k.val = k.val; omega

theorem hBlk_at (c : Dev nD) (t : Fin cfg8.N) (p : Fin 5000) (k : Fin 128) (r : Fin 100000)
    (hr : r.val = t.val * 5000 + p.val) : iblk8 V c 1 t (ix2 p k) = V c main_v43 (ix2 r k) := by
  obtain ⟨-, -, -, -, e0, e1, -⟩ := blockIdx t
  show V c main_v43 (((cfg8.win 1).blk t).view.emb (ix2 p k)) = V c main_v43 (ix2 r k)
  refine congrArg _ (funext fun a => Fin.ext ?_)
  match a with
  | ⟨0, _⟩ => show win8_1.index t (0 : Fin 2) * 5000 + 1 * p.val = r.val; omega
  | ⟨1, _⟩ => show win8_1.index t (1 : Fin 2) * 128 + 1 * k.val = k.val; omega

theorem weightBlk_at (c : Dev nD) (t : Fin cfg8.N) (k q : Fin 128) :
    iblk8 V c 2 t (ix2 k q) = V c main_arg9 (ix2 k q) := by
  obtain ⟨-, -, -, -, -, -, e0, e1, -⟩ := blockIdx t
  show V c main_arg9 (((cfg8.win 2).blk t).view.emb (ix2 k q)) = V c main_arg9 (ix2 k q)
  refine congrArg _ (funext fun a => Fin.ext ?_)
  match a with
  | ⟨0, _⟩ => show win8_2.index t (0 : Fin 2) * 128 + 1 * k.val = k.val; omega
  | ⟨1, _⟩ => show win8_2.index t (1 : Fin 2) * 128 + 1 * q.val = q.val; omega

theorem biasBlk_at (c : Dev nD) (t : Fin cfg8.N) (u : Fin 1) (q : Fin 128) :
    iblk8 V c 3 t (ix2 u q) = V c main_v6 (ix2 u q) := by
  obtain ⟨-, -, -, -, -, -, -, -, e0, e1, -⟩ := blockIdx t
  show V c main_v6 (((cfg8.win 3).blk t).view.emb (ix2 u q)) = V c main_v6 (ix2 u q)
  refine congrArg _ (funext fun a => Fin.ext ?_)
  match a with
  | ⟨0, _⟩ => show win8_3.index t (0 : Fin 2) * 1 + 1 * u.val = u.val; omega
  | ⟨1, _⟩ => show win8_3.index t (1 : Fin 2) * 128 + 1 * q.val = q.val; omega

theorem gammaBlk_at (c : Dev nD) (t : Fin cfg8.N) (u : Fin 1) (q : Fin 128) :
    iblk8 V c 4 t (ix2 u q) = V c main_v7 (ix2 u q) := by
  obtain ⟨-, -, -, -, -, -, -, -, -, -, e0, e1, -⟩ := blockIdx t
  show V c main_v7 (((cfg8.win 4).blk t).view.emb (ix2 u q)) = V c main_v7 (ix2 u q)
  refine congrArg _ (funext fun a => Fin.ext ?_)
  match a with
  | ⟨0, _⟩ => show win8_4.index t (0 : Fin 2) * 1 + 1 * u.val = u.val; omega
  | ⟨1, _⟩ => show win8_4.index t (1 : Fin 2) * 128 + 1 * q.val = q.val; omega

theorem betaBlk_at (c : Dev nD) (t : Fin cfg8.N) (u : Fin 1) (q : Fin 128) :
    iblk8 V c 5 t (ix2 u q) = V c main_v8 (ix2 u q) := by
  obtain ⟨-, -, -, -, -, -, -, -, -, -, -, -, e0, e1⟩ := blockIdx t
  show V c main_v8 (((cfg8.win 5).blk t).view.emb (ix2 u q)) = V c main_v8 (ix2 u q)
  refine congrArg _ (funext fun a => Fin.ext ?_)
  match a with
  | ⟨0, _⟩ => show win8_5.index t (0 : Fin 2) * 1 + 1 * u.val = u.val; omega
  | ⟨1, _⟩ => show win8_5.index t (1 : Fin 2) * 128 + 1 * q.val = q.val; omega

/-- The payload of the blocks at point `t`, at `(p, q)`, is the head of the arrays at row `t·5000 + p`, lane `q`. -/
theorem pay_blocks (c : Dev nD) (t : Fin cfg8.N) (p : Fin 5000) (q : Fin 128) (r : Fin 100000)
    (hr : r.val = t.val * 5000 + p.val) :
    k8_pay1 (F := Ideal) (iblk8 V c 0 t) (iblk8 V c 1 t) (iblk8 V c 2 t) (iblk8 V c 3 t) (iblk8 V c 4 t) (iblk8 V c 5 t) (ix2 p q)
      = Cert.Spec.head (V c main_v9) (V c main_v43) (V c main_arg9)
          (Cert.Spec.unrow (V c main_v6)) (Cert.Spec.unrow (V c main_v7)) (Cert.Spec.unrow (V c main_v8)) (ix2 r q) := by
  refine (pay_apply _ _ _ _ _ _ p q).trans ?_
  refine Eq.trans ?_ (head_at (V c main_v9) (V c main_v43) (V c main_arg9) (V c main_v6) (V c main_v7) (V c main_v8) r q).symm
  have hg : Cert.Spec.unrow (iblk8 V c 4 t) = Cert.Spec.unrow (V c main_v7) := funext fun i => gammaBlk_at V c t 0 (i 0)
  have hb : Cert.Spec.unrow (iblk8 V c 5 t) = Cert.Spec.unrow (V c main_v8) := funext fun i => betaBlk_at V c t 0 (i 0)
  rw [hg, hb]
  refine congrArg (fun f => Cert.Spec.lnAt f (Cert.Spec.unrow (V c main_v7)) (Cert.Spec.unrow (V c main_v8)) q) (funext fun q' => ?_)
  rw [biasBlk_at V c t 0 q']
  refine congrArg (· + V c main_v6 (ix2 (0 : Fin 1) q')) (Finset.sum_congr rfl fun k _ => ?_)
  rw [skipBlk_at V c t p k r hr, hBlk_at V c t p k r hr, weightBlk_at V c t k q']

/-- What point `t` writes back is block `t` of the head of the arrays as the region finds them. -/
theorem flushed_head (c : Dev nD) (t : Fin cfg8.N) :
    (dat8 (F := Ideal) V c).flushed 6 t = ((cfg8.win 6).blk t).view.read (Elt Ideal)
      (Cert.Spec.head (V c main_v9) (V c main_v43) (V c main_arg9)
        (Cert.Spec.unrow (V c main_v6)) (Cert.Spec.unrow (V c main_v7)) (Cert.Spec.unrow (V c main_v8))) := by
  show (cfg8.win 6).cut (grid8.coords t) ((dat8 V c).after 6 t) = _
  rw [after8_6]
  unfold out8_6
  rw [View.canon_unit_zero origin2]
  simp only [View.ld_unit_zero (S := S5000x128) origin2, View.ld_unit_zero (S := S128x128) origin2,
    View.ld_unit_zero (S := S1x128) origin2]
  obtain ⟨e60, e61, -⟩ := blockIdx t
  funext j
  show k8_pay1 (F := Ideal) (iblk8 V c 0 t) (iblk8 V c 1 t) (iblk8 V c 2 t) (iblk8 V c 3 t) (iblk8 V c 4 t) (iblk8 V c 5 t) j
    = Cert.Spec.head (V c main_v9) (V c main_v43) (V c main_arg9)
        (Cert.Spec.unrow (V c main_v6)) (Cert.Spec.unrow (V c main_v7)) (Cert.Spec.unrow (V c main_v8))
        (((cfg8.win 6).blk t).view.emb j)
  have ht : t.val < 20 := lt_of_lt_of_eq t.isLt N_8
  have hp : (j 0).val < 5000 := (j 0).isLt
  have hq : (j 1).val < 128 := (j 1).isLt
  have hj : (j : S5000x128.Idx) = ix2 (⟨(j 0).val, hp⟩ : Fin 5000) (⟨(j 1).val, hq⟩ : Fin 128) := by
    funext a; match a with | ⟨0, _⟩ => rfl | ⟨1, _⟩ => rfl
  have hemb : (((cfg8.win 6).blk t).view.emb j : S100000x128.Idx)
      = ix2 (⟨t.val * 5000 + (j 0).val, by omega⟩ : Fin 100000) (⟨(j 1).val, hq⟩ : Fin 128) := by
    funext a; apply Fin.ext
    match a with
    | ⟨0, _⟩ => show win8_6.index t (0 : Fin 2) * 5000 + 1 * (j 0).val = t.val * 5000 + (j 0).val; omega
    | ⟨1, _⟩ => show win8_6.index t (1 : Fin 2) * 128 + 1 * (j 1).val = (j 1).val; omega
  refine (congrArg (k8_pay1 (F := Ideal) (iblk8 V c 0 t) (iblk8 V c 1 t) (iblk8 V c 2 t) (iblk8 V c 3 t) (iblk8 V c 4 t) (iblk8 V c 5 t)) hj).trans ?_
  refine Eq.trans ?_ (congrArg (Cert.Spec.head (V c main_v9) (V c main_v43) (V c main_arg9)
        (Cert.Spec.unrow (V c main_v6)) (Cert.Spec.unrow (V c main_v7)) (Cert.Spec.unrow (V c main_v8))) hemb).symm
  exact pay_blocks V c t _ _ _ rfl

/-- An index of the array is in point `t`'s block iff each coordinate is in the block's range on its axis. -/
theorem mem_blk (t : Fin cfg8.N) (i : S100000x128.Idx) :
    i ∈ ((cfg8.win 6).blk t).view.set ↔ ∀ a : Fin 2, win8_6.index t a * S5000x128.size a ≤ (i a).val
      ∧ (i a).val < win8_6.index t a * S5000x128.size a + S5000x128.size a := by
  show i ∈ ((View.whole main_v44).slice (win8_6.rect t)).set ↔ _
  rw [View.set_slice_whole, Rect.mem_set_unit]
  exact Iff.rfl

/-- Every index of the output array lies in some point's block: row `r` in the block of point `r / 5000`. -/
theorem covered (i : S100000x128.Idx) :
    ∃ t : Fin cfg8.N, (cfg8.win 6).flush t = true ∧ i ∈ ((cfg8.win 6).blk t).view.set := by
  have hi0 : (i 0).val < 100000 := (i 0).isLt
  have hi1 : (i 1).val < 128 := (i 1).isLt
  have hN : (i 0).val / 5000 < cfg8.N := lt_of_lt_of_eq (by omega : (i 0).val / 5000 < 20) N_8.symm
  obtain ⟨e60, e61, -⟩ := blockIdx ⟨(i 0).val / 5000, hN⟩
  refine ⟨⟨(i 0).val / 5000, hN⟩, flush8_6 _, ?_⟩
  rw [mem_blk]
  intro a
  match a with
  | ⟨0, _⟩ =>
    show win8_6.index ⟨(i 0).val / 5000, hN⟩ (0 : Fin 2) * 5000 ≤ (i 0).val
      ∧ (i 0).val < win8_6.index ⟨(i 0).val / 5000, hN⟩ (0 : Fin 2) * 5000 + 5000
    rw [e60]; show (i 0).val / 5000 * 5000 ≤ (i 0).val ∧ (i 0).val < (i 0).val / 5000 * 5000 + 5000; omega
  | ⟨1, _⟩ =>
    show win8_6.index ⟨(i 0).val / 5000, hN⟩ (1 : Fin 2) * 128 ≤ (i 1).val
      ∧ (i 1).val < win8_6.index ⟨(i 0).val / 5000, hN⟩ (1 : Fin 2) * 128 + 128
    rw [e61]; omega

theorem region8_arr (c : Dev nD) :
    (dat8 (F := Ideal) V c).arrAt 6 cfg8.N = Cert.Spec.head (V c main_v9) (V c main_v43) (V c main_arg9)
      (Cert.Spec.unrow (V c main_v6)) (Cert.Spec.unrow (V c main_v7)) (Cert.Spec.unrow (V c main_v8)) :=
  (dat8 (F := Ideal) V c).arrAt_eq_of_cover 6 _ (fun t _ => flushed_head V c t) covered

end Cert.KernelIdeal.KV

end
-- ==== Proof.KNet.lean ====
/- GENERATED by script: bun scratch/mk_knet.js 412457_j20298015441381_1_alg > proof/Proof/KNet.lean (from the unit directory) — a table of cases: one
   equation per (segment boundary, buffer read later), each from the one before it by the segment's own fact. -/
import proofs.«412457_j20298015441381_1_alg».proof.Proof.Gen.KernelIdeal.Frame
import proofs.«412457_j20298015441381_1_alg».proof.Proof.KHost
import proofs.«412457_j20298015441381_1_alg».proof.Proof.KHostTake
import proofs.«412457_j20298015441381_1_alg».proof.Proof.KDense0
import proofs.«412457_j20298015441381_1_alg».proof.Proof.KDense1
import proofs.«412457_j20298015441381_1_alg».proof.Proof.KMsg2
import proofs.«412457_j20298015441381_1_alg».proof.Proof.KMsg4
import proofs.«412457_j20298015441381_1_alg».proof.Proof.KMsg6
import proofs.«412457_j20298015441381_1_alg».proof.Proof.KUpd3
import proofs.«412457_j20298015441381_1_alg».proof.Proof.KUpd5
import proofs.«412457_j20298015441381_1_alg».proof.Proof.KUpd7
import proofs.«412457_j20298015441381_1_alg».proof.Proof.KHead8

/-!
What every buffer that is read later holds at every boundary between the segments of the kernel program's run, as a
function of the launch contents: the two projections, then per layer the looked-up rows, the messages, their sums and the
updated node state, and at the last boundary the result buffer at the head's value. Each equation follows from the one at
the boundary before: a host stretch writes a buffer (its value is read in KHost.lean and KHostTake.lean) or leaves it
alone; a pallas_call writes its output window's array (the region's value lemma) and leaves every other buffer, its own
input windows included, as it found it.
-/

set_option maxRecDepth 16384

noncomputable section

namespace Cert.KernelIdeal.KV

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- Argument 0 as launched. -/
abbrev a0 : Buf (Elt Ideal) ((c : Thread nD τ).loc main_arg0) := m ((c : Thread nD τ).loc main_arg0)
/-- Argument 1 as launched. -/
abbrev a1 : Buf (Elt Ideal) ((c : Thread nD τ).loc main_arg1) := m ((c : Thread nD τ).loc main_arg1)
/-- Argument 2 as launched. -/
abbrev a2 : Buf (Elt Ideal) ((c : Thread nD τ).loc main_arg2) := m ((c : Thread nD τ).loc main_arg2)
/-- Argument 3 as launched. -/
abbrev a3 : Buf (Elt Ideal) ((c : Thread nD τ).loc main_arg3) := m ((c : Thread nD τ).loc main_arg3)
/-- Argument 4 as launched. -/
abbrev a4 : Buf (Elt Ideal) ((c : Thread nD τ).loc main_arg4) := m ((c : Thread nD τ).loc main_arg4)
/-- Argument 5 as launched. -/
abbrev a5 : Buf (Elt Ideal) ((c : Thread nD τ).loc main_arg5) := m ((c : Thread nD τ).loc main_arg5)
/-- Argument 6 as launched. -/
abbrev a6 : Buf (Elt Ideal) ((c : Thread nD τ).loc main_arg6) := m ((c : Thread nD τ).loc main_arg6)
/-- Argument 7 as launched. -/
abbrev a7 : Buf (Elt Ideal) ((c : Thread nD τ).loc main_arg7) := m ((c : Thread nD τ).loc main_arg7)
/-- Argument 8 as launched. -/
abbrev a8 : Buf (Elt Ideal) ((c : Thread nD τ).loc main_arg8) := m ((c : Thread nD τ).loc main_arg8)
/-- Argument 9 as launched. -/
abbrev a9 : Buf (Elt Ideal) ((c : Thread nD τ).loc main_arg9) := m ((c : Thread nD τ).loc main_arg9)
/-- Argument 10 as launched. -/
abbrev a10 : Buf (Elt Ideal) ((c : Thread nD τ).loc main_arg10) := m ((c : Thread nD τ).loc main_arg10)
/-- Argument 11 as launched. -/
abbrev a11 : Buf (Elt Ideal) ((c : Thread nD τ).loc main_arg11) := m ((c : Thread nD τ).loc main_arg11)
/-- Argument 12 as launched. -/
abbrev a12 : Buf (Elt Ideal) ((c : Thread nD τ).loc main_arg12) := m ((c : Thread nD τ).loc main_arg12)

/-- The node projection. -/
def h0K : FVec Ideal S100000x128 .f32 := Cert.Spec.dense (a0 m c) (a3 m c) (a4 m c)
/-- The edge projection. -/
def eK : FVec Ideal S1600000x128 .f32 := Cert.Spec.dense (a1 m c) (a5 m c) (a6 m c)
/-- The rows of a node state at the edges' sources, as the kernel program looks them up. -/
def tK (h : FVec Ideal S100000x128 .f32) : FVec Ideal S1600000x128 .f32 := takeK h (srcK (a2 m c))
/-- The messages of a node state. -/
def mK (h : FVec Ideal S100000x128 .f32) : FVec Ideal S1600000x128 .f32 := Cert.Spec.msg (tK m c h) (eK m c)
/-- The messages summed at their destinations. -/
def gK (h : FVec Ideal S100000x128 .f32) : FVec Ideal S100000x128 .f32 := aggK (mK m c h) (dstK (a2 m c))
/-- The node state after one, two and three layers. -/
def h1K : FVec Ideal S100000x128 .f32 := Cert.Spec.upd (h0K m c) (gK m c (h0K m c)) (w0K (a7 m c)) (b0K (a8 m c))
def h2K : FVec Ideal S100000x128 .f32 := Cert.Spec.upd (h1K m c) (gK m c (h1K m c)) (w1K (a7 m c)) (b1K (a8 m c))
def h3K : FVec Ideal S100000x128 .f32 := Cert.Spec.upd (h2K m c) (gK m c (h2K m c)) (w2K (a7 m c)) (b2K (a8 m c))
/-- The result. -/
def outK : FVec Ideal S100000x128 .f32 := Cert.Spec.head (h0K m c) (h3K m c) (a9 m c) (a10 m c) (a11 m c) (a12 m c)

/-- A host stretch leaves a buffer none of its operations writes as it found it. -/
macro "keep_host " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ### Boundary 1: after the host stretch hostOps0 -/

theorem W1_arg0 : W1 m ρ c (Proc.devRef .tc main_arg0) = a0 m c :=
  (show StableHlo.after hostOps0 (W0 m ρ c) (Proc.devRef .tc main_arg0) = W0 m ρ c (Proc.devRef .tc main_arg0) by keep_host hostOps0).trans (rfl)
theorem W1_arg1 : W1 m ρ c (Proc.devRef .tc main_arg1) = a1 m c :=
  (show StableHlo.after hostOps0 (W0 m ρ c) (Proc.devRef .tc main_arg1) = W0 m ρ c (Proc.devRef .tc main_arg1) by keep_host hostOps0).trans (rfl)
theorem W1_arg3 : W1 m ρ c (Proc.devRef .tc main_arg3) = a3 m c :=
  (show StableHlo.after hostOps0 (W0 m ρ c) (Proc.devRef .tc main_arg3) = W0 m ρ c (Proc.devRef .tc main_arg3) by keep_host hostOps0).trans (rfl)
theorem W1_arg5 : W1 m ρ c (Proc.devRef .tc main_arg5) = a5 m c :=
  (show StableHlo.after hostOps0 (W0 m ρ c) (Proc.devRef .tc main_arg5) = W0 m ρ c (Proc.devRef .tc main_arg5) by keep_host hostOps0).trans (rfl)
theorem W1_arg7 : W1 m ρ c (Proc.devRef .tc main_arg7) = a7 m c :=
  (show StableHlo.after hostOps0 (W0 m ρ c) (Proc.devRef .tc main_arg7) = W0 m ρ c (Proc.devRef .tc main_arg7) by keep_host hostOps0).trans (rfl)
theorem W1_arg8 : W1 m ρ c (Proc.devRef .tc main_arg8) = a8 m c :=
  (show StableHlo.after hostOps0 (W0 m ρ c) (Proc.devRef .tc main_arg8) = W0 m ρ c (Proc.devRef .tc main_arg8) by keep_host hostOps0).trans (rfl)
theorem W1_arg9 : W1 m ρ c (Proc.devRef .tc main_arg9) = a9 m c :=
  (show StableHlo.after hostOps0 (W0 m ρ c) (Proc.devRef .tc main_arg9) = W0 m ρ c (Proc.devRef .tc main_arg9) by keep_host hostOps0).trans (rfl)
theorem W1_v1 : W1 m ρ c (Proc.devRef .tc main_v1) = srcK (a2 m c) := by
  refine (h0_v1 (W0 m ρ c)).trans ?_
  rw [show W0 m ρ c (Proc.devRef .tc main_arg2) = a2 m c from rfl]
  all_goals (first | rfl | (unfold tK mK gK; rfl))
theorem W1_v3 : W1 m ρ c (Proc.devRef .tc main_v3) = dstK (a2 m c) := by
  refine (h0_v3 (W0 m ρ c)).trans ?_
  rw [show W0 m ρ c (Proc.devRef .tc main_arg2) = a2 m c from rfl]
  all_goals (first | rfl | (unfold tK mK gK; rfl))
theorem W1_v4 : W1 m ρ c (Proc.devRef .tc main_v4) = rowK (a4 m c) := by
  refine (h0_v4 (W0 m ρ c)).trans ?_
  rw [show W0 m ρ c (Proc.devRef .tc main_arg4) = a4 m c from rfl]
  all_goals (first | rfl | (unfold tK mK gK; rfl))
theorem W1_v5 : W1 m ρ c (Proc.devRef .tc main_v5) = rowK (a6 m c) := by
  refine (h0_v5 (W0 m ρ c)).trans ?_
  rw [show W0 m ρ c (Proc.devRef .tc main_arg6) = a6 m c from rfl]
  all_goals (first | rfl | (unfold tK mK gK; rfl))
theorem W1_v6 : W1 m ρ c (Proc.devRef .tc main_v6) = rowK (a10 m c) := by
  refine (h0_v6 (W0 m ρ c)).trans ?_
  rw [show W0 m ρ c (Proc.devRef .tc main_arg10) = a10 m c from rfl]
  all_goals (first | rfl | (unfold tK mK gK; rfl))
theorem W1_v7 : W1 m ρ c (Proc.devRef .tc main_v7) = rowK (a11 m c) := by
  refine (h0_v7 (W0 m ρ c)).trans ?_
  rw [show W0 m ρ c (Proc.devRef .tc main_arg11) = a11 m c from rfl]
  all_goals (first | rfl | (unfold tK mK gK; rfl))
theorem W1_v8 : W1 m ρ c (Proc.devRef .tc main_v8) = rowK (a12 m c) := by
  refine (h0_v8 (W0 m ρ c)).trans ?_
  rw [show W0 m ρ c (Proc.devRef .tc main_arg12) = a12 m c from rfl]
  all_goals (first | rfl | (unfold tK mK gK; rfl))
/-! ### Boundary 2: after pallas_call 0 -/

theorem W2_arg1 : W2 m ρ c (Proc.devRef .tc main_arg1) = a1 m c :=
  (W2_of_ne m ρ c main_arg1 (by decide)).trans (W1_arg1 m ρ c)
theorem W2_arg5 : W2 m ρ c (Proc.devRef .tc main_arg5) = a5 m c :=
  (W2_of_ne m ρ c main_arg5 (by decide)).trans (W1_arg5 m ρ c)
theorem W2_arg7 : W2 m ρ c (Proc.devRef .tc main_arg7) = a7 m c :=
  (W2_of_ne m ρ c main_arg7 (by decide)).trans (W1_arg7 m ρ c)
theorem W2_arg8 : W2 m ρ c (Proc.devRef .tc main_arg8) = a8 m c :=
  (W2_of_ne m ρ c main_arg8 (by decide)).trans (W1_arg8 m ρ c)
theorem W2_arg9 : W2 m ρ c (Proc.devRef .tc main_arg9) = a9 m c :=
  (W2_of_ne m ρ c main_arg9 (by decide)).trans (W1_arg9 m ρ c)
theorem W2_v1 : W2 m ρ c (Proc.devRef .tc main_v1) = srcK (a2 m c) :=
  (W2_of_ne m ρ c main_v1 (by decide)).trans (W1_v1 m ρ c)
theorem W2_v3 : W2 m ρ c (Proc.devRef .tc main_v3) = dstK (a2 m c) :=
  (W2_of_ne m ρ c main_v3 (by decide)).trans (W1_v3 m ρ c)
theorem W2_v5 : W2 m ρ c (Proc.devRef .tc main_v5) = rowK (a6 m c) :=
  (W2_of_ne m ρ c main_v5 (by decide)).trans (W1_v5 m ρ c)
theorem W2_v6 : W2 m ρ c (Proc.devRef .tc main_v6) = rowK (a10 m c) :=
  (W2_of_ne m ρ c main_v6 (by decide)).trans (W1_v6 m ρ c)
theorem W2_v7 : W2 m ρ c (Proc.devRef .tc main_v7) = rowK (a11 m c) :=
  (W2_of_ne m ρ c main_v7 (by decide)).trans (W1_v7 m ρ c)
theorem W2_v8 : W2 m ρ c (Proc.devRef .tc main_v8) = rowK (a12 m c) :=
  (W2_of_ne m ρ c main_v8 (by decide)).trans (W1_v8 m ρ c)
theorem W2_v9 : W2 m ρ c (Proc.devRef .tc main_v9) = h0K m c := by
  refine (W2_arr m ρ c 3).trans ((region0_arr (V1 m ρ) c).trans ?_)
  rw [show V1 m ρ c main_arg0 = a0 m c from W1_arg0 m ρ c,
    show V1 m ρ c main_arg3 = a3 m c from W1_arg3 m ρ c,
    show V1 m ρ c main_v4 = rowK (a4 m c) from W1_v4 m ρ c]
  all_goals (first | rfl | (simp only [unrow_rowK]; first | rfl | (unfold h0K eK mK h1K h2K h3K outK; rfl)))
/-! ### Boundary 3: after pallas_call 1 -/

theorem W3_arg7 : W3 m ρ c (Proc.devRef .tc main_arg7) = a7 m c :=
  (W3_of_ne m ρ c main_arg7 (by decide)).trans (W2_arg7 m ρ c)
theorem W3_arg8 : W3 m ρ c (Proc.devRef .tc main_arg8) = a8 m c :=
  (W3_of_ne m ρ c main_arg8 (by decide)).trans (W2_arg8 m ρ c)
theorem W3_arg9 : W3 m ρ c (Proc.devRef .tc main_arg9) = a9 m c :=
  (W3_of_ne m ρ c main_arg9 (by decide)).trans (W2_arg9 m ρ c)
theorem W3_v1 : W3 m ρ c (Proc.devRef .tc main_v1) = srcK (a2 m c) :=
  (W3_of_ne m ρ c main_v1 (by decide)).trans (W2_v1 m ρ c)
theorem W3_v3 : W3 m ρ c (Proc.devRef .tc main_v3) = dstK (a2 m c) :=
  (W3_of_ne m ρ c main_v3 (by decide)).trans (W2_v3 m ρ c)
theorem W3_v6 : W3 m ρ c (Proc.devRef .tc main_v6) = rowK (a10 m c) :=
  (W3_of_ne m ρ c main_v6 (by decide)).trans (W2_v6 m ρ c)
theorem W3_v7 : W3 m ρ c (Proc.devRef .tc main_v7) = rowK (a11 m c) :=
  (W3_of_ne m ρ c main_v7 (by decide)).trans (W2_v7 m ρ c)
theorem W3_v8 : W3 m ρ c (Proc.devRef .tc main_v8) = rowK (a12 m c) :=
  (W3_of_ne m ρ c main_v8 (by decide)).trans (W2_v8 m ρ c)
theorem W3_v9 : W3 m ρ c (Proc.devRef .tc main_v9) = h0K m c :=
  (W3_of_ne m ρ c main_v9 (by decide)).trans (W2_v9 m ρ c)
theorem W3_v10 : W3 m ρ c (Proc.devRef .tc main_v10) = eK m c := by
  refine (W3_arr m ρ c 3).trans ((region1_arr (V2 m ρ) c).trans ?_)
  rw [show V2 m ρ c main_arg1 = a1 m c from W2_arg1 m ρ c,
    show V2 m ρ c main_arg5 = a5 m c from W2_arg5 m ρ c,
    show V2 m ρ c main_v5 = rowK (a6 m c) from W2_v5 m ρ c]
  all_goals (first | rfl | (simp only [unrow_rowK]; first | rfl | (unfold h0K eK mK h1K h2K h3K outK; rfl)))
/-! ### Boundary 4: after the host stretch hostOps2 -/

theorem W4_arg7 : W4 m ρ c (Proc.devRef .tc main_arg7) = a7 m c :=
  (show StableHlo.after hostOps2 (W3 m ρ c) (Proc.devRef .tc main_arg7) = W3 m ρ c (Proc.devRef .tc main_arg7) by keep_host hostOps2).trans (W3_arg7 m ρ c)
theorem W4_arg8 : W4 m ρ c (Proc.devRef .tc main_arg8) = a8 m c :=
  (show StableHlo.after hostOps2 (W3 m ρ c) (Proc.devRef .tc main_arg8) = W3 m ρ c (Proc.devRef .tc main_arg8) by keep_host hostOps2).trans (W3_arg8 m ρ c)
theorem W4_arg9 : W4 m ρ c (Proc.devRef .tc main_arg9) = a9 m c :=
  (show StableHlo.after hostOps2 (W3 m ρ c) (Proc.devRef .tc main_arg9) = W3 m ρ c (Proc.devRef .tc main_arg9) by keep_host hostOps2).trans (W3_arg9 m ρ c)
theorem W4_v1 : W4 m ρ c (Proc.devRef .tc main_v1) = srcK (a2 m c) :=
  (show StableHlo.after hostOps2 (W3 m ρ c) (Proc.devRef .tc main_v1) = W3 m ρ c (Proc.devRef .tc main_v1) by keep_host hostOps2).trans (W3_v1 m ρ c)
theorem W4_v3 : W4 m ρ c (Proc.devRef .tc main_v3) = dstK (a2 m c) :=
  (show StableHlo.after hostOps2 (W3 m ρ c) (Proc.devRef .tc main_v3) = W3 m ρ c (Proc.devRef .tc main_v3) by keep_host hostOps2).trans (W3_v3 m ρ c)
theorem W4_v6 : W4 m ρ c (Proc.devRef .tc main_v6) = rowK (a10 m c) :=
  (show StableHlo.after hostOps2 (W3 m ρ c) (Proc.devRef .tc main_v6) = W3 m ρ c (Proc.devRef .tc main_v6) by keep_host hostOps2).trans (W3_v6 m ρ c)
theorem W4_v7 : W4 m ρ c (Proc.devRef .tc main_v7) = rowK (a11 m c) :=
  (show StableHlo.after hostOps2 (W3 m ρ c) (Proc.devRef .tc main_v7) = W3 m ρ c (Proc.devRef .tc main_v7) by keep_host hostOps2).trans (W3_v7 m ρ c)
theorem W4_v8 : W4 m ρ c (Proc.devRef .tc main_v8) = rowK (a12 m c) :=
  (show StableHlo.after hostOps2 (W3 m ρ c) (Proc.devRef .tc main_v8) = W3 m ρ c (Proc.devRef .tc main_v8) by keep_host hostOps2).trans (W3_v8 m ρ c)
theorem W4_v9 : W4 m ρ c (Proc.devRef .tc main_v9) = h0K m c :=
  (show StableHlo.after hostOps2 (W3 m ρ c) (Proc.devRef .tc main_v9) = W3 m ρ c (Proc.devRef .tc main_v9) by keep_host hostOps2).trans (W3_v9 m ρ c)
theorem W4_v10 : W4 m ρ c (Proc.devRef .tc main_v10) = eK m c :=
  (show StableHlo.after hostOps2 (W3 m ρ c) (Proc.devRef .tc main_v10) = W3 m ρ c (Proc.devRef .tc main_v10) by keep_host hostOps2).trans (W3_v10 m ρ c)
theorem W4_v11 : W4 m ρ c (Proc.devRef .tc main_v11) = tK m c (h0K m c) := by
  refine (h2_v11 (W3 m ρ c)).trans ?_
  rw [show W3 m ρ c (Proc.devRef .tc main_v9) = h0K m c from W3_v9 m ρ c,
    show W3 m ρ c (Proc.devRef .tc main_v1) = srcK (a2 m c) from W3_v1 m ρ c]
  all_goals (first | rfl | (unfold tK mK gK; rfl))
/-! ### Boundary 5: after pallas_call 2 -/

theorem W5_arg7 : W5 m ρ c (Proc.devRef .tc main_arg7) = a7 m c :=
  (W5_of_ne m ρ c main_arg7 (by decide)).trans (W4_arg7 m ρ c)
theorem W5_arg8 : W5 m ρ c (Proc.devRef .tc main_arg8) = a8 m c :=
  (W5_of_ne m ρ c main_arg8 (by decide)).trans (W4_arg8 m ρ c)
theorem W5_arg9 : W5 m ρ c (Proc.devRef .tc main_arg9) = a9 m c :=
  (W5_of_ne m ρ c main_arg9 (by decide)).trans (W4_arg9 m ρ c)
theorem W5_v1 : W5 m ρ c (Proc.devRef .tc main_v1) = srcK (a2 m c) :=
  (W5_of_ne m ρ c main_v1 (by decide)).trans (W4_v1 m ρ c)
theorem W5_v3 : W5 m ρ c (Proc.devRef .tc main_v3) = dstK (a2 m c) :=
  (W5_of_ne m ρ c main_v3 (by decide)).trans (W4_v3 m ρ c)
theorem W5_v6 : W5 m ρ c (Proc.devRef .tc main_v6) = rowK (a10 m c) :=
  (W5_of_ne m ρ c main_v6 (by decide)).trans (W4_v6 m ρ c)
theorem W5_v7 : W5 m ρ c (Proc.devRef .tc main_v7) = rowK (a11 m c) :=
  (W5_of_ne m ρ c main_v7 (by decide)).trans (W4_v7 m ρ c)
theorem W5_v8 : W5 m ρ c (Proc.devRef .tc main_v8) = rowK (a12 m c) :=
  (W5_of_ne m ρ c main_v8 (by decide)).trans (W4_v8 m ρ c)
theorem W5_v9 : W5 m ρ c (Proc.devRef .tc main_v9) = h0K m c :=
  (W5_of_ne m ρ c main_v9 (by decide)).trans (W4_v9 m ρ c)
theorem W5_v10 : W5 m ρ c (Proc.devRef .tc main_v10) = eK m c :=
  (W5_arr m ρ c 1).trans (((dat2 (V4 m ρ) c).arrAt_in 1 rfl _).trans ((A_eq2 (V4 m ρ) c 1).trans (W4_v10 m ρ c)))
theorem W5_v12 : W5 m ρ c (Proc.devRef .tc main_v12) = mK m c (h0K m c) := by
  refine (W5_arr m ρ c 2).trans ((region2_arr (V4 m ρ) c).trans ?_)
  rw [show V4 m ρ c main_v11 = tK m c (h0K m c) from W4_v11 m ρ c,
    show V4 m ρ c main_v10 = eK m c from W4_v10 m ρ c]
  all_goals (first | rfl | (simp only [unrow_rowK]; first | rfl | (unfold h0K eK mK h1K h2K h3K outK; rfl)))
/-! ### Boundary 6: after the host stretch hostOps3 -/

theorem W6_arg7 : W6 m ρ c (Proc.devRef .tc main_arg7) = a7 m c :=
  (show StableHlo.after hostOps3 (W5 m ρ c) (Proc.devRef .tc main_arg7) = W5 m ρ c (Proc.devRef .tc main_arg7) by keep_host hostOps3).trans (W5_arg7 m ρ c)
theorem W6_arg8 : W6 m ρ c (Proc.devRef .tc main_arg8) = a8 m c :=
  (show StableHlo.after hostOps3 (W5 m ρ c) (Proc.devRef .tc main_arg8) = W5 m ρ c (Proc.devRef .tc main_arg8) by keep_host hostOps3).trans (W5_arg8 m ρ c)
theorem W6_arg9 : W6 m ρ c (Proc.devRef .tc main_arg9) = a9 m c :=
  (show StableHlo.after hostOps3 (W5 m ρ c) (Proc.devRef .tc main_arg9) = W5 m ρ c (Proc.devRef .tc main_arg9) by keep_host hostOps3).trans (W5_arg9 m ρ c)
theorem W6_v1 : W6 m ρ c (Proc.devRef .tc main_v1) = srcK (a2 m c) :=
  (show StableHlo.after hostOps3 (W5 m ρ c) (Proc.devRef .tc main_v1) = W5 m ρ c (Proc.devRef .tc main_v1) by keep_host hostOps3).trans (W5_v1 m ρ c)
theorem W6_v3 : W6 m ρ c (Proc.devRef .tc main_v3) = dstK (a2 m c) :=
  (show StableHlo.after hostOps3 (W5 m ρ c) (Proc.devRef .tc main_v3) = W5 m ρ c (Proc.devRef .tc main_v3) by keep_host hostOps3).trans (W5_v3 m ρ c)
theorem W6_v6 : W6 m ρ c (Proc.devRef .tc main_v6) = rowK (a10 m c) :=
  (show StableHlo.after hostOps3 (W5 m ρ c) (Proc.devRef .tc main_v6) = W5 m ρ c (Proc.devRef .tc main_v6) by keep_host hostOps3).trans (W5_v6 m ρ c)
theorem W6_v7 : W6 m ρ c (Proc.devRef .tc main_v7) = rowK (a11 m c) :=
  (show StableHlo.after hostOps3 (W5 m ρ c) (Proc.devRef .tc main_v7) = W5 m ρ c (Proc.devRef .tc main_v7) by keep_host hostOps3).trans (W5_v7 m ρ c)
theorem W6_v8 : W6 m ρ c (Proc.devRef .tc main_v8) = rowK (a12 m c) :=
  (show StableHlo.after hostOps3 (W5 m ρ c) (Proc.devRef .tc main_v8) = W5 m ρ c (Proc.devRef .tc main_v8) by keep_host hostOps3).trans (W5_v8 m ρ c)
theorem W6_v9 : W6 m ρ c (Proc.devRef .tc main_v9) = h0K m c :=
  (show StableHlo.after hostOps3 (W5 m ρ c) (Proc.devRef .tc main_v9) = W5 m ρ c (Proc.devRef .tc main_v9) by keep_host hostOps3).trans (W5_v9 m ρ c)
theorem W6_v10 : W6 m ρ c (Proc.devRef .tc main_v10) = eK m c :=
  (show StableHlo.after hostOps3 (W5 m ρ c) (Proc.devRef .tc main_v10) = W5 m ρ c (Proc.devRef .tc main_v10) by keep_host hostOps3).trans (W5_v10 m ρ c)
theorem W6_v15 : W6 m ρ c (Proc.devRef .tc main_v15) = gK m c (h0K m c) := by
  refine (h3_v15 (W5 m ρ c)).trans ?_
  rw [show W5 m ρ c (Proc.devRef .tc main_v12) = mK m c (h0K m c) from W5_v12 m ρ c,
    show W5 m ρ c (Proc.devRef .tc main_v3) = dstK (a2 m c) from W5_v3 m ρ c]
  all_goals (first | rfl | (unfold tK mK gK; rfl))
theorem W6_v18 : W6 m ρ c (Proc.devRef .tc main_v18) = rowK (b0K (a8 m c)) := by
  refine (h3_v18 (W5 m ρ c)).trans ?_
  rw [show W5 m ρ c (Proc.devRef .tc main_arg8) = a8 m c from W5_arg8 m ρ c]
  all_goals (first | rfl | (unfold tK mK gK; rfl))
theorem W6_v20 : W6 m ρ c (Proc.devRef .tc main_v20) = w0K (a7 m c) := by
  refine (h3_v20 (W5 m ρ c)).trans ?_
  rw [show W5 m ρ c (Proc.devRef .tc main_arg7) = a7 m c from W5_arg7 m ρ c]
  all_goals (first | rfl | (unfold tK mK gK; rfl))
/-! ### Boundary 7: after pallas_call 3 -/

theorem W7_arg7 : W7 m ρ c (Proc.devRef .tc main_arg7) = a7 m c :=
  (W7_of_ne m ρ c main_arg7 (by decide)).trans (W6_arg7 m ρ c)
theorem W7_arg8 : W7 m ρ c (Proc.devRef .tc main_arg8) = a8 m c :=
  (W7_of_ne m ρ c main_arg8 (by decide)).trans (W6_arg8 m ρ c)
theorem W7_arg9 : W7 m ρ c (Proc.devRef .tc main_arg9) = a9 m c :=
  (W7_of_ne m ρ c main_arg9 (by decide)).trans (W6_arg9 m ρ c)
theorem W7_v1 : W7 m ρ c (Proc.devRef .tc main_v1) = srcK (a2 m c) :=
  (W7_of_ne m ρ c main_v1 (by decide)).trans (W6_v1 m ρ c)
theorem W7_v3 : W7 m ρ c (Proc.devRef .tc main_v3) = dstK (a2 m c) :=
  (W7_of_ne m ρ c main_v3 (by decide)).trans (W6_v3 m ρ c)
theorem W7_v6 : W7 m ρ c (Proc.devRef .tc main_v6) = rowK (a10 m c) :=
  (W7_of_ne m ρ c main_v6 (by decide)).trans (W6_v6 m ρ c)
theorem W7_v7 : W7 m ρ c (Proc.devRef .tc main_v7) = rowK (a11 m c) :=
  (W7_of_ne m ρ c main_v7 (by decide)).trans (W6_v7 m ρ c)
theorem W7_v8 : W7 m ρ c (Proc.devRef .tc main_v8) = rowK (a12 m c) :=
  (W7_of_ne m ρ c main_v8 (by decide)).trans (W6_v8 m ρ c)
theorem W7_v9 : W7 m ρ c (Proc.devRef .tc main_v9) = h0K m c :=
  (W7_arr m ρ c 0).trans (((dat3 (V6 m ρ) c).arrAt_in 0 rfl _).trans ((A_eq3 (V6 m ρ) c 0).trans (W6_v9 m ρ c)))
theorem W7_v10 : W7 m ρ c (Proc.devRef .tc main_v10) = eK m c :=
  (W7_of_ne m ρ c main_v10 (by decide)).trans (W6_v10 m ρ c)
theorem W7_v21 : W7 m ρ c (Proc.devRef .tc main_v21) = h1K m c := by
  refine (W7_arr m ρ c 4).trans ((region3_arr (V6 m ρ) c).trans ?_)
  rw [show V6 m ρ c main_v9 = h0K m c from W6_v9 m ρ c,
    show V6 m ρ c main_v15 = gK m c (h0K m c) from W6_v15 m ρ c,
    show V6 m ρ c main_v20 = w0K (a7 m c) from W6_v20 m ρ c,
    show V6 m ρ c main_v18 = rowK (b0K (a8 m c)) from W6_v18 m ρ c]
  all_goals (first | rfl | (simp only [unrow_rowK]; first | rfl | (unfold h0K eK mK h1K h2K h3K outK; rfl)))
/-! ### Boundary 8: after the host stretch hostOps4 -/

theorem W8_arg7 : W8 m ρ c (Proc.devRef .tc main_arg7) = a7 m c :=
  (show StableHlo.after hostOps4 (W7 m ρ c) (Proc.devRef .tc main_arg7) = W7 m ρ c (Proc.devRef .tc main_arg7) by keep_host hostOps4).trans (W7_arg7 m ρ c)
theorem W8_arg8 : W8 m ρ c (Proc.devRef .tc main_arg8) = a8 m c :=
  (show StableHlo.after hostOps4 (W7 m ρ c) (Proc.devRef .tc main_arg8) = W7 m ρ c (Proc.devRef .tc main_arg8) by keep_host hostOps4).trans (W7_arg8 m ρ c)
theorem W8_arg9 : W8 m ρ c (Proc.devRef .tc main_arg9) = a9 m c :=
  (show StableHlo.after hostOps4 (W7 m ρ c) (Proc.devRef .tc main_arg9) = W7 m ρ c (Proc.devRef .tc main_arg9) by keep_host hostOps4).trans (W7_arg9 m ρ c)
theorem W8_v1 : W8 m ρ c (Proc.devRef .tc main_v1) = srcK (a2 m c) :=
  (show StableHlo.after hostOps4 (W7 m ρ c) (Proc.devRef .tc main_v1) = W7 m ρ c (Proc.devRef .tc main_v1) by keep_host hostOps4).trans (W7_v1 m ρ c)
theorem W8_v3 : W8 m ρ c (Proc.devRef .tc main_v3) = dstK (a2 m c) :=
  (show StableHlo.after hostOps4 (W7 m ρ c) (Proc.devRef .tc main_v3) = W7 m ρ c (Proc.devRef .tc main_v3) by keep_host hostOps4).trans (W7_v3 m ρ c)
theorem W8_v6 : W8 m ρ c (Proc.devRef .tc main_v6) = rowK (a10 m c) :=
  (show StableHlo.after hostOps4 (W7 m ρ c) (Proc.devRef .tc main_v6) = W7 m ρ c (Proc.devRef .tc main_v6) by keep_host hostOps4).trans (W7_v6 m ρ c)
theorem W8_v7 : W8 m ρ c (Proc.devRef .tc main_v7) = rowK (a11 m c) :=
  (show StableHlo.after hostOps4 (W7 m ρ c) (Proc.devRef .tc main_v7) = W7 m ρ c (Proc.devRef .tc main_v7) by keep_host hostOps4).trans (W7_v7 m ρ c)
theorem W8_v8 : W8 m ρ c (Proc.devRef .tc main_v8) = rowK (a12 m c) :=
  (show StableHlo.after hostOps4 (W7 m ρ c) (Proc.devRef .tc main_v8) = W7 m ρ c (Proc.devRef .tc main_v8) by keep_host hostOps4).trans (W7_v8 m ρ c)
theorem W8_v9 : W8 m ρ c (Proc.devRef .tc main_v9) = h0K m c :=
  (show StableHlo.after hostOps4 (W7 m ρ c) (Proc.devRef .tc main_v9) = W7 m ρ c (Proc.devRef .tc main_v9) by keep_host hostOps4).trans (W7_v9 m ρ c)
theorem W8_v10 : W8 m ρ c (Proc.devRef .tc main_v10) = eK m c :=
  (show StableHlo.after hostOps4 (W7 m ρ c) (Proc.devRef .tc main_v10) = W7 m ρ c (Proc.devRef .tc main_v10) by keep_host hostOps4).trans (W7_v10 m ρ c)
theorem W8_v21 : W8 m ρ c (Proc.devRef .tc main_v21) = h1K m c :=
  (show StableHlo.after hostOps4 (W7 m ρ c) (Proc.devRef .tc main_v21) = W7 m ρ c (Proc.devRef .tc main_v21) by keep_host hostOps4).trans (W7_v21 m ρ c)
theorem W8_v22 : W8 m ρ c (Proc.devRef .tc main_v22) = tK m c (h1K m c) := by
  refine (h4_v22 (W7 m ρ c)).trans ?_
  rw [show W7 m ρ c (Proc.devRef .tc main_v21) = h1K m c from W7_v21 m ρ c,
    show W7 m ρ c (Proc.devRef .tc main_v1) = srcK (a2 m c) from W7_v1 m ρ c]
  all_goals (first | rfl | (unfold tK mK gK; rfl))
/-! ### Boundary 9: after pallas_call 4 -/

theorem W9_arg7 : W9 m ρ c (Proc.devRef .tc main_arg7) = a7 m c :=
  (W9_of_ne m ρ c main_arg7 (by decide)).trans (W8_arg7 m ρ c)
theorem W9_arg8 : W9 m ρ c (Proc.devRef .tc main_arg8) = a8 m c :=
  (W9_of_ne m ρ c main_arg8 (by decide)).trans (W8_arg8 m ρ c)
theorem W9_arg9 : W9 m ρ c (Proc.devRef .tc main_arg9) = a9 m c :=
  (W9_of_ne m ρ c main_arg9 (by decide)).trans (W8_arg9 m ρ c)
theorem W9_v1 : W9 m ρ c (Proc.devRef .tc main_v1) = srcK (a2 m c) :=
  (W9_of_ne m ρ c main_v1 (by decide)).trans (W8_v1 m ρ c)
theorem W9_v3 : W9 m ρ c (Proc.devRef .tc main_v3) = dstK (a2 m c) :=
  (W9_of_ne m ρ c main_v3 (by decide)).trans (W8_v3 m ρ c)
theorem W9_v6 : W9 m ρ c (Proc.devRef .tc main_v6) = rowK (a10 m c) :=
  (W9_of_ne m ρ c main_v6 (by decide)).trans (W8_v6 m ρ c)
theorem W9_v7 : W9 m ρ c (Proc.devRef .tc main_v7) = rowK (a11 m c) :=
  (W9_of_ne m ρ c main_v7 (by decide)).trans (W8_v7 m ρ c)
theorem W9_v8 : W9 m ρ c (Proc.devRef .tc main_v8) = rowK (a12 m c) :=
  (W9_of_ne m ρ c main_v8 (by decide)).trans (W8_v8 m ρ c)
theorem W9_v9 : W9 m ρ c (Proc.devRef .tc main_v9) = h0K m c :=
  (W9_of_ne m ρ c main_v9 (by decide)).trans (W8_v9 m ρ c)
theorem W9_v10 : W9 m ρ c (Proc.devRef .tc main_v10) = eK m c :=
  (W9_arr m ρ c 1).trans (((dat4 (V8 m ρ) c).arrAt_in 1 rfl _).trans ((A_eq4 (V8 m ρ) c 1).trans (W8_v10 m ρ c)))
theorem W9_v21 : W9 m ρ c (Proc.devRef .tc main_v21) = h1K m c :=
  (W9_of_ne m ρ c main_v21 (by decide)).trans (W8_v21 m ρ c)
theorem W9_v23 : W9 m ρ c (Proc.devRef .tc main_v23) = mK m c (h1K m c) := by
  refine (W9_arr m ρ c 2).trans ((region4_arr (V8 m ρ) c).trans ?_)
  rw [show V8 m ρ c main_v22 = tK m c (h1K m c) from W8_v22 m ρ c,
    show V8 m ρ c main_v10 = eK m c from W8_v10 m ρ c]
  all_goals (first | rfl | (simp only [unrow_rowK]; first | rfl | (unfold h0K eK mK h1K h2K h3K outK; rfl)))
/-! ### Boundary 10: after the host stretch hostOps5 -/

theorem W10_arg7 : W10 m ρ c (Proc.devRef .tc main_arg7) = a7 m c :=
  (show StableHlo.after hostOps5 (W9 m ρ c) (Proc.devRef .tc main_arg7) = W9 m ρ c (Proc.devRef .tc main_arg7) by keep_host hostOps5).trans (W9_arg7 m ρ c)
theorem W10_arg8 : W10 m ρ c (Proc.devRef .tc main_arg8) = a8 m c :=
  (show StableHlo.after hostOps5 (W9 m ρ c) (Proc.devRef .tc main_arg8) = W9 m ρ c (Proc.devRef .tc main_arg8) by keep_host hostOps5).trans (W9_arg8 m ρ c)
theorem W10_arg9 : W10 m ρ c (Proc.devRef .tc main_arg9) = a9 m c :=
  (show StableHlo.after hostOps5 (W9 m ρ c) (Proc.devRef .tc main_arg9) = W9 m ρ c (Proc.devRef .tc main_arg9) by keep_host hostOps5).trans (W9_arg9 m ρ c)
theorem W10_v1 : W10 m ρ c (Proc.devRef .tc main_v1) = srcK (a2 m c) :=
  (show StableHlo.after hostOps5 (W9 m ρ c) (Proc.devRef .tc main_v1) = W9 m ρ c (Proc.devRef .tc main_v1) by keep_host hostOps5).trans (W9_v1 m ρ c)
theorem W10_v3 : W10 m ρ c (Proc.devRef .tc main_v3) = dstK (a2 m c) :=
  (show StableHlo.after hostOps5 (W9 m ρ c) (Proc.devRef .tc main_v3) = W9 m ρ c (Proc.devRef .tc main_v3) by keep_host hostOps5).trans (W9_v3 m ρ c)
theorem W10_v6 : W10 m ρ c (Proc.devRef .tc main_v6) = rowK (a10 m c) :=
  (show StableHlo.after hostOps5 (W9 m ρ c) (Proc.devRef .tc main_v6) = W9 m ρ c (Proc.devRef .tc main_v6) by keep_host hostOps5).trans (W9_v6 m ρ c)
theorem W10_v7 : W10 m ρ c (Proc.devRef .tc main_v7) = rowK (a11 m c) :=
  (show StableHlo.after hostOps5 (W9 m ρ c) (Proc.devRef .tc main_v7) = W9 m ρ c (Proc.devRef .tc main_v7) by keep_host hostOps5).trans (W9_v7 m ρ c)
theorem W10_v8 : W10 m ρ c (Proc.devRef .tc main_v8) = rowK (a12 m c) :=
  (show StableHlo.after hostOps5 (W9 m ρ c) (Proc.devRef .tc main_v8) = W9 m ρ c (Proc.devRef .tc main_v8) by keep_host hostOps5).trans (W9_v8 m ρ c)
theorem W10_v9 : W10 m ρ c (Proc.devRef .tc main_v9) = h0K m c :=
  (show StableHlo.after hostOps5 (W9 m ρ c) (Proc.devRef .tc main_v9) = W9 m ρ c (Proc.devRef .tc main_v9) by keep_host hostOps5).trans (W9_v9 m ρ c)
theorem W10_v10 : W10 m ρ c (Proc.devRef .tc main_v10) = eK m c :=
  (show StableHlo.after hostOps5 (W9 m ρ c) (Proc.devRef .tc main_v10) = W9 m ρ c (Proc.devRef .tc main_v10) by keep_host hostOps5).trans (W9_v10 m ρ c)
theorem W10_v21 : W10 m ρ c (Proc.devRef .tc main_v21) = h1K m c :=
  (show StableHlo.after hostOps5 (W9 m ρ c) (Proc.devRef .tc main_v21) = W9 m ρ c (Proc.devRef .tc main_v21) by keep_host hostOps5).trans (W9_v21 m ρ c)
theorem W10_v26 : W10 m ρ c (Proc.devRef .tc main_v26) = gK m c (h1K m c) := by
  refine (h5_v26 (W9 m ρ c)).trans ?_
  rw [show W9 m ρ c (Proc.devRef .tc main_v23) = mK m c (h1K m c) from W9_v23 m ρ c,
    show W9 m ρ c (Proc.devRef .tc main_v3) = dstK (a2 m c) from W9_v3 m ρ c]
  all_goals (first | rfl | (unfold tK mK gK; rfl))
theorem W10_v29 : W10 m ρ c (Proc.devRef .tc main_v29) = rowK (b1K (a8 m c)) := by
  refine (h5_v29 (W9 m ρ c)).trans ?_
  rw [show W9 m ρ c (Proc.devRef .tc main_arg8) = a8 m c from W9_arg8 m ρ c]
  all_goals (first | rfl | (unfold tK mK gK; rfl))
theorem W10_v31 : W10 m ρ c (Proc.devRef .tc main_v31) = w1K (a7 m c) := by
  refine (h5_v31 (W9 m ρ c)).trans ?_
  rw [show W9 m ρ c (Proc.devRef .tc main_arg7) = a7 m c from W9_arg7 m ρ c]
  all_goals (first | rfl | (unfold tK mK gK; rfl))
/-! ### Boundary 11: after pallas_call 5 -/

theorem W11_arg7 : W11 m ρ c (Proc.devRef .tc main_arg7) = a7 m c :=
  (W11_of_ne m ρ c main_arg7 (by decide)).trans (W10_arg7 m ρ c)
theorem W11_arg8 : W11 m ρ c (Proc.devRef .tc main_arg8) = a8 m c :=
  (W11_of_ne m ρ c main_arg8 (by decide)).trans (W10_arg8 m ρ c)
theorem W11_arg9 : W11 m ρ c (Proc.devRef .tc main_arg9) = a9 m c :=
  (W11_of_ne m ρ c main_arg9 (by decide)).trans (W10_arg9 m ρ c)
theorem W11_v1 : W11 m ρ c (Proc.devRef .tc main_v1) = srcK (a2 m c) :=
  (W11_of_ne m ρ c main_v1 (by decide)).trans (W10_v1 m ρ c)
theorem W11_v3 : W11 m ρ c (Proc.devRef .tc main_v3) = dstK (a2 m c) :=
  (W11_of_ne m ρ c main_v3 (by decide)).trans (W10_v3 m ρ c)
theorem W11_v6 : W11 m ρ c (Proc.devRef .tc main_v6) = rowK (a10 m c) :=
  (W11_of_ne m ρ c main_v6 (by decide)).trans (W10_v6 m ρ c)
theorem W11_v7 : W11 m ρ c (Proc.devRef .tc main_v7) = rowK (a11 m c) :=
  (W11_of_ne m ρ c main_v7 (by decide)).trans (W10_v7 m ρ c)
theorem W11_v8 : W11 m ρ c (Proc.devRef .tc main_v8) = rowK (a12 m c) :=
  (W11_of_ne m ρ c main_v8 (by decide)).trans (W10_v8 m ρ c)
theorem W11_v9 : W11 m ρ c (Proc.devRef .tc main_v9) = h0K m c :=
  (W11_of_ne m ρ c main_v9 (by decide)).trans (W10_v9 m ρ c)
theorem W11_v10 : W11 m ρ c (Proc.devRef .tc main_v10) = eK m c :=
  (W11_of_ne m ρ c main_v10 (by decide)).trans (W10_v10 m ρ c)
theorem W11_v32 : W11 m ρ c (Proc.devRef .tc main_v32) = h2K m c := by
  refine (W11_arr m ρ c 4).trans ((region5_arr (V10 m ρ) c).trans ?_)
  rw [show V10 m ρ c main_v21 = h1K m c from W10_v21 m ρ c,
    show V10 m ρ c main_v26 = gK m c (h1K m c) from W10_v26 m ρ c,
    show V10 m ρ c main_v31 = w1K (a7 m c) from W10_v31 m ρ c,
    show V10 m ρ c main_v29 = rowK (b1K (a8 m c)) from W10_v29 m ρ c]
  all_goals (first | rfl | (simp only [unrow_rowK]; first | rfl | (unfold h0K eK mK h1K h2K h3K outK; rfl)))
/-! ### Boundary 12: after the host stretch hostOps6 -/

theorem W12_arg7 : W12 m ρ c (Proc.devRef .tc main_arg7) = a7 m c :=
  (show StableHlo.after hostOps6 (W11 m ρ c) (Proc.devRef .tc main_arg7) = W11 m ρ c (Proc.devRef .tc main_arg7) by keep_host hostOps6).trans (W11_arg7 m ρ c)
theorem W12_arg8 : W12 m ρ c (Proc.devRef .tc main_arg8) = a8 m c :=
  (show StableHlo.after hostOps6 (W11 m ρ c) (Proc.devRef .tc main_arg8) = W11 m ρ c (Proc.devRef .tc main_arg8) by keep_host hostOps6).trans (W11_arg8 m ρ c)
theorem W12_arg9 : W12 m ρ c (Proc.devRef .tc main_arg9) = a9 m c :=
  (show StableHlo.after hostOps6 (W11 m ρ c) (Proc.devRef .tc main_arg9) = W11 m ρ c (Proc.devRef .tc main_arg9) by keep_host hostOps6).trans (W11_arg9 m ρ c)
theorem W12_v3 : W12 m ρ c (Proc.devRef .tc main_v3) = dstK (a2 m c) :=
  (show StableHlo.after hostOps6 (W11 m ρ c) (Proc.devRef .tc main_v3) = W11 m ρ c (Proc.devRef .tc main_v3) by keep_host hostOps6).trans (W11_v3 m ρ c)
theorem W12_v6 : W12 m ρ c (Proc.devRef .tc main_v6) = rowK (a10 m c) :=
  (show StableHlo.after hostOps6 (W11 m ρ c) (Proc.devRef .tc main_v6) = W11 m ρ c (Proc.devRef .tc main_v6) by keep_host hostOps6).trans (W11_v6 m ρ c)
theorem W12_v7 : W12 m ρ c (Proc.devRef .tc main_v7) = rowK (a11 m c) :=
  (show StableHlo.after hostOps6 (W11 m ρ c) (Proc.devRef .tc main_v7) = W11 m ρ c (Proc.devRef .tc main_v7) by keep_host hostOps6).trans (W11_v7 m ρ c)
theorem W12_v8 : W12 m ρ c (Proc.devRef .tc main_v8) = rowK (a12 m c) :=
  (show StableHlo.after hostOps6 (W11 m ρ c) (Proc.devRef .tc main_v8) = W11 m ρ c (Proc.devRef .tc main_v8) by keep_host hostOps6).trans (W11_v8 m ρ c)
theorem W12_v9 : W12 m ρ c (Proc.devRef .tc main_v9) = h0K m c :=
  (show StableHlo.after hostOps6 (W11 m ρ c) (Proc.devRef .tc main_v9) = W11 m ρ c (Proc.devRef .tc main_v9) by keep_host hostOps6).trans (W11_v9 m ρ c)
theorem W12_v10 : W12 m ρ c (Proc.devRef .tc main_v10) = eK m c :=
  (show StableHlo.after hostOps6 (W11 m ρ c) (Proc.devRef .tc main_v10) = W11 m ρ c (Proc.devRef .tc main_v10) by keep_host hostOps6).trans (W11_v10 m ρ c)
theorem W12_v32 : W12 m ρ c (Proc.devRef .tc main_v32) = h2K m c :=
  (show StableHlo.after hostOps6 (W11 m ρ c) (Proc.devRef .tc main_v32) = W11 m ρ c (Proc.devRef .tc main_v32) by keep_host hostOps6).trans (W11_v32 m ρ c)
theorem W12_v33 : W12 m ρ c (Proc.devRef .tc main_v33) = tK m c (h2K m c) := by
  refine (h6_v33 (W11 m ρ c)).trans ?_
  rw [show W11 m ρ c (Proc.devRef .tc main_v32) = h2K m c from W11_v32 m ρ c,
    show W11 m ρ c (Proc.devRef .tc main_v1) = srcK (a2 m c) from W11_v1 m ρ c]
  all_goals (first | rfl | (unfold tK mK gK; rfl))
/-! ### Boundary 13: after pallas_call 6 -/

theorem W13_arg7 : W13 m ρ c (Proc.devRef .tc main_arg7) = a7 m c :=
  (W13_of_ne m ρ c main_arg7 (by decide)).trans (W12_arg7 m ρ c)
theorem W13_arg8 : W13 m ρ c (Proc.devRef .tc main_arg8) = a8 m c :=
  (W13_of_ne m ρ c main_arg8 (by decide)).trans (W12_arg8 m ρ c)
theorem W13_arg9 : W13 m ρ c (Proc.devRef .tc main_arg9) = a9 m c :=
  (W13_of_ne m ρ c main_arg9 (by decide)).trans (W12_arg9 m ρ c)
theorem W13_v3 : W13 m ρ c (Proc.devRef .tc main_v3) = dstK (a2 m c) :=
  (W13_of_ne m ρ c main_v3 (by decide)).trans (W12_v3 m ρ c)
theorem W13_v6 : W13 m ρ c (Proc.devRef .tc main_v6) = rowK (a10 m c) :=
  (W13_of_ne m ρ c main_v6 (by decide)).trans (W12_v6 m ρ c)
theorem W13_v7 : W13 m ρ c (Proc.devRef .tc main_v7) = rowK (a11 m c) :=
  (W13_of_ne m ρ c main_v7 (by decide)).trans (W12_v7 m ρ c)
theorem W13_v8 : W13 m ρ c (Proc.devRef .tc main_v8) = rowK (a12 m c) :=
  (W13_of_ne m ρ c main_v8 (by decide)).trans (W12_v8 m ρ c)
theorem W13_v9 : W13 m ρ c (Proc.devRef .tc main_v9) = h0K m c :=
  (W13_of_ne m ρ c main_v9 (by decide)).trans (W12_v9 m ρ c)
theorem W13_v32 : W13 m ρ c (Proc.devRef .tc main_v32) = h2K m c :=
  (W13_of_ne m ρ c main_v32 (by decide)).trans (W12_v32 m ρ c)
theorem W13_v34 : W13 m ρ c (Proc.devRef .tc main_v34) = mK m c (h2K m c) := by
  refine (W13_arr m ρ c 2).trans ((region6_arr (V12 m ρ) c).trans ?_)
  rw [show V12 m ρ c main_v33 = tK m c (h2K m c) from W12_v33 m ρ c,
    show V12 m ρ c main_v10 = eK m c from W12_v10 m ρ c]
  all_goals (first | rfl | (simp only [unrow_rowK]; first | rfl | (unfold h0K eK mK h1K h2K h3K outK; rfl)))
/-! ### Boundary 14: after the host stretch hostOps7 -/

theorem W14_arg9 : W14 m ρ c (Proc.devRef .tc main_arg9) = a9 m c :=
  (show StableHlo.after hostOps7 (W13 m ρ c) (Proc.devRef .tc main_arg9) = W13 m ρ c (Proc.devRef .tc main_arg9) by keep_host hostOps7).trans (W13_arg9 m ρ c)
theorem W14_v6 : W14 m ρ c (Proc.devRef .tc main_v6) = rowK (a10 m c) :=
  (show StableHlo.after hostOps7 (W13 m ρ c) (Proc.devRef .tc main_v6) = W13 m ρ c (Proc.devRef .tc main_v6) by keep_host hostOps7).trans (W13_v6 m ρ c)
theorem W14_v7 : W14 m ρ c (Proc.devRef .tc main_v7) = rowK (a11 m c) :=
  (show StableHlo.after hostOps7 (W13 m ρ c) (Proc.devRef .tc main_v7) = W13 m ρ c (Proc.devRef .tc main_v7) by keep_host hostOps7).trans (W13_v7 m ρ c)
theorem W14_v8 : W14 m ρ c (Proc.devRef .tc main_v8) = rowK (a12 m c) :=
  (show StableHlo.after hostOps7 (W13 m ρ c) (Proc.devRef .tc main_v8) = W13 m ρ c (Proc.devRef .tc main_v8) by keep_host hostOps7).trans (W13_v8 m ρ c)
theorem W14_v9 : W14 m ρ c (Proc.devRef .tc main_v9) = h0K m c :=
  (show StableHlo.after hostOps7 (W13 m ρ c) (Proc.devRef .tc main_v9) = W13 m ρ c (Proc.devRef .tc main_v9) by keep_host hostOps7).trans (W13_v9 m ρ c)
theorem W14_v32 : W14 m ρ c (Proc.devRef .tc main_v32) = h2K m c :=
  (show StableHlo.after hostOps7 (W13 m ρ c) (Proc.devRef .tc main_v32) = W13 m ρ c (Proc.devRef .tc main_v32) by keep_host hostOps7).trans (W13_v32 m ρ c)
theorem W14_v37 : W14 m ρ c (Proc.devRef .tc main_v37) = gK m c (h2K m c) := by
  refine (h7_v37 (W13 m ρ c)).trans ?_
  rw [show W13 m ρ c (Proc.devRef .tc main_v34) = mK m c (h2K m c) from W13_v34 m ρ c,
    show W13 m ρ c (Proc.devRef .tc main_v3) = dstK (a2 m c) from W13_v3 m ρ c]
  all_goals (first | rfl | (unfold tK mK gK; rfl))
theorem W14_v40 : W14 m ρ c (Proc.devRef .tc main_v40) = rowK (b2K (a8 m c)) := by
  refine (h7_v40 (W13 m ρ c)).trans ?_
  rw [show W13 m ρ c (Proc.devRef .tc main_arg8) = a8 m c from W13_arg8 m ρ c]
  all_goals (first | rfl | (unfold tK mK gK; rfl))
theorem W14_v42 : W14 m ρ c (Proc.devRef .tc main_v42) = w2K (a7 m c) := by
  refine (h7_v42 (W13 m ρ c)).trans ?_
  rw [show W13 m ρ c (Proc.devRef .tc main_arg7) = a7 m c from W13_arg7 m ρ c]
  all_goals (first | rfl | (unfold tK mK gK; rfl))
/-! ### Boundary 15: after pallas_call 7 -/

theorem W15_arg9 : W15 m ρ c (Proc.devRef .tc main_arg9) = a9 m c :=
  (W15_of_ne m ρ c main_arg9 (by decide)).trans (W14_arg9 m ρ c)
theorem W15_v6 : W15 m ρ c (Proc.devRef .tc main_v6) = rowK (a10 m c) :=
  (W15_of_ne m ρ c main_v6 (by decide)).trans (W14_v6 m ρ c)
theorem W15_v7 : W15 m ρ c (Proc.devRef .tc main_v7) = rowK (a11 m c) :=
  (W15_of_ne m ρ c main_v7 (by decide)).trans (W14_v7 m ρ c)
theorem W15_v8 : W15 m ρ c (Proc.devRef .tc main_v8) = rowK (a12 m c) :=
  (W15_of_ne m ρ c main_v8 (by decide)).trans (W14_v8 m ρ c)
theorem W15_v9 : W15 m ρ c (Proc.devRef .tc main_v9) = h0K m c :=
  (W15_of_ne m ρ c main_v9 (by decide)).trans (W14_v9 m ρ c)
theorem W15_v43 : W15 m ρ c (Proc.devRef .tc main_v43) = h3K m c := by
  refine (W15_arr m ρ c 4).trans ((region7_arr (V14 m ρ) c).trans ?_)
  rw [show V14 m ρ c main_v32 = h2K m c from W14_v32 m ρ c,
    show V14 m ρ c main_v37 = gK m c (h2K m c) from W14_v37 m ρ c,
    show V14 m ρ c main_v42 = w2K (a7 m c) from W14_v42 m ρ c,
    show V14 m ρ c main_v40 = rowK (b2K (a8 m c)) from W14_v40 m ρ c]
  all_goals (first | rfl | (simp only [unrow_rowK]; first | rfl | (unfold h0K eK mK h1K h2K h3K outK; rfl)))
/-! ### Boundary 16: after pallas_call 8 -/

theorem W16_v44 : W16 m ρ c (Proc.devRef .tc main_v44) = outK m c := by
  refine (W16_arr m ρ c 6).trans ((region8_arr (V15 m ρ) c).trans ?_)
  rw [show V15 m ρ c main_v9 = h0K m c from W15_v9 m ρ c,
    show V15 m ρ c main_v43 = h3K m c from W15_v43 m ρ c,
    show V15 m ρ c main_arg9 = a9 m c from W15_arg9 m ρ c,
    show V15 m ρ c main_v6 = rowK (a10 m c) from W15_v6 m ρ c,
    show V15 m ρ c main_v7 = rowK (a11 m c) from W15_v7 m ρ c,
    show V15 m ρ c main_v8 = rowK (a12 m c) from W15_v8 m ρ c]
  all_goals (first | rfl | (simp only [unrow_rowK]; first | rfl | (unfold h0K eK mK h1K h2K h3K outK; rfl)))

end Cert.KernelIdeal.KV

end
-- ==== Proof.Net.lean ====
import proofs.«412457_j20298015441381_1_alg».proof.ReferenceIdeal
import proofs.«412457_j20298015441381_1_alg».proof.Proof.Spec

/-!
The whole network as one function of the thirteen argument arrays.

`h₀ = dense(x)`, `e = dense(edge_attr)`; three times: gather the source rows of `h` along the edges (a negative index
counted from the end), add `e` and rectify, sum the messages into their destination rows, and update `h` by a dense
layer of `h + agg` followed by the leaky rectifier; finally the head normalises `dense(h₀ + h₃)` row by row.
The gather and the scatter-add are kept as the operations both programs apply; everything else is `Cert.Spec`.
-/

noncomputable section

namespace Cert.Net

open Cert.ReferenceIdeal Idealize.ShloMosaic
open Cert.ReferenceIdeal.Facts₀ Cert.ReferenceIdeal.Facts

variable [Cert.ReferenceIdeal.Facts]

/-- Row 0 of the edge list: the source node of each edge. -/
def srcOf (ei : IVec S2x1600000 32) : IVec S1600000 32 :=
  shapeCast S1600000 (extractStridedSlice S1x1600000 ![0, 0] ei slices_S2x1600000_S1x1600000_0_0) shapeCasts_S1x1600000_S1600000

/-- Row 1 of the edge list: the destination node of each edge. -/
def dstOf (ei : IVec S2x1600000 32) : IVec S1600000 32 :=
  shapeCast S1600000 (extractStridedSlice S1x1600000 ![1, 0] ei slices_S2x1600000_S1x1600000_1_0) shapeCasts_S1x1600000_S1600000

/-- The gather's index column: a negative source index counts from the end (`s + 100000`). -/
def widx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The rows of `h` at the edges' sources. -/
def take (h : FVec Ideal S100000x128 .f32) (ei : IVec S2x1600000 32) : FVec Ideal S1600000x128 .f32 :=
  Host.gather gather_S100000x128_S1600000x1_S1600000x128_1_0_n_n_0_1_1128 h (widx (srcOf ei))

/-- The messages summed into their destination rows, from zero. -/
def agg (ms : FVec Ideal S1600000x128 .f32) (ei : IVec S2x1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstOf ei)) ms

/-- Layer 0's weight matrix and bias row out of the stacked parameters. -/
def w0 (Wc : FVec Ideal S3x128x128 .f32) : FVec Ideal S128x128 .f32 :=
  shapeCast S128x128 (extractStridedSlice S1x128x128 ![0, 0, 0] Wc slices_S3x128x128_S1x128x128_0_0_0) shapeCasts_S1x128x128_S128x128
def b0 (bc : FVec Ideal S3x128 .f32) : FVec Ideal S128 .f32 :=
  shapeCast S128 (extractStridedSlice S1x128 ![0, 0] bc slices_S3x128_S1x128_0_0) shapeCasts_S1x128_S128
/-- Layer 1's. -/
def w1 (Wc : FVec Ideal S3x128x128 .f32) : FVec Ideal S128x128 .f32 :=
  shapeCast S128x128 (extractStridedSlice S1x128x128 ![1, 0, 0] Wc slices_S3x128x128_S1x128x128_1_0_0) shapeCasts_S1x128x128_S128x128
def b1 (bc : FVec Ideal S3x128 .f32) : FVec Ideal S128 .f32 :=
  shapeCast S128 (extractStridedSlice S1x128 ![1, 0] bc slices_S3x128_S1x128_1_0) shapeCasts_S1x128_S128
/-- Layer 2's. -/
def w2 (Wc : FVec Ideal S3x128x128 .f32) : FVec Ideal S128x128 .f32 :=
  shapeCast S128x128 (extractStridedSlice S1x128x128 ![2, 0, 0] Wc slices_S3x128x128_S1x128x128_2_0_0) shapeCasts_S1x128x128_S128x128
def b2 (bc : FVec Ideal S3x128 .f32) : FVec Ideal S128 .f32 :=
  shapeCast S128 (extractStridedSlice S1x128 ![2, 0] bc slices_S3x128_S1x128_2_0) shapeCasts_S1x128_S128

/-- One message-passing layer. -/
def layer (h : FVec Ideal S100000x128 .f32) (e : FVec Ideal S1600000x128 .f32) (ei : IVec S2x1600000 32)
    (W : FVec Ideal S128x128 .f32) (b : FVec Ideal S128 .f32) : FVec Ideal S100000x128 .f32 :=
  Cert.Spec.upd h (agg (Cert.Spec.msg (take h ei) e) ei) W b

/-- The network's result. -/
def out (x : FVec Ideal S100000x64 .f32) (ea : FVec Ideal S1600000x16 .f32) (ei : IVec S2x1600000 32)
    (Wn : FVec Ideal S64x128 .f32) (bn : FVec Ideal S128 .f32) (We : FVec Ideal S16x128 .f32) (be : FVec Ideal S128 .f32)
    (Wc : FVec Ideal S3x128x128 .f32) (bc : FVec Ideal S3x128 .f32) (Wh : FVec Ideal S128x128 .f32) (bh g bt : FVec Ideal S128 .f32) :
    FVec Ideal S100000x128 .f32 :=
  Cert.Spec.head (Cert.Spec.dense x Wn bn)
    (layer (layer (layer (Cert.Spec.dense x Wn bn) (Cert.Spec.dense ea We be) ei (w0 Wc) (b0 bc))
      (Cert.Spec.dense ea We be) ei (w1 Wc) (b1 bc)) (Cert.Spec.dense ea We be) ei (w2 Wc) (b2 bc))
    Wh bh g bt

end Cert.Net

end
-- ==== Proof.KBridge.lean ====
import proofs.«412457_j20298015441381_1_alg».proof.Proof.KNet
import proofs.«412457_j20298015441381_1_alg».proof.Proof.Net
import proofs.«412457_j20298015441381_1_alg».proof.Proof.Gen.ReferenceIdeal

/-!
The kernel program's result, as the run leaves it (`outK`: the stages of the specification over the kernel program's own
row look-up, scatter-add and parameter slices), is the network's function `Cert.Net.out` of the arguments — provided every
source index is a node, so that the look-up's range test passes and the look-up is the plain gather. The two programs'
printed records of the gather and the scatter-add, their index columns and their slices are the same literals.
-/

set_option maxRecDepth 16384

noncomputable section

namespace Cert.KernelIdeal.KV

open Cert.KernelIdeal Cert.KernelIdeal.Gen Idealize.ShloMosaic Idealize.ShloMosaic.TcCoe Idealize.SL.Sem

/-- The plain gather at the wrapped source indices is the network's row look-up. -/
theorem gather_eq_take (h : FVec Ideal S100000x128 .f32) (ei : IVec S2x1600000 32) :
    Host.gather gather_S100000x128_S1600000x1_S1600000x128_1_0_n_n_0_1_1128 h (widxK (srcK ei)) = Cert.Net.take h ei := rfl

/-- The kernel program's scatter-add is the network's. -/
theorem aggK_eq (ms : FVec Ideal S1600000x128 .f32) (ei : IVec S2x1600000 32) : aggK ms (dstK ei) = Cert.Net.agg ms ei := rfl

theorem w0K_eq (Wc : FVec Ideal S3x128x128 .f32) : w0K Wc = Cert.Net.w0 Wc := rfl
theorem w1K_eq (Wc : FVec Ideal S3x128x128 .f32) : w1K Wc = Cert.Net.w1 Wc := rfl
theorem w2K_eq (Wc : FVec Ideal S3x128x128 .f32) : w2K Wc = Cert.Net.w2 Wc := rfl
theorem b0K_eq (bc : FVec Ideal S3x128 .f32) : b0K bc = Cert.Net.b0 bc := rfl
theorem b1K_eq (bc : FVec Ideal S3x128 .f32) : b1K bc = Cert.Net.b1 bc := rfl
theorem b2K_eq (bc : FVec Ideal S3x128 .f32) : b2K bc = Cert.Net.b2 bc := rfl

variable (m : (ℓ : Loc nD τ sig) → Buf (Elt Ideal) ℓ) (c : Dev nD)

/-- With every source index a node, the summed messages of a node state are the network's. -/
theorem gK_eq (hs : SrcOk (srcK (a2 m c))) (h : FVec Ideal S100000x128 .f32) :
    gK m c h = Cert.Net.agg (Cert.Spec.msg (Cert.Net.take h (a2 m c)) (eK m c)) (a2 m c) := by
  unfold gK mK tK
  rw [takeK_eq h _ hs, gather_eq_take, aggK_eq]

/-- With every source index a node, the kernel program's result is the network's function of the arguments. -/
theorem outK_eq (hs : SrcOk (srcK (a2 m c))) :
    outK m c = Cert.Net.out (a0 m c) (a1 m c) (a2 m c) (a3 m c) (a4 m c) (a5 m c) (a6 m c) (a7 m c) (a8 m c) (a9 m c) (a10 m c) (a11 m c) (a12 m c) := by
  unfold outK h3K h2K h1K
  rw [gK_eq m c hs, gK_eq m c hs, gK_eq m c hs, w0K_eq, w1K_eq, w2K_eq, b0K_eq, b1K_eq, b2K_eq]
  rfl

end Cert.KernelIdeal.KV

end
-- ==== Proof.PreSrc.lean ====
import proofs.«412457_j20298015441381_1_alg».proof.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.Pre_finite_inputs.Decode

open Cert.Pre_finite_inputs Idealize.ShloMosaic
open Cert.Pre_finite_inputs.Facts

variable [Cert.Pre_finite_inputs.Facts]

/-- The rank-0 shape has one index. -/
instance subsingleton_scalar_idx : Subsingleton S_.Idx := ⟨fun a b => funext fun d => d.elim0⟩

/-- The last part of the predicate is the conjunction of the bit it is handed with the universally quantified range
    test of row 0 of the edge list.  Where it is one, the quantified test is one, hence the test holds at every
    edge: both comparisons of the edge's source index are one. -/
theorem src_ok_of_part3 (a2 : IVec S2x1600000 32) (a12 : FVec Ideal S128 .f32) (v48 : IVec S_ 1)
    (v49 v50 : FVec Ideal S128 .f32) (j : S_.Idx)
    (e : fn_part3 (F := Ideal) a2 a12 v48 v49 v50 j = 1#1) :
    ∀ i : S1600000.Idx,
      IntOp.cmpi .sge (shapeCast S1600000 (extractStridedSlice S1x1600000 ![0, 0] a2 slices_S2x1600000_S1x1600000_0_0) shapeCasts_S1x1600000_S1600000 i) 0#32 = 1#1
      ∧ IntOp.cmpi .slt (shapeCast S1600000 (extractStridedSlice S1x1600000 ![0, 0] a2 slices_S2x1600000_S1x1600000_0_0) shapeCasts_S1x1600000_S1600000 i) 100000#32 = 1#1 := by
  intro i
  unfold fn_part3 fn_part4 at e
  -- the outer conjunction at the one scalar index: keep its right component, the quantified range test
  have e2 := (IntOp.andi_eq_one.1 e).2
  -- a conjunction over all edges that is one is one at each edge
  have e3 := Host.reduce_andi_all _ _ _ _ j e2 i
  -- at an edge the test is the conjunction of the two comparisons against the broadcast constants
  exact IntOp.andi_eq_one.1 e3

/-- Where the precondition holds, every source index (row 0 of the edge list) is a node: `0 ≤ s < 100000` as signed
    32-bit words. -/
theorem src_ok_of_pre (a0 : FVec Ideal S100000x64 .f32) (a1 : FVec Ideal S1600000x16 .f32) (a2 : IVec S2x1600000 32)
    (a3 : FVec Ideal S64x128 .f32) (a4 : FVec Ideal S128 .f32) (a5 : FVec Ideal S16x128 .f32) (a6 : FVec Ideal S128 .f32)
    (a7 : FVec Ideal S3x128x128 .f32) (a8 : FVec Ideal S3x128 .f32) (a9 : FVec Ideal S128x128 .f32)
    (a10 a11 a12 : FVec Ideal S128 .f32)
    (h : fn (F := Ideal) a0 a1 a2 a3 a4 a5 a6 a7 a8 a9 a10 a11 a12 = fun _ => 1#1) :
    ∀ i : S1600000.Idx,
      IntOp.cmpi .sge (shapeCast S1600000 (extractStridedSlice S1x1600000 ![0, 0] a2 slices_S2x1600000_S1x1600000_0_0) shapeCasts_S1x1600000_S1600000 i) 0#32 = 1#1
      ∧ IntOp.cmpi .slt (shapeCast S1600000 (extractStridedSlice S1x1600000 ![0, 0] a2 slices_S2x1600000_S1x1600000_0_0) shapeCasts_S1x1600000_S1600000 i) 100000#32 = 1#1 := by
  have h0 : fn (F := Ideal) a0 a1 a2 a3 a4 a5 a6 a7 a8 a9 a10 a11 a12 ValueIdx.ix0 = 1#1 := congrFun h ValueIdx.ix0
  -- the predicate is its four parts in a chain: the first two only hand their joint bit on to the third
  unfold fn fn_part1 fn_part2 at h0
  exact src_ok_of_part3 a2 _ _ _ _ _ h0

end Cert.Pre_finite_inputs.Decode

end
-- ==== Proof.RDense.lean ====
import proofs.«412457_j20298015441381_1_alg».proof.ReferenceIdeal
import proofs.«412457_j20298015441381_1_alg».proof.Proof.Spec
import Idealize.ShloMosaic.PureOps.Ideal.Laws
import Idealize.ShloMosaic.Lib.ValueIdx
import Idealize.ShloMosaic.Lib.Pipeline.Value

noncomputable section

namespace Cert.RefStage

open Cert.ReferenceIdeal Idealize.ShloMosaic
open Cert.ReferenceIdeal.Facts₀ Cert.ReferenceIdeal.Facts

variable [Cert.ReferenceIdeal.Facts]

/-! ### The N projection: its contraction record axis by axis, then the product at an index -/

theorem lhsN_0 (i : S100000x128.Idx) (q : dot_S100000x64_S64x128_S100000x128_1_0_0_1_n_n.contr.Idx) :
    (dot_S100000x64_S64x128_S100000x128_1_0_0_1_n_n.lhsIdx i q 0).val = (i 0).val := by
  unfold DotDims.lhsIdx
  rw [dif_neg (show ¬(0 : Fin S100000x64.rank) ∈ dot_S100000x64_S64x128_S100000x128_1_0_0_1_n_n.lhsBatch from List.not_mem_nil), dif_pos (show (0 : Fin S100000x64.rank) ∈ dot_S100000x64_S64x128_S100000x128_1_0_0_1_n_n.lhsNonContracting from List.mem_singleton.mpr rfl)]
  rfl
theorem lhsN_1 (i : S100000x128.Idx) (q : dot_S100000x64_S64x128_S100000x128_1_0_0_1_n_n.contr.Idx) :
    (dot_S100000x64_S64x128_S100000x128_1_0_0_1_n_n.lhsIdx i q 1).val = (q ⟨0, by rw [dot_S100000x64_S64x128_S100000x128_1_0_0_1_n_n.rank_contr]; exact Nat.one_pos⟩).val :=
  dot_S100000x64_S64x128_S100000x128_1_0_0_1_n_n.lhsIdx_val_of_single rfl i q
theorem rhsN_0 (i : S100000x128.Idx) (q : dot_S100000x64_S64x128_S100000x128_1_0_0_1_n_n.contr.Idx) :
    (dot_S100000x64_S64x128_S100000x128_1_0_0_1_n_n.rhsIdx i q 0).val = (q ⟨0, by rw [dot_S100000x64_S64x128_S100000x128_1_0_0_1_n_n.rank_contr]; exact Nat.one_pos⟩).val :=
  dot_S100000x64_S64x128_S100000x128_1_0_0_1_n_n.rhsIdx_val_of_single rfl i q
theorem rhsN_1 (i : S100000x128.Idx) (q : dot_S100000x64_S64x128_S100000x128_1_0_0_1_n_n.contr.Idx) :
    (dot_S100000x64_S64x128_S100000x128_1_0_0_1_n_n.rhsIdx i q 1).val = (i 1).val := by
  unfold DotDims.rhsIdx
  rw [dif_neg (show ¬(1 : Fin S64x128.rank) ∈ dot_S100000x64_S64x128_S100000x128_1_0_0_1_n_n.rhsBatch from List.not_mem_nil), dif_pos (show (1 : Fin S64x128.rank) ∈ dot_S100000x64_S64x128_S100000x128_1_0_0_1_n_n.rhsNonContracting from List.mem_singleton.mpr rfl)]
  rfl

/-- Entry `(p, q)` of the product is `Σ_k x[p,k]·W[k,q]`: the one contracted axis runs over `Fin 64`. -/
theorem dotN_apply (x : FVec Ideal S100000x64 .f32) (W : FVec Ideal S64x128 .f32) (p : Fin 100000) (q : Fin 128) :
    Host.dotGeneral dot_S100000x64_S64x128_S100000x128_1_0_0_1_n_n none x W (ValueIdx.ix2 p q)
      = ∑ k : Fin 64, x (ValueIdx.ix2 p k) * W (ValueIdx.ix2 k q) := by
  simp only [Host.dotGeneral]
  rw [Ideal.dotGeneral_apply, ← Equiv.sum_comp (ValueIdx.contrEquiv1 dot_S100000x64_S64x128_S100000x128_1_0_0_1_n_n 64 rfl rfl).symm]
  refine Finset.sum_congr rfl fun k _ => ?_
  have hk := ValueIdx.contrEquiv1_symm_val dot_S100000x64_S64x128_S100000x128_1_0_0_1_n_n 64 rfl rfl k
  have el : dot_S100000x64_S64x128_S100000x128_1_0_0_1_n_n.lhsIdx (ValueIdx.ix2 p q) ((ValueIdx.contrEquiv1 dot_S100000x64_S64x128_S100000x128_1_0_0_1_n_n 64 rfl rfl).symm k) = ValueIdx.ix2 p k := funext fun a => Fin.ext (by
    match a with
    | ⟨0, _⟩ => exact lhsN_0 _ _
    | ⟨1, _⟩ => exact (lhsN_1 _ _).trans hk)
  have er : dot_S100000x64_S64x128_S100000x128_1_0_0_1_n_n.rhsIdx (ValueIdx.ix2 p q) ((ValueIdx.contrEquiv1 dot_S100000x64_S64x128_S100000x128_1_0_0_1_n_n 64 rfl rfl).symm k) = ValueIdx.ix2 k q := funext fun a => Fin.ext (by
    match a with
    | ⟨0, _⟩ => exact (rhsN_0 _ _).trans hk
    | ⟨1, _⟩ => exact rhsN_1 _ _)
  rw [el, er]

/-- The bias, broadcast first to one row and then to every row, reads `b[q]` at entry `(p, q)`. -/
theorem biasN_apply (b : FVec Ideal S128 .f32) (p : Fin 100000) (q : Fin 128) :
    broadcastInDim S100000x128 ![0, 1] bcast_S1x128_S100000x128_0_1 (broadcastInDim S1x128 ![1] bcast_S128_S1x128_1 b) (ValueIdx.ix2 p q)
      = b (ValueIdx.ix1 q) := by
  refine (broadcastInDim_apply _ bcast_S1x128_S100000x128_0_1 (broadcastInDim S1x128 ![1] bcast_S128_S1x128_1 b)
    (ValueIdx.ix2 p q) (ValueIdx.ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)])).trans ?_
  exact broadcastInDim_apply _ bcast_S128_S1x128_1 b (ValueIdx.ix2 (0 : Fin 1) q) (ValueIdx.ix1 q) (fun a => match a with
    | ⟨0, _⟩ => by show q.val = if (128 : Nat) = 1 then 0 else q.val; rw [if_neg (by decide)])

/-! ### The E projection: its contraction record axis by axis, then the product at an index -/

theorem lhsE_0 (i : S1600000x128.Idx) (q : dot_S1600000x16_S16x128_S1600000x128_1_0_0_1_n_n.contr.Idx) :
    (dot_S1600000x16_S16x128_S1600000x128_1_0_0_1_n_n.lhsIdx i q 0).val = (i 0).val := by
  unfold DotDims.lhsIdx
  rw [dif_neg (show ¬(0 : Fin S1600000x16.rank) ∈ dot_S1600000x16_S16x128_S1600000x128_1_0_0_1_n_n.lhsBatch from List.not_mem_nil), dif_pos (show (0 : Fin S1600000x16.rank) ∈ dot_S1600000x16_S16x128_S1600000x128_1_0_0_1_n_n.lhsNonContracting from List.mem_singleton.mpr rfl)]
  rfl
theorem lhsE_1 (i : S1600000x128.Idx) (q : dot_S1600000x16_S16x128_S1600000x128_1_0_0_1_n_n.contr.Idx) :
    (dot_S1600000x16_S16x128_S1600000x128_1_0_0_1_n_n.lhsIdx i q 1).val = (q ⟨0, by rw [dot_S1600000x16_S16x128_S1600000x128_1_0_0_1_n_n.rank_contr]; exact Nat.one_pos⟩).val :=
  dot_S1600000x16_S16x128_S1600000x128_1_0_0_1_n_n.lhsIdx_val_of_single rfl i q
theorem rhsE_0 (i : S1600000x128.Idx) (q : dot_S1600000x16_S16x128_S1600000x128_1_0_0_1_n_n.contr.Idx) :
    (dot_S1600000x16_S16x128_S1600000x128_1_0_0_1_n_n.rhsIdx i q 0).val = (q ⟨0, by rw [dot_S1600000x16_S16x128_S1600000x128_1_0_0_1_n_n.rank_contr]; exact Nat.one_pos⟩).val :=
  dot_S1600000x16_S16x128_S1600000x128_1_0_0_1_n_n.rhsIdx_val_of_single rfl i q
theorem rhsE_1 (i : S1600000x128.Idx) (q : dot_S1600000x16_S16x128_S1600000x128_1_0_0_1_n_n.contr.Idx) :
    (dot_S1600000x16_S16x128_S1600000x128_1_0_0_1_n_n.rhsIdx i q 1).val = (i 1).val := by
  unfold DotDims.rhsIdx
  rw [dif_neg (show ¬(1 : Fin S16x128.rank) ∈ dot_S1600000x16_S16x128_S1600000x128_1_0_0_1_n_n.rhsBatch from List.not_mem_nil), dif_pos (show (1 : Fin S16x128.rank) ∈ dot_S1600000x16_S16x128_S1600000x128_1_0_0_1_n_n.rhsNonContracting from List.mem_singleton.mpr rfl)]
  rfl

/-- Entry `(p, q)` of the product is `Σ_k x[p,k]·W[k,q]`: the one contracted axis runs over `Fin 16`. -/
theorem dotE_apply (x : FVec Ideal S1600000x16 .f32) (W : FVec Ideal S16x128 .f32) (p : Fin 1600000) (q : Fin 128) :
    Host.dotGeneral dot_S1600000x16_S16x128_S1600000x128_1_0_0_1_n_n none x W (ValueIdx.ix2 p q)
      = ∑ k : Fin 16, x (ValueIdx.ix2 p k) * W (ValueIdx.ix2 k q) := by
  simp only [Host.dotGeneral]
  rw [Ideal.dotGeneral_apply, ← Equiv.sum_comp (ValueIdx.contrEquiv1 dot_S1600000x16_S16x128_S1600000x128_1_0_0_1_n_n 16 rfl rfl).symm]
  refine Finset.sum_congr rfl fun k _ => ?_
  have hk := ValueIdx.contrEquiv1_symm_val dot_S1600000x16_S16x128_S1600000x128_1_0_0_1_n_n 16 rfl rfl k
  have el : dot_S1600000x16_S16x128_S1600000x128_1_0_0_1_n_n.lhsIdx (ValueIdx.ix2 p q) ((ValueIdx.contrEquiv1 dot_S1600000x16_S16x128_S1600000x128_1_0_0_1_n_n 16 rfl rfl).symm k) = ValueIdx.ix2 p k := funext fun a => Fin.ext (by
    match a with
    | ⟨0, _⟩ => exact lhsE_0 _ _
    | ⟨1, _⟩ => exact (lhsE_1 _ _).trans hk)
  have er : dot_S1600000x16_S16x128_S1600000x128_1_0_0_1_n_n.rhsIdx (ValueIdx.ix2 p q) ((ValueIdx.contrEquiv1 dot_S1600000x16_S16x128_S1600000x128_1_0_0_1_n_n 16 rfl rfl).symm k) = ValueIdx.ix2 k q := funext fun a => Fin.ext (by
    match a with
    | ⟨0, _⟩ => exact (rhsE_0 _ _).trans hk
    | ⟨1, _⟩ => exact rhsE_1 _ _)
  rw [el, er]

/-- The bias, broadcast first to one row and then to every row, reads `b[q]` at entry `(p, q)`. -/
theorem biasE_apply (b : FVec Ideal S128 .f32) (p : Fin 1600000) (q : Fin 128) :
    broadcastInDim S1600000x128 ![0, 1] bcast_S1x128_S1600000x128_0_1 (broadcastInDim S1x128 ![1] bcast_S128_S1x128_1 b) (ValueIdx.ix2 p q)
      = b (ValueIdx.ix1 q) := by
  refine (broadcastInDim_apply _ bcast_S1x128_S1600000x128_0_1 (broadcastInDim S1x128 ![1] bcast_S128_S1x128_1 b)
    (ValueIdx.ix2 p q) (ValueIdx.ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)])).trans ?_
  exact broadcastInDim_apply _ bcast_S128_S1x128_1 b (ValueIdx.ix2 (0 : Fin 1) q) (ValueIdx.ix1 q) (fun a => match a with
    | ⟨0, _⟩ => by show q.val = if (128 : Nat) = 1 then 0 else q.val; rw [if_neg (by decide)])

/-- The reference's node projection `x @ W + b` is the dense layer. -/
theorem denseN_eq (x : FVec Ideal S100000x64 .f32) (W : FVec Ideal S64x128 .f32) (b : FVec Ideal S128 .f32) :
    addf (Host.dotGeneral dot_S100000x64_S64x128_S100000x128_1_0_0_1_n_n none x W)
      (broadcastInDim S100000x128 ![0, 1] bcast_S1x128_S100000x128_0_1 (broadcastInDim S1x128 ![1] bcast_S128_S1x128_1 b))
    = Cert.Spec.dense x W b := by
  funext i
  obtain ⟨p, q, rfl⟩ : ∃ (p : Fin 100000) (q : Fin 128), i = ValueIdx.ix2 p q := ⟨i 0, i 1, ValueIdx.eq_ix2 i⟩
  -- entry by entry: the product's sum plus the bias at the lane
  refine (ValueIdx.addf_apply _ _ _).trans ?_
  rw [dotN_apply x W p q, biasN_apply b p q]
  rfl

/-- The reference's edge projection likewise. -/
theorem denseE_eq (x : FVec Ideal S1600000x16 .f32) (W : FVec Ideal S16x128 .f32) (b : FVec Ideal S128 .f32) :
    addf (Host.dotGeneral dot_S1600000x16_S16x128_S1600000x128_1_0_0_1_n_n none x W)
      (broadcastInDim S1600000x128 ![0, 1] bcast_S1x128_S1600000x128_0_1 (broadcastInDim S1x128 ![1] bcast_S128_S1x128_1 b))
    = Cert.Spec.dense x W b := by
  funext i
  obtain ⟨p, q, rfl⟩ : ∃ (p : Fin 1600000) (q : Fin 128), i = ValueIdx.ix2 p q := ⟨i 0, i 1, ValueIdx.eq_ix2 i⟩
  -- entry by entry: the product's sum plus the bias at the lane
  refine (ValueIdx.addf_apply _ _ _).trans ?_
  rw [dotE_apply x W p q, biasE_apply b p q]
  rfl

end Cert.RefStage

end
-- ==== Proof.RMsg.lean ====
import proofs.«412457_j20298015441381_1_alg».proof.ReferenceIdeal
import proofs.«412457_j20298015441381_1_alg».proof.Proof.Spec
import Idealize.ShloMosaic.PureOps.Ideal.Laws
import Idealize.ShloMosaic.Lib.ValueIdx
import Idealize.ShloMosaic.Lib.Pipeline.Value

noncomputable section

namespace Cert.RefStage

open Cert.ReferenceIdeal Idealize.ShloMosaic
open Cert.ReferenceIdeal.Facts₀ Cert.ReferenceIdeal.Facts

variable [Cert.ReferenceIdeal.Facts]

/-- A scalar broadcast to every entry reads the scalar: the rank-0 operand has exactly one index. -/
theorem zero_bcast_apply (i : S1600000x128.Idx) :
    broadcastInDim S1600000x128 ![] bcast_S_S1600000x128 (constant (F := Ideal) S_ .f32 0x00000000#32) i
      = Ideal.ofBits .f32 0x00000000#32 :=
  broadcastInDim_apply _ bcast_S_S1600000x128 (constant (F := Ideal) S_ .f32 0x00000000#32) i
    (fun a => a.elim0) (fun a => a.elim0)

/-- The reference's `relu(h_src + e)` is the message. -/
theorem msg_eq (hs e : FVec Ideal S1600000x128 .f32) :
    maximumf (addf hs e) (broadcastInDim S1600000x128 ![] bcast_S_S1600000x128 (constant (F := Ideal) S_ .f32 0x00000000#32))
    = Cert.Spec.msg hs e := by
  funext i
  -- entry by entry: a maximum of a sum and the broadcast zero word
  show max (hs i + e i) (broadcastInDim S1600000x128 ![] bcast_S_S1600000x128 (constant (F := Ideal) S_ .f32 0x00000000#32) i)
    = max (hs i + e i) (Ideal.ofBits .f32 0x00000000#32)
  rw [zero_bcast_apply i]

end Cert.RefStage

end
-- ==== Proof.RUpd.lean ====
import proofs.«412457_j20298015441381_1_alg».proof.ReferenceIdeal
import proofs.«412457_j20298015441381_1_alg».proof.Proof.Spec
import Idealize.ShloMosaic.PureOps.Ideal.Laws
import Idealize.ShloMosaic.Lib.ValueIdx
import Idealize.ShloMosaic.Lib.Pipeline.Value

noncomputable section

namespace Cert.RefStage

open Cert.ReferenceIdeal Idealize.ShloMosaic
open Cert.ReferenceIdeal.Facts₀ Cert.ReferenceIdeal.Facts

variable [Cert.ReferenceIdeal.Facts]

/-! ## The operand indices of the [100000×128]·[128×128] product, axis by axis -/

/-- The left operand's row is the output's row. -/
theorem updDot_lhs_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by show ¬(0 : Fin 2) ∈ ([] : List (Fin 2)); decide), dif_pos (show (0 : Fin S100000x128.rank) ∈ dot_S100000x128_S128x128_S100000x128_1_0_0_1_n_n.lhsNonContracting by show (0 : Fin 2) ∈ [(0 : Fin 2)]; decide)]
  rfl
/-- The left operand's column is the contracted coordinate. -/
theorem updDot_lhs_1 (i : S100000x128.Idx) (q : dot_S100000x128_S128x128_S100000x128_1_0_0_1_n_n.contr.Idx) :
    (dot_S100000x128_S128x128_S100000x128_1_0_0_1_n_n.lhsIdx i q 1).val = (q ⟨0, Nat.one_pos⟩).val :=
  dot_S100000x128_S128x128_S100000x128_1_0_0_1_n_n.lhsIdx_val_of_single rfl i q
/-- The right operand's row is the contracted coordinate. -/
theorem updDot_rhs_0 (i : S100000x128.Idx) (q : dot_S100000x128_S128x128_S100000x128_1_0_0_1_n_n.contr.Idx) :
    (dot_S100000x128_S128x128_S100000x128_1_0_0_1_n_n.rhsIdx i q 0).val = (q ⟨0, Nat.one_pos⟩).val :=
  dot_S100000x128_S128x128_S100000x128_1_0_0_1_n_n.rhsIdx_val_of_single rfl i q
/-- The right operand's column is the output's column. -/
theorem updDot_rhs_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by show ¬(1 : Fin 2) ∈ ([] : List (Fin 2)); decide), dif_pos (show (1 : Fin S128x128.rank) ∈ dot_S100000x128_S128x128_S100000x128_1_0_0_1_n_n.rhsNonContracting by show (1 : Fin 2) ∈ [(1 : Fin 2)]; decide)]
  rfl

/-- The matrix product at entry `(p, q)` is `Σ_k x[p,k]·W[k,q]`. -/
theorem updDot_apply (x : FVec Ideal S100000x128 .f32) (W : FVec Ideal S128x128 .f32) (p : Fin 100000) (q : Fin 128) :
    Host.dotGeneral (F := Ideal) dot_S100000x128_S128x128_S100000x128_1_0_0_1_n_n none x W (ValueIdx.ix2 p q)
      = ∑ k : Fin 128, x (ValueIdx.ix2 p k) * W (ValueIdx.ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ValueIdx.ix2 p q) ((ValueIdx.contrEquiv1 dot_S100000x128_S128x128_S100000x128_1_0_0_1_n_n 128 rfl rfl).symm k) = ValueIdx.ix2 p k := funext fun a => Fin.ext (by
    match a with
    | ⟨0, _⟩ => exact updDot_lhs_0 _ _
    | ⟨1, _⟩ => exact (updDot_lhs_1 _ _).trans hk)
  have er : dot_S100000x128_S128x128_S100000x128_1_0_0_1_n_n.rhsIdx (ValueIdx.ix2 p q) ((ValueIdx.contrEquiv1 dot_S100000x128_S128x128_S100000x128_1_0_0_1_n_n 128 rfl rfl).symm k) = ValueIdx.ix2 k q := funext fun a => Fin.ext (by
    match a with
    | ⟨0, _⟩ => exact (updDot_rhs_0 _ _).trans hk
    | ⟨1, _⟩ => exact updDot_rhs_1 _ _)
  rw [el, er]

/-- The bias vector, spread first to one row and then over all rows, reads `b[q]` at entry `(p, q)`. -/
theorem updBias_apply (b : FVec Ideal S128 .f32) (p : Fin 100000) (q : Fin 128) :
    broadcastInDim S100000x128 ![0, 1] bcast_S1x128_S100000x128_0_1 (broadcastInDim S1x128 ![1] bcast_S128_S1x128_1 b) (ValueIdx.ix2 p q)
      = b (ValueIdx.ix1 q) := by
  refine (broadcastInDim_apply _ bcast_S1x128_S100000x128_0_1 _ (ValueIdx.ix2 p q) (ValueIdx.ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ValueIdx.ix2 (0 : Fin 1) q) (ValueIdx.ix1 q) (fun a => match a with
    | ⟨0, _⟩ => by show q.val = if (128 : Nat) = 1 then 0 else q.val; rw [if_neg (by decide)])

/-- A scalar constant spread over the whole array reads the number its word encodes, everywhere. -/
theorem updConst_apply (w : BitVec 32) (i : S100000x128.Idx) :
    broadcastInDim S100000x128 ![] bcast_S_S100000x128 (constant (F := Ideal) S_ .f32 w) i = Ideal.ofBits .f32 w :=
  broadcastInDim_apply _ bcast_S_S100000x128 (constant (F := Ideal) S_ .f32 w) i ValueIdx.ix0 (fun a => a.elim0)

/-- The dense part `(h + a)·W + b` at entry `(p, q)` is the specification's dense layer of `h + a`. -/
theorem updDense_apply (h a : FVec Ideal S100000x128 .f32) (W : FVec Ideal S128x128 .f32) (b : FVec Ideal S128 .f32)
    (p : Fin 100000) (q : Fin 128) :
    (addf (Host.dotGeneral (F := Ideal) dot_S100000x128_S128x128_S100000x128_1_0_0_1_n_n none (addf h a) W)
      (broadcastInDim S100000x128 ![0, 1] bcast_S1x128_S100000x128_0_1 (broadcastInDim S1x128 ![1] bcast_S128_S1x128_1 b))) (ValueIdx.ix2 p q)
      = Cert.Spec.denseAt (fun j => h j + a j) W b p q := by
  refine (ValueIdx.addf_apply _ _ _).trans ?_
  refine (congrArg₂ (· + ·) (updDot_apply (addf h a) W p q) (updBias_apply b p q)).trans ?_
  rfl

/-- The reference's `leaky_relu((h + agg) @ W + b)` is the node update. -/
theorem upd_eq (h a : FVec Ideal S100000x128 .f32) (W : FVec Ideal S128x128 .f32) (b : FVec Ideal S128 .f32) :
    select
      (cmpf .oge
        (addf (Host.dotGeneral dot_S100000x128_S128x128_S100000x128_1_0_0_1_n_n none (addf h a) W)
          (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32)))
      (addf (Host.dotGeneral dot_S100000x128_S128x128_S100000x128_1_0_0_1_n_n none (addf h a) W)
        (broadcastInDim S100000x128 ![0, 1] bcast_S1x128_S100000x128_0_1 (broadcastInDim S1x128 ![1] bcast_S128_S1x128_1 b)))
      (mulf (broadcastInDim S100000x128 ![] bcast_S_S100000x128 (constant (F := Ideal) S_ .f32 0x3C23D70A#32))
        (addf (Host.dotGeneral dot_S100000x128_S128x128_S100000x128_1_0_0_1_n_n none (addf h a) W)
          (broadcastInDim S100000x128 ![0, 1] bcast_S1x128_S100000x128_0_1 (broadcastInDim S1x128 ![1] bcast_S128_S1x128_1 b))))
    = Cert.Spec.upd h a W b := by
  funext i
  obtain ⟨p, q, rfl⟩ : ∃ (p : Fin 100000) (q : Fin 128), i = ValueIdx.ix2 p q := ⟨i 0, i 1, ValueIdx.eq_ix2 i⟩
  have hy := updDense_apply h a W b p q
  have h0 := updConst_apply 0x00000000#32 (ValueIdx.ix2 p q)
  have hs := updConst_apply 0x3C23D70A#32 (ValueIdx.ix2 p q)
  generalize (addf (Host.dotGeneral (F := Ideal) dot_S100000x128_S128x128_S100000x128_1_0_0_1_n_n none (addf h a) W)
      (broadcastInDim S100000x128 ![0, 1] bcast_S1x128_S100000x128_0_1 (broadcastInDim S1x128 ![1] bcast_S128_S1x128_1 b))) = y at hy ⊢
  generalize broadcastInDim S100000x128 ![] bcast_S_S100000x128 (constant (F := Ideal) S_ .f32 0x00000000#32) = z at h0 ⊢
  generalize broadcastInDim S100000x128 ![] bcast_S_S100000x128 (constant (F := Ideal) S_ .f32 0x3C23D70A#32) = s at hs ⊢
  show Scalar.select (FloatOps.cmpf (F := Ideal) (φ := .f32) .oge (y (ValueIdx.ix2 p q)) (z (ValueIdx.ix2 p q)))
      (y (ValueIdx.ix2 p q)) (s (ValueIdx.ix2 p q) * y (ValueIdx.ix2 p q)) = _
  rw [hy, h0, hs]
  rfl

end Cert.RefStage

end
-- ==== Proof.RHead.lean ====
import proofs.«412457_j20298015441381_1_alg».proof.ReferenceIdeal
import proofs.«412457_j20298015441381_1_alg».proof.Proof.Spec
import Idealize.ShloMosaic.PureOps.Ideal.Laws
import Idealize.ShloMosaic.Lib.ValueIdx
import Idealize.ShloMosaic.Lib.Pipeline.Value

noncomputable section

namespace Cert.RefStage

open Cert.ReferenceIdeal Idealize.ShloMosaic
open Cert.ReferenceIdeal.Facts₀ Cert.ReferenceIdeal.Facts

variable [Cert.ReferenceIdeal.Facts]

section Stages

open Idealize.ShloMosaic.ValueIdx

/-! ### Layout operations at an index -/

/-- A parameter row `[128]`, laid out as `[1,128]` and repeated down the rows, read at `(p, q)` is its entry `q`. -/
theorem rowBcast_apply (v : FVec Ideal S128 .f32) (p : Fin 100000) (q : Fin 128) :
    broadcastInDim S100000x128 ![0, 1] bcast_S1x128_S100000x128_0_1 (broadcastInDim S1x128 ![1] bcast_S128_S1x128_1 v) (ix2 p q)
      = v (ix1 q) :=
  (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans
  (broadcastInDim_apply _ bcast_S128_S1x128_1 v (ix2 (0 : Fin 1) q) (ix1 q) (fun a => match a with
    | ⟨0, _⟩ => by show q.val = if (128 : Nat) = 1 then 0 else q.val; rw [if_neg (by decide)]))

/-- A column `[100000,1]` repeated along the lanes, read at `(p, q)`, is its entry `p`. -/
theorem colBcast_apply (m : FVec Ideal S100000x1 .f32) (p : Fin 100000) (q : Fin 128) :
    broadcastInDim S100000x128 ![0, 1] bcast_S100000x1_S100000x128_0_1 m (ix2 p q) = m (ix2 p (0 : Fin 1)) :=
  broadcastInDim_apply _ bcast_S100000x1_S100000x128_0_1 m (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])

/-- A vector `[100000]` given a trailing unit axis, read at `(p, 0)`, is its entry `p`. -/
theorem keepBcast_apply (v : FVec Ideal S100000 .f32) (p : Fin 100000) :
    broadcastInDim S100000x1 ![0] bcast_S100000_S100000x1_0 v (ix2 p (0 : Fin 1)) = v (ix1 p) :=
  broadcastInDim_apply _ bcast_S100000_S100000x1_0 v (ix2 p (0 : Fin 1)) (ix1 p) (fun a => match a with
    | ⟨0, _⟩ => by show p.val = if (100000 : Nat) = 1 then 0 else p.val; rw [if_neg (by decide)])

/-- A scalar word spread over a column is that word everywhere. -/
theorem scalBcast_apply (w : BitVec 32) (j : S100000x1.Idx) :
    broadcastInDim S100000x1 ![] bcast_S_S100000x1 (constant (F := Ideal) S_ .f32 w) j = Ideal.ofBits .f32 w :=
  broadcastInDim_apply _ bcast_S_S100000x1 (constant (F := Ideal) S_ .f32 w) j ix0 (fun a => a.elim0)

/-! ### The contraction over the 128 input lanes -/

theorem dotL0 (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch from List.not_mem_nil), dif_pos (show (0 : Fin S100000x128.rank) ∈ dot_S100000x128_S128x128_S100000x128_1_0_0_1_n_n.lhsNonContracting from List.mem_singleton.mpr rfl)]
  rfl
theorem dotL1 (i : S100000x128.Idx) (c : dot_S100000x128_S128x128_S100000x128_1_0_0_1_n_n.contr.Idx) :
    (dot_S100000x128_S128x128_S100000x128_1_0_0_1_n_n.lhsIdx i c 1).val = (c ⟨0, Nat.one_pos⟩).val :=
  dot_S100000x128_S128x128_S100000x128_1_0_0_1_n_n.lhsIdx_val_of_single rfl i c
theorem dotR0 (i : S100000x128.Idx) (c : dot_S100000x128_S128x128_S100000x128_1_0_0_1_n_n.contr.Idx) :
    (dot_S100000x128_S128x128_S100000x128_1_0_0_1_n_n.rhsIdx i c 0).val = (c ⟨0, Nat.one_pos⟩).val :=
  dot_S100000x128_S128x128_S100000x128_1_0_0_1_n_n.rhsIdx_val_of_single rfl i c
theorem dotR1 (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch from List.not_mem_nil), dif_pos (show (1 : Fin S128x128.rank) ∈ dot_S100000x128_S128x128_S100000x128_1_0_0_1_n_n.rhsNonContracting from List.mem_singleton.mpr rfl)]
  rfl

/-- The matrix product at `(p, q)` is `Σ_k l[p,k]·W[k,q]`. -/
theorem dot_apply (l : FVec Ideal S100000x128 .f32) (W : FVec Ideal S128x128 .f32) (p : Fin 100000) (q : Fin 128) :
    Host.dotGeneral dot_S100000x128_S128x128_S100000x128_1_0_0_1_n_n none l W (ix2 p q) = ∑ k : Fin 128, l (ix2 p k) * W (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q) ((ValueIdx.contrEquiv1 dot_S100000x128_S128x128_S100000x128_1_0_0_1_n_n 128 rfl rfl).symm k) = ix2 p k := funext fun a => Fin.ext (by
    match a with
    | ⟨0, _⟩ => exact dotL0 _ _
    | ⟨1, _⟩ => exact (dotL1 _ _).trans hk)
  have er : dot_S100000x128_S128x128_S100000x128_1_0_0_1_n_n.rhsIdx (ix2 p q) ((ValueIdx.contrEquiv1 dot_S100000x128_S128x128_S100000x128_1_0_0_1_n_n 128 rfl rfl).symm k) = ix2 k q := funext fun a => Fin.ext (by
    match a with
    | ⟨0, _⟩ => exact (dotR0 _ _).trans hk
    | ⟨1, _⟩ => exact dotR1 _ _)
  rw [el, er]

/-! ### The sum over the lanes of a row -/

/-- The lane sum with the zero word as its initial value, at row `p`, is `Σ_k y[p,k]`. -/
theorem rowSum_apply (y : FVec Ideal S100000x128 .f32) (p : Fin 100000) :
    Host.reduceAdd y (constant (F := Ideal) S_ .f32 0x00000000#32) reducesTo_S100000x128_S100000_d1 h_S_ (ix1 p)
      = ∑ k : Fin 128, y (ix2 p k) := by
  simp only [Host.reduceAdd, Ideal.hostReduceAdd_def]
  rw [Ideal.hostReduceAdd_single reducesTo_S100000x128_S100000_d1 (by decide), constant_apply, Ideal.ofBits_zero_f32, zero_add]
  refine Finset.sum_congr rfl fun k _ => ?_
  exact congrArg y (funext fun a => Fin.ext (by match a with | ⟨0, _⟩ => rfl | ⟨1, _⟩ => rfl))

/-! ### The stages of the head -/

/-- The dense part: `(skip + h)·W + b`. -/
def yOps (skip h : FVec Ideal S100000x128 .f32) (W : FVec Ideal S128x128 .f32) (b : FVec Ideal S128 .f32) :
    FVec Ideal S100000x128 .f32 :=
  addf (Host.dotGeneral dot_S100000x128_S128x128_S100000x128_1_0_0_1_n_n none (addf skip h) W)
    (broadcastInDim S100000x128 ![0, 1] bcast_S1x128_S100000x128_0_1 (broadcastInDim S1x128 ![1] bcast_S128_S1x128_1 b))

/-- The row mean as a column: the lane sum divided by the word of 128. -/
def meanOps (y : FVec Ideal S100000x128 .f32) : FVec Ideal S100000x1 .f32 :=
  Host.divf
    (broadcastInDim S100000x1 ![0] bcast_S100000_S100000x1_0
      (Host.reduceAdd y (constant (F := Ideal) S_ .f32 0x00000000#32) reducesTo_S100000x128_S100000_d1 h_S_))
    (broadcastInDim S100000x1 ![] bcast_S_S100000x1 (constant (F := Ideal) S_ .f32 0x43000000#32))

/-- The centred rows: `y − μ`. -/
def centOps (y : FVec Ideal S100000x128 .f32) : FVec Ideal S100000x128 .f32 :=
  subf y (broadcastInDim S100000x128 ![0, 1] bcast_S100000x1_S100000x128_0_1 (meanOps y))

/-- The reciprocal root of the variance plus the small word, as a column. -/
def rsOps (y : FVec Ideal S100000x128 .f32) : FVec Ideal S100000x1 .f32 :=
  Host.rsqrt (addf (meanOps (mulf (centOps y) (centOps y)))
    (broadcastInDim S100000x1 ![] bcast_S_S100000x1 (constant (F := Ideal) S_ .f32 0x3727C5AC#32)))

/-- The normalisation of the rows of `y` with scale `g` and shift `bt`. -/
def normOps (y : FVec Ideal S100000x128 .f32) (g bt : FVec Ideal S128 .f32) : FVec Ideal S100000x128 .f32 :=
  addf
    (mulf (mulf (centOps y) (broadcastInDim S100000x128 ![0, 1] bcast_S100000x1_S100000x128_0_1 (rsOps y)))
      (broadcastInDim S100000x128 ![0, 1] bcast_S1x128_S100000x128_0_1 (broadcastInDim S1x128 ![1] bcast_S128_S1x128_1 g)))
    (broadcastInDim S100000x128 ![0, 1] bcast_S1x128_S100000x128_0_1 (broadcastInDim S1x128 ![1] bcast_S128_S1x128_1 bt))

theorem yOps_apply (skip h : FVec Ideal S100000x128 .f32) (W : FVec Ideal S128x128 .f32) (b : FVec Ideal S128 .f32)
    (p : Fin 100000) (q : Fin 128) :
    yOps skip h W b (ix2 p q) = Cert.Spec.denseAt (fun j => skip j + h j) W b p q :=
  congrArg₂ (· + ·) (dot_apply (addf skip h) W p q) (rowBcast_apply b p q)

theorem meanOps_apply (y : FVec Ideal S100000x128 .f32) (p : Fin 100000) :
    meanOps y (ix2 p (0 : Fin 1)) = Ideal.div (∑ k : Fin 128, y (ix2 p k)) Cert.Spec.c128W :=
  congrArg₂ Ideal.div ((keepBcast_apply _ p).trans (rowSum_apply y p)) (scalBcast_apply 0x43000000#32 (ix2 p (0 : Fin 1)))

theorem centOps_apply (y : FVec Ideal S100000x128 .f32) (p : Fin 100000) (q : Fin 128) :
    centOps y (ix2 p q) = y (ix2 p q) - Ideal.div (∑ k : Fin 128, y (ix2 p k)) Cert.Spec.c128W :=
  congrArg (y (ix2 p q) - ·) ((colBcast_apply _ p q).trans (meanOps_apply y p))

theorem rsOps_apply (y : FVec Ideal S100000x128 .f32) (p : Fin 100000) :
    rsOps y (ix2 p (0 : Fin 1)) =
      Ideal.rsqrt (Ideal.div (∑ k : Fin 128, (y (ix2 p k) - Ideal.div (∑ k : Fin 128, y (ix2 p k)) Cert.Spec.c128W)
          * (y (ix2 p k) - Ideal.div (∑ k : Fin 128, y (ix2 p k)) Cert.Spec.c128W)) Cert.Spec.c128W + Cert.Spec.epsW) :=
  congrArg Ideal.rsqrt (congrArg₂ (· + ·)
    ((meanOps_apply _ p).trans (congrArg (Ideal.div · Cert.Spec.c128W)
      (Finset.sum_congr rfl fun k _ => congrArg₂ (· * ·) (centOps_apply y p k) (centOps_apply y p k))))
    (scalBcast_apply 0x3727C5AC#32 (ix2 p (0 : Fin 1))))

theorem normOps_apply (y : FVec Ideal S100000x128 .f32) (g bt : FVec Ideal S128 .f32) (p : Fin 100000) (q : Fin 128) :
    normOps y g bt (ix2 p q) = Cert.Spec.lnAt (fun k => y (ix2 p k)) g bt q :=
  congrArg₂ (· + ·)
    (congrArg₂ (· * ·)
      (congrArg₂ (· * ·) (centOps_apply y p q) ((colBcast_apply _ p q).trans (rsOps_apply y p)))
      (rowBcast_apply g p q))
    (rowBcast_apply bt p q)

end Stages

/-- The reference's head, as its operations compose: `y = (skip + h) @ W + b`, the row mean and variance by a
    sum over the lanes divided by 128, and `(y − μ)·rsqrt(σ² + ε)·γ + β`. -/
def headOps (skip h : FVec Ideal S100000x128 .f32) (W : FVec Ideal S128x128 .f32) (b g bt : FVec Ideal S128 .f32) :
    FVec Ideal S100000x128 .f32 :=
  let y : FVec Ideal S100000x128 .f32 :=
    addf (Host.dotGeneral dot_S100000x128_S128x128_S100000x128_1_0_0_1_n_n none (addf skip h) W)
      (broadcastInDim S100000x128 ![0, 1] bcast_S1x128_S100000x128_0_1 (broadcastInDim S1x128 ![1] bcast_S128_S1x128_1 b))
  let mu : FVec Ideal S100000x1 .f32 :=
    Host.divf
      (broadcastInDim S100000x1 ![0] bcast_S100000_S100000x1_0
        (Host.reduceAdd y (constant (F := Ideal) S_ .f32 0x00000000#32) reducesTo_S100000x128_S100000_d1 h_S_))
      (broadcastInDim S100000x1 ![] bcast_S_S100000x1 (constant (F := Ideal) S_ .f32 0x43000000#32))
  let d : FVec Ideal S100000x128 .f32 := subf y (broadcastInDim S100000x128 ![0, 1] bcast_S100000x1_S100000x128_0_1 mu)
  let var : FVec Ideal S100000x1 .f32 :=
    Host.divf
      (broadcastInDim S100000x1 ![0] bcast_S100000_S100000x1_0
        (Host.reduceAdd (mulf d d) (constant (F := Ideal) S_ .f32 0x00000000#32) reducesTo_S100000x128_S100000_d1 h_S_))
      (broadcastInDim S100000x1 ![] bcast_S_S100000x1 (constant (F := Ideal) S_ .f32 0x43000000#32))
  let rs : FVec Ideal S100000x1 .f32 :=
    Host.rsqrt (addf var (broadcastInDim S100000x1 ![] bcast_S_S100000x1 (constant (F := Ideal) S_ .f32 0x3727C5AC#32)))
  addf
    (mulf (mulf d (broadcastInDim S100000x128 ![0, 1] bcast_S100000x1_S100000x128_0_1 rs))
      (broadcastInDim S100000x128 ![0, 1] bcast_S1x128_S100000x128_0_1 (broadcastInDim S1x128 ![1] bcast_S128_S1x128_1 g)))
    (broadcastInDim S100000x128 ![0, 1] bcast_S1x128_S100000x128_0_1 (broadcastInDim S1x128 ![1] bcast_S128_S1x128_1 bt))

/-- The reference's head is the head of the specification. -/
theorem head_eq (skip h : FVec Ideal S100000x128 .f32) (W : FVec Ideal S128x128 .f32) (b g bt : FVec Ideal S128 .f32) :
    headOps skip h W b g bt = Cert.Spec.head skip h W b g bt := by
  funext i
  obtain ⟨p, q, rfl⟩ : ∃ (p : Fin 100000) (q : Fin 128), i = ValueIdx.ix2 p q := ⟨i 0, i 1, ValueIdx.eq_ix2 i⟩
  refine (normOps_apply (yOps skip h W b) g bt p q).trans ?_
  unfold Cert.Spec.head
  exact congrArg (fun f => Cert.Spec.lnAt f g bt q) (funext fun k => yOps_apply skip h W b p k)

end Cert.RefStage

end
-- ==== Proof.RNet.lean ====
import proofs.«412457_j20298015441381_1_alg».proof.Proof.RefRun
import proofs.«412457_j20298015441381_1_alg».proof.Proof.Net
import proofs.«412457_j20298015441381_1_alg».proof.Proof.RDense
import proofs.«412457_j20298015441381_1_alg».proof.Proof.RMsg
import proofs.«412457_j20298015441381_1_alg».proof.Proof.RUpd
import proofs.«412457_j20298015441381_1_alg».proof.Proof.RHead
import Idealize.ShloMosaic.Lib.StableHlo.Run
import Idealize.ShloMosaic.Lib.Pipeline.Frame

/-!
The reference program's operations, folded over the launch contents, leave the network's function of the
arguments in the result buffer and leave every argument as launched. The operations are read in five stretches: the two
input projections, the three message-passing layers, the head.
-/

set_option maxRecDepth 16384

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

/-- The edge list's two rows and the two input projections. -/
abbrev opsA : List (HloOp τ sig (Elt F)) :=
  [ unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg3 main_v4 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg4 main_v5 (broadcastInDim S1x128 ![1] bcast_S128_S1x128_1 : (⟨S128, .f32⟩ : BufTy).Contents (Elt F) → (⟨S1x128, .f32⟩ : BufTy).Contents (Elt F)),
    unary main_v5 main_v6 (broadcastInDim S100000x128 ![0, 1] bcast_S1x128_S100000x128_0_1 : (⟨S1x128, .f32⟩ : BufTy).Contents (Elt F) → (⟨S100000x128, .f32⟩ : BufTy).Contents (Elt F)),
    binary main_v4 main_v6 main_v7 (addf : (⟨S100000x128, .f32⟩ : BufTy).Contents (Elt F) → (⟨S100000x128, .f32⟩ : BufTy).Contents (Elt F) → (⟨S100000x128, .f32⟩ : BufTy).Contents (Elt F)),
    binary main_arg1 main_arg5 main_v8 ((fun l r => Host.dotGeneral dot_S1600000x16_S16x128_S1600000x128_1_0_0_1_n_n none l r) : (⟨S1600000x16, .f32⟩ : BufTy).Contents (Elt F) → (⟨S16x128, .f32⟩ : BufTy).Contents (Elt F) → (⟨S1600000x128, .f32⟩ : BufTy).Contents (Elt F)),
    unary main_arg6 main_v9 (broadcastInDim S1x128 ![1] bcast_S128_S1x128_1 : (⟨S128, .f32⟩ : BufTy).Contents (Elt F) → (⟨S1x128, .f32⟩ : BufTy).Contents (Elt F)),
    unary main_v9 main_v10 (broadcastInDim S1600000x128 ![0, 1] bcast_S1x128_S1600000x128_0_1 : (⟨S1x128, .f32⟩ : BufTy).Contents (Elt F) → (⟨S1600000x128, .f32⟩ : BufTy).Contents (Elt F)),
    binary main_v8 main_v10 main_v11 (addf : (⟨S1600000x128, .f32⟩ : BufTy).Contents (Elt F) → (⟨S1600000x128, .f32⟩ : BufTy).Contents (Elt F) → (⟨S1600000x128, .f32⟩ : BufTy).Contents (Elt F)) ]

/-- Layer 0: gather, message, scatter-add, update. -/
abbrev opsL0 : List (HloOp τ sig (Elt F)) :=
  [ nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_v7 main_v17 main_v18 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    binary main_v18 main_v11 main_v19 (addf : (⟨S1600000x128, .f32⟩ : BufTy).Contents (Elt F) → (⟨S1600000x128, .f32⟩ : BufTy).Contents (Elt F) → (⟨S1600000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1600000x128, .f32⟩) main_call0_v0) (broadcastInDim S1600000x128 ![] bcast_S_S1600000x128),
    TRef.binary (TRef.of (T := ⟨S1600000x128, .f32⟩) main_v19) (TRef.of (T := ⟨S1600000x128, .f32⟩) main_call0_v0) (TRef.of (T := ⟨S1600000x128, .f32⟩) main_v20) maximumf,
    nullary main_cst (constant S_ .f32 0x00000000#32),
    unary main_cst main_v21 (broadcastInDim S100000x128 ![] bcast_S_S100000x128 : (⟨S_, .f32⟩ : BufTy).Contents (Elt F) → (⟨S100000x128, .f32⟩ : BufTy).Contents (Elt F)),
    unary main_v3 main_v22 (broadcastInDim S1600000x1 ![0] bcast_S1600000_S1600000x1_0 : (⟨S1600000, .i32⟩ : BufTy).Contents (Elt F) → (⟨S1600000x1, .i32⟩ : BufTy).Contents (Elt F)),
    ternary main_v21 main_v22 main_v20 main_v23 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v7 main_v23 main_v24 (addf : (⟨S100000x128, .f32⟩ : BufTy).Contents (Elt F) → (⟨S100000x128, .f32⟩ : BufTy).Contents (Elt F) → (⟨S100000x128, .f32⟩ : BufTy).Contents (Elt F)),
    unary main_arg7 main_v25 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v25 main_v26 rfl shapeCasts_S1x128x128_S128x128,
    binary main_v24 main_v26 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v28 ((extractStridedSlice S1x128 ![0, 0] · slices_S3x128_S1x128_0_0) : (⟨S3x128, .f32⟩ : BufTy).Contents (Elt F) → (⟨S1x128, .f32⟩ : BufTy).Contents (Elt F)),
    reshape main_v28 main_v29 rfl shapeCasts_S1x128_S128,
    unary main_v29 main_v30 (broadcastInDim S1x128 ![1] bcast_S128_S1x128_1 : (⟨S128, .f32⟩ : BufTy).Contents (Elt F) → (⟨S1x128, .f32⟩ : BufTy).Contents (Elt F)),
    unary main_v30 main_v31 (broadcastInDim S100000x128 ![0, 1] bcast_S1x128_S100000x128_0_1 : (⟨S1x128, .f32⟩ : BufTy).Contents (Elt F) → (⟨S100000x128, .f32⟩ : BufTy).Contents (Elt F)),
    binary main_v27 main_v31 main_v32 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    unary main_cst_1 main_v33 (broadcastInDim S100000x128 ![] bcast_S_S100000x128 : (⟨S_, .f32⟩ : BufTy).Contents (Elt F) → (⟨S100000x128, .f32⟩ : BufTy).Contents (Elt F)),
    binary main_v32 main_v33 main_v34 (cmpf .oge : (⟨S100000x128, .f32⟩ : BufTy).Contents (Elt F) → (⟨S100000x128, .f32⟩ : BufTy).Contents (Elt F) → (⟨S100000x128, .i1⟩ : BufTy).Contents (Elt F)),
    nullary main_cst_2 (constant S_ .f32 0x3C23D70A#32),
    unary main_cst_2 main_v35 (broadcastInDim S100000x128 ![] bcast_S_S100000x128 : (⟨S_, .f32⟩ : BufTy).Contents (Elt F) → (⟨S100000x128, .f32⟩ : BufTy).Contents (Elt F)),
    binary main_v35 main_v32 main_v36 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v34) (TRef.of (T := ⟨S100000x128, .f32⟩) main_v32) (TRef.of (T := ⟨S100000x128, .f32⟩) main_v36) (TRef.of (T := ⟨S100000x128, .f32⟩) main_v37) select ]

/-- Layer 1. -/
abbrev opsL1 : List (HloOp τ sig (Elt F)) :=
  [ nullary main_c_3 (constantI S_ 32 0#32),
    unary main_c_3 main_v38 (broadcastInDim S1600000 ![] bcast_S_S1600000 : (⟨S_, .i32⟩ : BufTy).Contents (Elt F) → (⟨S1600000, .i32⟩ : BufTy).Contents (Elt F)),
    binary main_v1 main_v38 main_v39 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v40 (broadcastInDim S1600000 ![] bcast_S_S1600000 : (⟨S_, .i32⟩ : BufTy).Contents (Elt F) → (⟨S1600000, .i32⟩ : BufTy).Contents (Elt F)),
    binary main_v1 main_v40 main_v41 (addi : (⟨S1600000, .i32⟩ : BufTy).Contents (Elt F) → (⟨S1600000, .i32⟩ : BufTy).Contents (Elt F) → (⟨S1600000, .i32⟩ : BufTy).Contents (Elt F)),
    ternary main_v39 main_v41 main_v1 main_v42 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v42 main_v43 (broadcastInDim S1600000x1 ![0] bcast_S1600000_S1600000x1_0 : (⟨S1600000, .i32⟩ : BufTy).Contents (Elt F) → (⟨S1600000x1, .i32⟩ : BufTy).Contents (Elt F)),
    binary main_v37 main_v43 main_v44 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    binary main_v44 main_v11 main_v45 (addf : (⟨S1600000x128, .f32⟩ : BufTy).Contents (Elt F) → (⟨S1600000x128, .f32⟩ : BufTy).Contents (Elt F) → (⟨S1600000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1600000x128, .f32⟩) main_call2_v0) (broadcastInDim S1600000x128 ![] bcast_S_S1600000x128),
    TRef.binary (TRef.of (T := ⟨S1600000x128, .f32⟩) main_v45) (TRef.of (T := ⟨S1600000x128, .f32⟩) main_call2_v0) (TRef.of (T := ⟨S1600000x128, .f32⟩) main_v46) maximumf,
    nullary main_cst_5 (constant S_ .f32 0x00000000#32),
    unary main_cst_5 main_v47 (broadcastInDim S100000x128 ![] bcast_S_S100000x128 : (⟨S_, .f32⟩ : BufTy).Contents (Elt F) → (⟨S100000x128, .f32⟩ : BufTy).Contents (Elt F)),
    unary main_v3 main_v48 (broadcastInDim S1600000x1 ![0] bcast_S1600000_S1600000x1_0 : (⟨S1600000, .i32⟩ : BufTy).Contents (Elt F) → (⟨S1600000x1, .i32⟩ : BufTy).Contents (Elt F)),
    ternary main_v47 main_v48 main_v46 main_v49 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v37 main_v49 main_v50 (addf : (⟨S100000x128, .f32⟩ : BufTy).Contents (Elt F) → (⟨S100000x128, .f32⟩ : BufTy).Contents (Elt F) → (⟨S100000x128, .f32⟩ : BufTy).Contents (Elt F)),
    unary main_arg7 main_v51 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v51 main_v52 rfl shapeCasts_S1x128x128_S128x128,
    binary main_v50 main_v52 main_v53 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v54 ((extractStridedSlice S1x128 ![1, 0] · slices_S3x128_S1x128_1_0) : (⟨S3x128, .f32⟩ : BufTy).Contents (Elt F) → (⟨S1x128, .f32⟩ : BufTy).Contents (Elt F)),
    reshape main_v54 main_v55 rfl shapeCasts_S1x128_S128,
    unary main_v55 main_v56 (broadcastInDim S1x128 ![1] bcast_S128_S1x128_1 : (⟨S128, .f32⟩ : BufTy).Contents (Elt F) → (⟨S1x128, .f32⟩ : BufTy).Contents (Elt F)),
    unary main_v56 main_v57 (broadcastInDim S100000x128 ![0, 1] bcast_S1x128_S100000x128_0_1 : (⟨S1x128, .f32⟩ : BufTy).Contents (Elt F) → (⟨S100000x128, .f32⟩ : BufTy).Contents (Elt F)),
    binary main_v53 main_v57 main_v58 (addf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x00000000#32),
    unary main_cst_6 main_v59 (broadcastInDim S100000x128 ![] bcast_S_S100000x128 : (⟨S_, .f32⟩ : BufTy).Contents (Elt F) → (⟨S100000x128, .f32⟩ : BufTy).Contents (Elt F)),
    binary main_v58 main_v59 main_v60 (cmpf .oge : (⟨S100000x128, .f32⟩ : BufTy).Contents (Elt F) → (⟨S100000x128, .f32⟩ : BufTy).Contents (Elt F) → (⟨S100000x128, .i1⟩ : BufTy).Contents (Elt F)),
    nullary main_cst_7 (constant S_ .f32 0x3C23D70A#32),
    unary main_cst_7 main_v61 (broadcastInDim S100000x128 ![] bcast_S_S100000x128 : (⟨S_, .f32⟩ : BufTy).Contents (Elt F) → (⟨S100000x128, .f32⟩ : BufTy).Contents (Elt F)),
    binary main_v61 main_v58 main_v62 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v60) (TRef.of (T := ⟨S100000x128, .f32⟩) main_v58) (TRef.of (T := ⟨S100000x128, .f32⟩) main_v62) (TRef.of (T := ⟨S100000x128, .f32⟩) main_v63) select ]

/-- Layer 2. -/
abbrev opsL2 : List (HloOp τ sig (Elt F)) :=
  [ nullary main_c_8 (constantI S_ 32 0#32),
    unary main_c_8 main_v64 (broadcastInDim S1600000 ![] bcast_S_S1600000 : (⟨S_, .i32⟩ : BufTy).Contents (Elt F) → (⟨S1600000, .i32⟩ : BufTy).Contents (Elt F)),
    binary main_v1 main_v64 main_v65 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v66 (broadcastInDim S1600000 ![] bcast_S_S1600000 : (⟨S_, .i32⟩ : BufTy).Contents (Elt F) → (⟨S1600000, .i32⟩ : BufTy).Contents (Elt F)),
    binary main_v1 main_v66 main_v67 (addi : (⟨S1600000, .i32⟩ : BufTy).Contents (Elt F) → (⟨S1600000, .i32⟩ : BufTy).Contents (Elt F) → (⟨S1600000, .i32⟩ : BufTy).Contents (Elt F)),
    ternary main_v65 main_v67 main_v1 main_v68 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v68 main_v69 (broadcastInDim S1600000x1 ![0] bcast_S1600000_S1600000x1_0 : (⟨S1600000, .i32⟩ : BufTy).Contents (Elt F) → (⟨S1600000x1, .i32⟩ : BufTy).Contents (Elt F)),
    binary main_v63 main_v69 main_v70 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    binary main_v70 main_v11 main_v71 (addf : (⟨S1600000x128, .f32⟩ : BufTy).Contents (Elt F) → (⟨S1600000x128, .f32⟩ : BufTy).Contents (Elt F) → (⟨S1600000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1600000x128, .f32⟩) main_call4_v0) (broadcastInDim S1600000x128 ![] bcast_S_S1600000x128),
    TRef.binary (TRef.of (T := ⟨S1600000x128, .f32⟩) main_v71) (TRef.of (T := ⟨S1600000x128, .f32⟩) main_call4_v0) (TRef.of (T := ⟨S1600000x128, .f32⟩) main_v72) maximumf,
    nullary main_cst_10 (constant S_ .f32 0x00000000#32),
    unary main_cst_10 main_v73 (broadcastInDim S100000x128 ![] bcast_S_S100000x128 : (⟨S_, .f32⟩ : BufTy).Contents (Elt F) → (⟨S100000x128, .f32⟩ : BufTy).Contents (Elt F)),
    unary main_v3 main_v74 (broadcastInDim S1600000x1 ![0] bcast_S1600000_S1600000x1_0 : (⟨S1600000, .i32⟩ : BufTy).Contents (Elt F) → (⟨S1600000x1, .i32⟩ : BufTy).Contents (Elt F)),
    ternary main_v73 main_v74 main_v72 main_v75 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v63 main_v75 main_v76 (addf : (⟨S100000x128, .f32⟩ : BufTy).Contents (Elt F) → (⟨S100000x128, .f32⟩ : BufTy).Contents (Elt F) → (⟨S100000x128, .f32⟩ : BufTy).Contents (Elt F)),
    unary main_arg7 main_v77 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v77 main_v78 rfl shapeCasts_S1x128x128_S128x128,
    binary main_v76 main_v78 main_v79 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v80 ((extractStridedSlice S1x128 ![2, 0] · slices_S3x128_S1x128_2_0) : (⟨S3x128, .f32⟩ : BufTy).Contents (Elt F) → (⟨S1x128, .f32⟩ : BufTy).Contents (Elt F)),
    reshape main_v80 main_v81 rfl shapeCasts_S1x128_S128,
    unary main_v81 main_v82 (broadcastInDim S1x128 ![1] bcast_S128_S1x128_1 : (⟨S128, .f32⟩ : BufTy).Contents (Elt F) → (⟨S1x128, .f32⟩ : BufTy).Contents (Elt F)),
    unary main_v82 main_v83 (broadcastInDim S100000x128 ![0, 1] bcast_S1x128_S100000x128_0_1 : (⟨S1x128, .f32⟩ : BufTy).Contents (Elt F) → (⟨S100000x128, .f32⟩ : BufTy).Contents (Elt F)),
    binary main_v79 main_v83 main_v84 (addf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    unary main_cst_11 main_v85 (broadcastInDim S100000x128 ![] bcast_S_S100000x128 : (⟨S_, .f32⟩ : BufTy).Contents (Elt F) → (⟨S100000x128, .f32⟩ : BufTy).Contents (Elt F)),
    binary main_v84 main_v85 main_v86 (cmpf .oge : (⟨S100000x128, .f32⟩ : BufTy).Contents (Elt F) → (⟨S100000x128, .f32⟩ : BufTy).Contents (Elt F) → (⟨S100000x128, .i1⟩ : BufTy).Contents (Elt F)),
    nullary main_cst_12 (constant S_ .f32 0x3C23D70A#32),
    unary main_cst_12 main_v87 (broadcastInDim S100000x128 ![] bcast_S_S100000x128 : (⟨S_, .f32⟩ : BufTy).Contents (Elt F) → (⟨S100000x128, .f32⟩ : BufTy).Contents (Elt F)),
    binary main_v87 main_v84 main_v88 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v86) (TRef.of (T := ⟨S100000x128, .f32⟩) main_v84) (TRef.of (T := ⟨S100000x128, .f32⟩) main_v88) (TRef.of (T := ⟨S100000x128, .f32⟩) main_v89) select ]

/-- The head: residual, projection, layer normalisation. -/
abbrev opsH : List (HloOp τ sig (Elt F)) :=
  [ binary main_v7 main_v89 main_v90 (addf : (⟨S100000x128, .f32⟩ : BufTy).Contents (Elt F) → (⟨S100000x128, .f32⟩ : BufTy).Contents (Elt F) → (⟨S100000x128, .f32⟩ : BufTy).Contents (Elt F)),
    binary main_v90 main_arg9 main_v91 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v92 (broadcastInDim S1x128 ![1] bcast_S128_S1x128_1 : (⟨S128, .f32⟩ : BufTy).Contents (Elt F) → (⟨S1x128, .f32⟩ : BufTy).Contents (Elt F)),
    unary main_v92 main_v93 (broadcastInDim S100000x128 ![0, 1] bcast_S1x128_S100000x128_0_1 : (⟨S1x128, .f32⟩ : BufTy).Contents (Elt F) → (⟨S100000x128, .f32⟩ : BufTy).Contents (Elt F)),
    binary main_v91 main_v93 main_v94 (addf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x00000000#32),
    binary main_v94 main_cst_13 main_v95 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v95 main_v96 (broadcastInDim S100000x1 ![0] bcast_S100000_S100000x1_0 : (⟨S100000, .f32⟩ : BufTy).Contents (Elt F) → (⟨S100000x1, .f32⟩ : BufTy).Contents (Elt F)),
    nullary main_cst_14 (constant S_ .f32 0x43000000#32),
    unary main_cst_14 main_v97 (broadcastInDim S100000x1 ![] bcast_S_S100000x1 : (⟨S_, .f32⟩ : BufTy).Contents (Elt F) → (⟨S100000x1, .f32⟩ : BufTy).Contents (Elt F)),
    binary main_v96 main_v97 main_v98 (Host.divf : (⟨S100000x1, .f32⟩ : BufTy).Contents (Elt F) → (⟨S100000x1, .f32⟩ : BufTy).Contents (Elt F) → (⟨S100000x1, .f32⟩ : BufTy).Contents (Elt F)),
    unary main_v98 main_v99 (broadcastInDim S100000x128 ![0, 1] bcast_S100000x1_S100000x128_0_1 : (⟨S100000x1, .f32⟩ : BufTy).Contents (Elt F) → (⟨S100000x128, .f32⟩ : BufTy).Contents (Elt F)),
    binary main_v94 main_v99 main_v100 (subf : (⟨S100000x128, .f32⟩ : BufTy).Contents (Elt F) → (⟨S100000x128, .f32⟩ : BufTy).Contents (Elt F) → (⟨S100000x128, .f32⟩ : BufTy).Contents (Elt F)),
    binary main_v100 main_v100 main_v101 (mulf : (⟨S100000x128, .f32⟩ : BufTy).Contents (Elt F) → (⟨S100000x128, .f32⟩ : BufTy).Contents (Elt F) → (⟨S100000x128, .f32⟩ : BufTy).Contents (Elt F)),
    nullary main_cst_15 (constant S_ .f32 0x00000000#32),
    binary main_v101 main_cst_15 main_v102 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v102 main_v103 (broadcastInDim S100000x1 ![0] bcast_S100000_S100000x1_0 : (⟨S100000, .f32⟩ : BufTy).Contents (Elt F) → (⟨S100000x1, .f32⟩ : BufTy).Contents (Elt F)),
    nullary main_cst_16 (constant S_ .f32 0x43000000#32),
    unary main_cst_16 main_v104 (broadcastInDim S100000x1 ![] bcast_S_S100000x1 : (⟨S_, .f32⟩ : BufTy).Contents (Elt F) → (⟨S100000x1, .f32⟩ : BufTy).Contents (Elt F)),
    binary main_v103 main_v104 main_v105 (Host.divf : (⟨S100000x1, .f32⟩ : BufTy).Contents (Elt F) → (⟨S100000x1, .f32⟩ : BufTy).Contents (Elt F) → (⟨S100000x1, .f32⟩ : BufTy).Contents (Elt F)),
    unary main_v98 main_v106 (broadcastInDim S100000x128 ![0, 1] bcast_S100000x1_S100000x128_0_1 : (⟨S100000x1, .f32⟩ : BufTy).Contents (Elt F) → (⟨S100000x128, .f32⟩ : BufTy).Contents (Elt F)),
    binary main_v94 main_v106 main_v107 (subf : (⟨S100000x128, .f32⟩ : BufTy).Contents (Elt F) → (⟨S100000x128, .f32⟩ : BufTy).Contents (Elt F) → (⟨S100000x128, .f32⟩ : BufTy).Contents (Elt F)),
    nullary main_cst_17 (constant S_ .f32 0x3727C5AC#32),
    unary main_cst_17 main_v108 (broadcastInDim S100000x1 ![] bcast_S_S100000x1 : (⟨S_, .f32⟩ : BufTy).Contents (Elt F) → (⟨S100000x1, .f32⟩ : BufTy).Contents (Elt F)),
    binary main_v105 main_v108 main_v109 (addf : (⟨S100000x1, .f32⟩ : BufTy).Contents (Elt F) → (⟨S100000x1, .f32⟩ : BufTy).Contents (Elt F) → (⟨S100000x1, .f32⟩ : BufTy).Contents (Elt F)),
    unary main_v109 main_v110 (Host.rsqrt : (⟨S100000x1, .f32⟩ : BufTy).Contents (Elt F) → (⟨S100000x1, .f32⟩ : BufTy).Contents (Elt F)),
    unary main_v110 main_v111 (broadcastInDim S100000x128 ![0, 1] bcast_S100000x1_S100000x128_0_1 : (⟨S100000x1, .f32⟩ : BufTy).Contents (Elt F) → (⟨S100000x128, .f32⟩ : BufTy).Contents (Elt F)),
    binary main_v107 main_v111 main_v112 (mulf : (⟨S100000x128, .f32⟩ : BufTy).Contents (Elt F) → (⟨S100000x128, .f32⟩ : BufTy).Contents (Elt F) → (⟨S100000x128, .f32⟩ : BufTy).Contents (Elt F)),
    unary main_arg11 main_v113 (broadcastInDim S1x128 ![1] bcast_S128_S1x128_1 : (⟨S128, .f32⟩ : BufTy).Contents (Elt F) → (⟨S1x128, .f32⟩ : BufTy).Contents (Elt F)),
    unary main_v113 main_v114 (broadcastInDim S100000x128 ![0, 1] bcast_S1x128_S100000x128_0_1 : (⟨S1x128, .f32⟩ : BufTy).Contents (Elt F) → (⟨S100000x128, .f32⟩ : BufTy).Contents (Elt F)),
    binary main_v112 main_v114 main_v115 (mulf : (⟨S100000x128, .f32⟩ : BufTy).Contents (Elt F) → (⟨S100000x128, .f32⟩ : BufTy).Contents (Elt F) → (⟨S100000x128, .f32⟩ : BufTy).Contents (Elt F)),
    unary main_arg12 main_v116 (broadcastInDim S1x128 ![1] bcast_S128_S1x128_1 : (⟨S128, .f32⟩ : BufTy).Contents (Elt F) → (⟨S1x128, .f32⟩ : BufTy).Contents (Elt F)),
    unary main_v116 main_v117 (broadcastInDim S100000x128 ![0, 1] bcast_S1x128_S100000x128_0_1 : (⟨S1x128, .f32⟩ : BufTy).Contents (Elt F) → (⟨S100000x128, .f32⟩ : BufTy).Contents (Elt F)),
    binary main_v115 main_v117 main_v118 (addf : (⟨S100000x128, .f32⟩ : BufTy).Contents (Elt F) → (⟨S100000x128, .f32⟩ : BufTy).Contents (Elt F) → (⟨S100000x128, .f32⟩ : BufTy).Contents (Elt F)) ]

/-- The program's operation list is the five stretches in order. -/
theorem ops_split : (Cert.ReferenceIdeal.RunP.ops (F := Ideal))
    = opsA (F := Ideal) ++ (opsL0 (F := Ideal) ++ (opsL1 (F := Ideal) ++ (opsL2 (F := Ideal) ++ opsH (F := Ideal)))) := rfl

/-! ### What a stretch does not write, it keeps -/

/-- A written reference's singleton lies in the set of any list that holds the reference. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The references the projections' stretch writes. -/
abbrev wA : List (Ref sig .tc) :=
  [main_v0, main_v1, main_v2, main_v3, main_v4, main_v5, main_v6, main_v7, main_v8, main_v9, main_v10, main_v11]
theorem wA_sub : ((opsA (F := Ideal))).Forall fun op => op.writes ⊆ ((wA).map (Proc.devRef (τ := τ) .tc)).toFinset :=
  ⟨single_sub_of_mem (y := main_v0) (by decide),
   single_sub_of_mem (y := main_v1) (by decide),
   single_sub_of_mem (y := main_v2) (by decide),
   single_sub_of_mem (y := main_v3) (by decide),
   single_sub_of_mem (y := main_v4) (by decide),
   single_sub_of_mem (y := main_v5) (by decide),
   single_sub_of_mem (y := main_v6) (by decide),
   single_sub_of_mem (y := main_v7) (by decide),
   single_sub_of_mem (y := main_v8) (by decide),
   single_sub_of_mem (y := main_v9) (by decide),
   single_sub_of_mem (y := main_v10) (by decide),
   single_sub_of_mem (y := main_v11) (by decide)⟩
/-- A reference the projections' stretch does not write keeps its contents. -/
theorem keepA (V : Valuation τ sig (Elt Ideal)) {r : Ref sig .tc} (hr : r ∉ wA) :
    after (opsA (F := Ideal)) V (Proc.devRef .tc r) = V (Proc.devRef .tc r) :=
  after_of_writes_sub (opsA (F := Ideal)) V wA_sub hr

/-- The references layer 0 writes. -/
abbrev wL0 : List (Ref sig .tc) :=
  [main_c, main_v12, main_v13, main_c_0, main_v14, main_v15, main_v16, main_v17, main_v18, main_v19, main_call0_cst, main_call0_v0, main_v20, main_cst, main_v21, main_v22, main_v23, main_v24, main_v25, main_v26, main_v27, main_v28, main_v29, main_v30, main_v31, main_v32, main_cst_1, main_v33, main_v34, main_cst_2, main_v35, main_v36, main_v37]
theorem wL0_sub : ((opsL0 (F := Ideal))).Forall fun op => op.writes ⊆ ((wL0).map (Proc.devRef (τ := τ) .tc)).toFinset :=
  ⟨single_sub_of_mem (y := main_c) (by decide),
   single_sub_of_mem (y := main_v12) (by decide),
   single_sub_of_mem (y := main_v13) (by decide),
   single_sub_of_mem (y := main_c_0) (by decide),
   single_sub_of_mem (y := main_v14) (by decide),
   single_sub_of_mem (y := main_v15) (by decide),
   single_sub_of_mem (y := main_v16) (by decide),
   single_sub_of_mem (y := main_v17) (by decide),
   single_sub_of_mem (y := main_v18) (by decide),
   single_sub_of_mem (y := main_v19) (by decide),
   single_sub_of_mem (y := main_call0_cst) (by decide),
   single_sub_of_mem (y := main_call0_v0) (by decide),
   single_sub_of_mem (y := main_v20) (by decide),
   single_sub_of_mem (y := main_cst) (by decide),
   single_sub_of_mem (y := main_v21) (by decide),
   single_sub_of_mem (y := main_v22) (by decide),
   single_sub_of_mem (y := main_v23) (by decide),
   single_sub_of_mem (y := main_v24) (by decide),
   single_sub_of_mem (y := main_v25) (by decide),
   single_sub_of_mem (y := main_v26) (by decide),
   single_sub_of_mem (y := main_v27) (by decide),
   single_sub_of_mem (y := main_v28) (by decide),
   single_sub_of_mem (y := main_v29) (by decide),
   single_sub_of_mem (y := main_v30) (by decide),
   single_sub_of_mem (y := main_v31) (by decide),
   single_sub_of_mem (y := main_v32) (by decide),
   single_sub_of_mem (y := main_cst_1) (by decide),
   single_sub_of_mem (y := main_v33) (by decide),
   single_sub_of_mem (y := main_v34) (by decide),
   single_sub_of_mem (y := main_cst_2) (by decide),
   single_sub_of_mem (y := main_v35) (by decide),
   single_sub_of_mem (y := main_v36) (by decide),
   single_sub_of_mem (y := main_v37) (by decide)⟩
/-- A reference layer 0 does not write keeps its contents. -/
theorem keepL0 (V : Valuation τ sig (Elt Ideal)) {r : Ref sig .tc} (hr : r ∉ wL0) :
    after (opsL0 (F := Ideal)) V (Proc.devRef .tc r) = V (Proc.devRef .tc r) :=
  after_of_writes_sub (opsL0 (F := Ideal)) V wL0_sub hr

/-- The references layer 1 writes. -/
abbrev wL1 : List (Ref sig .tc) :=
  [main_c_3, main_v38, main_v39, main_c_4, main_v40, main_v41, main_v42, main_v43, main_v44, main_v45, main_call2_cst, main_call2_v0, main_v46, main_cst_5, main_v47, main_v48, main_v49, main_v50, main_v51, main_v52, main_v53, main_v54, main_v55, main_v56, main_v57, main_v58, main_cst_6, main_v59, main_v60, main_cst_7, main_v61, main_v62, main_v63]
theorem wL1_sub : ((opsL1 (F := Ideal))).Forall fun op => op.writes ⊆ ((wL1).map (Proc.devRef (τ := τ) .tc)).toFinset :=
  ⟨single_sub_of_mem (y := main_c_3) (by decide),
   single_sub_of_mem (y := main_v38) (by decide),
   single_sub_of_mem (y := main_v39) (by decide),
   single_sub_of_mem (y := main_c_4) (by decide),
   single_sub_of_mem (y := main_v40) (by decide),
   single_sub_of_mem (y := main_v41) (by decide),
   single_sub_of_mem (y := main_v42) (by decide),
   single_sub_of_mem (y := main_v43) (by decide),
   single_sub_of_mem (y := main_v44) (by decide),
   single_sub_of_mem (y := main_v45) (by decide),
   single_sub_of_mem (y := main_call2_cst) (by decide),
   single_sub_of_mem (y := main_call2_v0) (by decide),
   single_sub_of_mem (y := main_v46) (by decide),
   single_sub_of_mem (y := main_cst_5) (by decide),
   single_sub_of_mem (y := main_v47) (by decide),
   single_sub_of_mem (y := main_v48) (by decide),
   single_sub_of_mem (y := main_v49) (by decide),
   single_sub_of_mem (y := main_v50) (by decide),
   single_sub_of_mem (y := main_v51) (by decide),
   single_sub_of_mem (y := main_v52) (by decide),
   single_sub_of_mem (y := main_v53) (by decide),
   single_sub_of_mem (y := main_v54) (by decide),
   single_sub_of_mem (y := main_v55) (by decide),
   single_sub_of_mem (y := main_v56) (by decide),
   single_sub_of_mem (y := main_v57) (by decide),
   single_sub_of_mem (y := main_v58) (by decide),
   single_sub_of_mem (y := main_cst_6) (by decide),
   single_sub_of_mem (y := main_v59) (by decide),
   single_sub_of_mem (y := main_v60) (by decide),
   single_sub_of_mem (y := main_cst_7) (by decide),
   single_sub_of_mem (y := main_v61) (by decide),
   single_sub_of_mem (y := main_v62) (by decide),
   single_sub_of_mem (y := main_v63) (by decide)⟩
/-- A reference layer 1 does not write keeps its contents. -/
theorem keepL1 (V : Valuation τ sig (Elt Ideal)) {r : Ref sig .tc} (hr : r ∉ wL1) :
    after (opsL1 (F := Ideal)) V (Proc.devRef .tc r) = V (Proc.devRef .tc r) :=
  after_of_writes_sub (opsL1 (F := Ideal)) V wL1_sub hr

/-- The references layer 2 writes. -/
abbrev wL2 : List (Ref sig .tc) :=
  [main_c_8, main_v64, main_v65, main_c_9, main_v66, main_v67, main_v68, main_v69, main_v70, main_v71, main_call4_cst, main_call4_v0, main_v72, main_cst_10, main_v73, main_v74, main_v75, main_v76, main_v77, main_v78, main_v79, main_v80, main_v81, main_v82, main_v83, main_v84, main_cst_11, main_v85, main_v86, main_cst_12, main_v87, main_v88, main_v89]
theorem wL2_sub : ((opsL2 (F := Ideal))).Forall fun op => op.writes ⊆ ((wL2).map (Proc.devRef (τ := τ) .tc)).toFinset :=
  ⟨single_sub_of_mem (y := main_c_8) (by decide),
   single_sub_of_mem (y := main_v64) (by decide),
   single_sub_of_mem (y := main_v65) (by decide),
   single_sub_of_mem (y := main_c_9) (by decide),
   single_sub_of_mem (y := main_v66) (by decide),
   single_sub_of_mem (y := main_v67) (by decide),
   single_sub_of_mem (y := main_v68) (by decide),
   single_sub_of_mem (y := main_v69) (by decide),
   single_sub_of_mem (y := main_v70) (by decide),
   single_sub_of_mem (y := main_v71) (by decide),
   single_sub_of_mem (y := main_call4_cst) (by decide),
   single_sub_of_mem (y := main_call4_v0) (by decide),
   single_sub_of_mem (y := main_v72) (by decide),
   single_sub_of_mem (y := main_cst_10) (by decide),
   single_sub_of_mem (y := main_v73) (by decide),
   single_sub_of_mem (y := main_v74) (by decide),
   single_sub_of_mem (y := main_v75) (by decide),
   single_sub_of_mem (y := main_v76) (by decide),
   single_sub_of_mem (y := main_v77) (by decide),
   single_sub_of_mem (y := main_v78) (by decide),
   single_sub_of_mem (y := main_v79) (by decide),
   single_sub_of_mem (y := main_v80) (by decide),
   single_sub_of_mem (y := main_v81) (by decide),
   single_sub_of_mem (y := main_v82) (by decide),
   single_sub_of_mem (y := main_v83) (by decide),
   single_sub_of_mem (y := main_v84) (by decide),
   single_sub_of_mem (y := main_cst_11) (by decide),
   single_sub_of_mem (y := main_v85) (by decide),
   single_sub_of_mem (y := main_v86) (by decide),
   single_sub_of_mem (y := main_cst_12) (by decide),
   single_sub_of_mem (y := main_v87) (by decide),
   single_sub_of_mem (y := main_v88) (by decide),
   single_sub_of_mem (y := main_v89) (by decide)⟩
/-- A reference layer 2 does not write keeps its contents. -/
theorem keepL2 (V : Valuation τ sig (Elt Ideal)) {r : Ref sig .tc} (hr : r ∉ wL2) :
    after (opsL2 (F := Ideal)) V (Proc.devRef .tc r) = V (Proc.devRef .tc r) :=
  after_of_writes_sub (opsL2 (F := Ideal)) V wL2_sub hr

/-- The references the head writes. -/
abbrev wH : List (Ref sig .tc) :=
  [main_v90, main_v91, main_v92, main_v93, main_v94, main_cst_13, main_v95, main_v96, main_cst_14, main_v97, main_v98, main_v99, main_v100, main_v101, main_cst_15, main_v102, main_v103, main_cst_16, main_v104, main_v105, main_v106, main_v107, main_cst_17, main_v108, main_v109, main_v110, main_v111, main_v112, main_v113, main_v114, main_v115, main_v116, main_v117, main_v118]
theorem wH_sub : ((opsH (F := Ideal))).Forall fun op => op.writes ⊆ ((wH).map (Proc.devRef (τ := τ) .tc)).toFinset :=
  ⟨single_sub_of_mem (y := main_v90) (by decide),
   single_sub_of_mem (y := main_v91) (by decide),
   single_sub_of_mem (y := main_v92) (by decide),
   single_sub_of_mem (y := main_v93) (by decide),
   single_sub_of_mem (y := main_v94) (by decide),
   single_sub_of_mem (y := main_cst_13) (by decide),
   single_sub_of_mem (y := main_v95) (by decide),
   single_sub_of_mem (y := main_v96) (by decide),
   single_sub_of_mem (y := main_cst_14) (by decide),
   single_sub_of_mem (y := main_v97) (by decide),
   single_sub_of_mem (y := main_v98) (by decide),
   single_sub_of_mem (y := main_v99) (by decide),
   single_sub_of_mem (y := main_v100) (by decide),
   single_sub_of_mem (y := main_v101) (by decide),
   single_sub_of_mem (y := main_cst_15) (by decide),
   single_sub_of_mem (y := main_v102) (by decide),
   single_sub_of_mem (y := main_v103) (by decide),
   single_sub_of_mem (y := main_cst_16) (by decide),
   single_sub_of_mem (y := main_v104) (by decide),
   single_sub_of_mem (y := main_v105) (by decide),
   single_sub_of_mem (y := main_v106) (by decide),
   single_sub_of_mem (y := main_v107) (by decide),
   single_sub_of_mem (y := main_cst_17) (by decide),
   single_sub_of_mem (y := main_v108) (by decide),
   single_sub_of_mem (y := main_v109) (by decide),
   single_sub_of_mem (y := main_v110) (by decide),
   single_sub_of_mem (y := main_v111) (by decide),
   single_sub_of_mem (y := main_v112) (by decide),
   single_sub_of_mem (y := main_v113) (by decide),
   single_sub_of_mem (y := main_v114) (by decide),
   single_sub_of_mem (y := main_v115) (by decide),
   single_sub_of_mem (y := main_v116) (by decide),
   single_sub_of_mem (y := main_v117) (by decide),
   single_sub_of_mem (y := main_v118) (by decide)⟩
/-- A reference the head does not write keeps its contents. -/
theorem keepH (V : Valuation τ sig (Elt Ideal)) {r : Ref sig .tc} (hr : r ∉ wH) :
    after (opsH (F := Ideal)) V (Proc.devRef .tc r) = V (Proc.devRef .tc r) :=
  after_of_writes_sub (opsH (F := Ideal)) V wH_sub hr

/-! ### The projections' stretch -/

/-- The edge list's first row, reshaped, is the sources. -/
theorem A_src (V : Valuation τ sig (Elt Ideal)) :
    after (opsA (F := Ideal)) V (Proc.devRef .tc main_v1) = Cert.Net.srcOf (V (Proc.devRef .tc main_arg2)) := by
  after_results <;> rfl
/-- The edge list's second row, reshaped, is the destinations. -/
theorem A_dst (V : Valuation τ sig (Elt Ideal)) :
    after (opsA (F := Ideal)) V (Proc.devRef .tc main_v3) = Cert.Net.dstOf (V (Proc.devRef .tc main_arg2)) := by
  after_results <;> rfl
/-- The node projection is the dense layer of the node features. -/
theorem A_node (V : Valuation τ sig (Elt Ideal)) :
    after (opsA (F := Ideal)) V (Proc.devRef .tc main_v7)
      = Cert.Spec.dense (V (Proc.devRef .tc main_arg0)) (V (Proc.devRef .tc main_arg3)) (V (Proc.devRef .tc main_arg4)) := by
  after_results
  exact Cert.RefStage.denseN_eq _ _ _
/-- The edge projection is the dense layer of the edge attributes. -/
theorem A_edge (V : Valuation τ sig (Elt Ideal)) :
    after (opsA (F := Ideal)) V (Proc.devRef .tc main_v11)
      = Cert.Spec.dense (V (Proc.devRef .tc main_arg1)) (V (Proc.devRef .tc main_arg5)) (V (Proc.devRef .tc main_arg6)) := by
  after_results
  exact Cert.RefStage.denseE_eq _ _ _

/-! ### One layer, over the two rows of the edge list -/

/-- A message-passing layer with the sources and destinations given as rows: gather, message, scatter-add, update. -/
def layerAt (h : FVec Ideal S100000x128 .f32) (e : FVec Ideal S1600000x128 .f32) (src dst : IVec S1600000 32)
    (W : FVec Ideal S128x128 .f32) (b : FVec Ideal S128 .f32) : FVec Ideal S100000x128 .f32 :=
  Cert.Spec.upd h
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Cert.Spec.msg (Host.gather gather_S100000x128_S1600000x1_S1600000x128_1_0_n_n_0_1_1128 h (Cert.Net.widx src)) e))
    W b

/-- The network's layer is this one at the edge list's two rows. -/
theorem layer_eq (h : FVec Ideal S100000x128 .f32) (e : FVec Ideal S1600000x128 .f32) (ei : IVec S2x1600000 32)
    (W : FVec Ideal S128x128 .f32) (b : FVec Ideal S128 .f32) :
    Cert.Net.layer h e ei W b = layerAt h e (Cert.Net.srcOf ei) (Cert.Net.dstOf ei) W b := rfl

/-- Layer 0 reads the node projection and the first weight block. -/
theorem L0_out (V : Valuation τ sig (Elt Ideal)) :
    after (opsL0 (F := Ideal)) V (Proc.devRef .tc main_v37)
      = layerAt (V (Proc.devRef .tc main_v7)) (V (Proc.devRef .tc main_v11)) (V (Proc.devRef .tc main_v1)) (V (Proc.devRef .tc main_v3))
          (Cert.Net.w0 (V (Proc.devRef .tc main_arg7))) (Cert.Net.b0 (V (Proc.devRef .tc main_arg8))) := by
  after_results_simp
  unfold layerAt
  rw [← Cert.RefStage.upd_eq, ← Cert.RefStage.msg_eq]
  rfl

/-- Layer 1 reads layer 0's state and the second weight block. -/
theorem L1_out (V : Valuation τ sig (Elt Ideal)) :
    after (opsL1 (F := Ideal)) V (Proc.devRef .tc main_v63)
      = layerAt (V (Proc.devRef .tc main_v37)) (V (Proc.devRef .tc main_v11)) (V (Proc.devRef .tc main_v1)) (V (Proc.devRef .tc main_v3))
          (Cert.Net.w1 (V (Proc.devRef .tc main_arg7))) (Cert.Net.b1 (V (Proc.devRef .tc main_arg8))) := by
  after_results_simp
  unfold layerAt
  rw [← Cert.RefStage.upd_eq, ← Cert.RefStage.msg_eq]
  rfl

/-- Layer 2 reads layer 1's state and the third weight block. -/
theorem L2_out (V : Valuation τ sig (Elt Ideal)) :
    after (opsL2 (F := Ideal)) V (Proc.devRef .tc main_v89)
      = layerAt (V (Proc.devRef .tc main_v63)) (V (Proc.devRef .tc main_v11)) (V (Proc.devRef .tc main_v1)) (V (Proc.devRef .tc main_v3))
          (Cert.Net.w2 (V (Proc.devRef .tc main_arg7))) (Cert.Net.b2 (V (Proc.devRef .tc main_arg8))) := by
  after_results_simp
  unfold layerAt
  rw [← Cert.RefStage.upd_eq, ← Cert.RefStage.msg_eq]
  rfl

/-! ### The head -/

/-- The head's stretch composes to the head's operations on the node projection and the last layer's state. -/
theorem H_out (V : Valuation τ sig (Elt Ideal)) :
    after (opsH (F := Ideal)) V (Proc.devRef .tc main_v118)
      = Cert.RefStage.headOps (V (Proc.devRef .tc main_v7)) (V (Proc.devRef .tc main_v89)) (V (Proc.devRef .tc main_arg9)) (V (Proc.devRef .tc main_arg10))
          (V (Proc.devRef .tc main_arg11)) (V (Proc.devRef .tc main_arg12)) := by
  after_results_simp
  rfl

/-! ### What the later stretches read of the earlier ones -/

/-- The values every later stretch reads: the edge list's rows, the two projections, the stacked and the head's parameters. -/
structure Carried (V : Valuation τ sig (Elt Ideal)) (src dst : IVec S1600000 32) (h0 : FVec Ideal S100000x128 .f32)
    (e : FVec Ideal S1600000x128 .f32) (Wc : FVec Ideal S3x128x128 .f32) (bc : FVec Ideal S3x128 .f32)
    (Wh : FVec Ideal S128x128 .f32) (bh g bt : FVec Ideal S128 .f32) : Prop where
  src : V (Proc.devRef .tc main_v1) = src
  dst : V (Proc.devRef .tc main_v3) = dst
  h0 : V (Proc.devRef .tc main_v7) = h0
  e : V (Proc.devRef .tc main_v11) = e
  wc : V (Proc.devRef .tc main_arg7) = Wc
  bc : V (Proc.devRef .tc main_arg8) = bc
  wh : V (Proc.devRef .tc main_arg9) = Wh
  bh : V (Proc.devRef .tc main_arg10) = bh
  g : V (Proc.devRef .tc main_arg11) = g
  bt : V (Proc.devRef .tc main_arg12) = bt

/-- The references those values sit at. -/
abbrev carriedRefs : List (Ref sig .tc) := [main_v1, main_v3, main_v7, main_v11, main_arg7, main_arg8, main_arg9, main_arg10, main_arg11, main_arg12]

/-- A valuation that agrees on those references carries the same values. -/
theorem Carried.keep {V V' : Valuation τ sig (Elt Ideal)} {src dst : IVec S1600000 32} {h0 : FVec Ideal S100000x128 .f32}
    {e : FVec Ideal S1600000x128 .f32} {Wc : FVec Ideal S3x128x128 .f32} {bc : FVec Ideal S3x128 .f32}
    {Wh : FVec Ideal S128x128 .f32} {bh g bt : FVec Ideal S128 .f32}
    (hk : ∀ r ∈ carriedRefs, V' (Proc.devRef .tc r) = V (Proc.devRef .tc r))
    (h : Carried V src dst h0 e Wc bc Wh bh g bt) : Carried V' src dst h0 e Wc bc Wh bh g bt :=
  ⟨(hk main_v1 (by decide)).trans h.src,
   (hk main_v3 (by decide)).trans h.dst,
   (hk main_v7 (by decide)).trans h.h0,
   (hk main_v11 (by decide)).trans h.e,
   (hk main_arg7 (by decide)).trans h.wc,
   (hk main_arg8 (by decide)).trans h.bc,
   (hk main_arg9 (by decide)).trans h.wh,
   (hk main_arg10 (by decide)).trans h.bh,
   (hk main_arg11 (by decide)).trans h.g,
   (hk main_arg12 (by decide)).trans h.bt⟩

theorem carried_notA : ∀ r ∈ [main_arg7, main_arg8, main_arg9, main_arg10, main_arg11, main_arg12], r ∉ wA := by decide
theorem carried_notL0 : ∀ r ∈ carriedRefs, r ∉ wL0 := by decide
theorem carried_notL1 : ∀ r ∈ carriedRefs, r ∉ wL1 := by decide
theorem carried_notL2 : ∀ r ∈ carriedRefs, r ∉ wL2 := by decide

/-! ### The five stretches in a row -/

/-- From any contents, the five stretches leave the network's function of the argument buffers in the result buffer. -/
theorem result_of (V0 : Valuation τ sig (Elt Ideal)) :
    after (opsH (F := Ideal)) (after (opsL2 (F := Ideal)) (after (opsL1 (F := Ideal)) (after (opsL0 (F := Ideal)) (after (opsA (F := Ideal)) V0)))) (Proc.devRef .tc main_v118)
      = Cert.Net.out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  -- the projections
  have cA : Carried (after (opsA (F := Ideal)) V0) (Cert.Net.srcOf (V0 (Proc.devRef .tc main_arg2))) (Cert.Net.dstOf (V0 (Proc.devRef .tc main_arg2)))
      (Cert.Spec.dense (V0 (Proc.devRef .tc main_arg0)) (V0 (Proc.devRef .tc main_arg3)) (V0 (Proc.devRef .tc main_arg4)))
      (Cert.Spec.dense (V0 (Proc.devRef .tc main_arg1)) (V0 (Proc.devRef .tc main_arg5)) (V0 (Proc.devRef .tc main_arg6)))
      (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) :=
    ⟨A_src V0, A_dst V0, A_node V0, A_edge V0,
     keepA V0 (carried_notA main_arg7 (by decide)), keepA V0 (carried_notA main_arg8 (by decide)), keepA V0 (carried_notA main_arg9 (by decide)), keepA V0 (carried_notA main_arg10 (by decide)), keepA V0 (carried_notA main_arg11 (by decide)), keepA V0 (carried_notA main_arg12 (by decide))⟩
  generalize after (opsA (F := Ideal)) V0 = VA at cA ⊢
  -- layer 0
  have h1 := L0_out VA
  rw [cA.h0, cA.e, cA.src, cA.dst, cA.wc, cA.bc, ← layer_eq] at h1
  have c1 := cA.keep (V' := after (opsL0 (F := Ideal)) VA) fun r hr => keepL0 VA (carried_notL0 r hr)
  generalize after (opsL0 (F := Ideal)) VA = V1 at h1 c1 ⊢
  -- layer 1
  have h2 := L1_out V1
  rw [h1, c1.e, c1.src, c1.dst, c1.wc, c1.bc, ← layer_eq] at h2
  have c2 := c1.keep (V' := after (opsL1 (F := Ideal)) V1) fun r hr => keepL1 V1 (carried_notL1 r hr)
  generalize after (opsL1 (F := Ideal)) V1 = V2 at h2 c2 ⊢
  -- layer 2
  have h3 := L2_out V2
  rw [h2, c2.e, c2.src, c2.dst, c2.wc, c2.bc, ← layer_eq] at h3
  have c3 := c2.keep (V' := after (opsL2 (F := Ideal)) V2) fun r hr => keepL2 V2 (carried_notL2 r hr)
  generalize after (opsL2 (F := Ideal)) V2 = V3 at h3 c3 ⊢
  -- the head
  rw [H_out, h3, c3.h0, c3.wh, c3.bh, c3.g, c3.bt, Cert.RefStage.head_eq]
  rfl

variable (m : (ℓ : Loc nD τ sig) → Buf (Elt Ideal) ℓ) (c : Dev nD)

/-- The result buffer after all operations holds the network's function of the arguments. -/
theorem result :
    after (Cert.ReferenceIdeal.RunP.ops (F := Ideal)) (launchContents m c) (Proc.devRef .tc main_v118)
      = Cert.Net.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [ops_split, StableHlo.after_append, StableHlo.after_append, StableHlo.after_append, StableHlo.after_append]
  exact result_of (launchContents m c)

/-- No operation writes an argument: each ends as launched. -/
theorem kept (b : Ref sig .tc)
    (hb : b ∈ [main_arg0, main_arg1, main_arg2, main_arg3, main_arg4, main_arg5, main_arg6, main_arg7, main_arg8, main_arg9, main_arg10, main_arg11, main_arg12]) :
    after (Cert.ReferenceIdeal.RunP.ops (F := Ideal)) (launchContents m c) (Proc.devRef .tc b) = m ((c.tc : Thread nD τ).loc b) := by
  have nA : ∀ r ∈ [main_arg0, main_arg1, main_arg2, main_arg3, main_arg4, main_arg5, main_arg6, main_arg7, main_arg8, main_arg9, main_arg10, main_arg11, main_arg12], r ∉ wA ∧ r ∉ wL0 ∧ r ∉ wL1 ∧ r ∉ wL2 ∧ r ∉ wH := by decide
  obtain ⟨hA, h0, h1, h2, hH⟩ := nA b hb
  rw [ops_split, StableHlo.after_append, StableHlo.after_append, StableHlo.after_append, StableHlo.after_append,
    keepH _ hH, keepL2 _ h2, keepL1 _ h1, keepL0 _ h0, keepA _ hA]

end Cert.ReferenceIdeal.RV

end
-- ==== Proof.lean ====
/-
  The kernel — a three-layer message-passing network on a graph of 100,000 nodes and 1,600,000 edges — against its jnp
  reference, over the extended reals. Both programs compute one function of the thirteen argument arrays (Proof/Net.lean):
  the node state `h₀ = x·W_node + b_node` and the edge features `e = edge_attr·W_edge + b_edge`; three times, the rows of
  `h` gathered at the edges' sources, `max(h_src + e, 0)`, summed into the destination rows, and
  `h ← leaky((h + agg)·W_l + b_l)`; finally the layer normalisation of `(h₀ + h₃)·W_head + b_head`.
  The kernel program computes the projections, the rectified sums, the updates and the head in nine pallas_calls over
  row blocks (5,000 node rows or 8,000 edge rows at a grid point), and the gather and scatter-add on the host; the reference
  computes everything on the host. Row block by row block each pallas_call's output array is the same function of its
  input arrays as the reference's whole-array operations (Proof/K*.lean against Proof/R*.lean, both through
  Proof/Spec.lean): a product with a matrix is a sum over the contracted axis on both sides, a change of float format
  is the identity, a lane sum is the sum. The one place the programs differ is the row look-up: the kernel program's
  `jnp.take` replaces a row whose index is out of range by the not-a-number word where the reference's indexing clamps;
  under the precondition every source index is a node, the range test passes on every edge (Proof/KTake.lean,
  Proof/PreSrc.lean) and the two look-ups are one gather. No law of arithmetic beyond that is used: the two sides are the
  same expression of the arguments, so the finiteness of the float inputs is not needed.
  The kernel program's run is the generated frame's launch called once more with the result buffer named
  (Proof/KRun.lean), read back through the fold of its sixteen segments (Proof/KNet.lean); the reference's run is the
  fold of its 145 host operations (Proof/RefRun.lean), read in five stretches (Proof/RNet.lean).
-/
import proofs.«412457_j20298015441381_1_alg».proof.Defs
import proofs.«412457_j20298015441381_1_alg».proof.Proof.Gen.Kernel
import proofs.«412457_j20298015441381_1_alg».proof.Proof.Gen.Kernel.Frame
import proofs.«412457_j20298015441381_1_alg».proof.Proof.Gen.KernelIdeal
import proofs.«412457_j20298015441381_1_alg».proof.Proof.Gen.KernelIdeal.Frame
import proofs.«412457_j20298015441381_1_alg».proof.Proof.Gen.ReferenceIdeal
import proofs.«412457_j20298015441381_1_alg».proof.Proof.Gen.Pre_finite_inputs
import proofs.«412457_j20298015441381_1_alg».proof.Proof.KRun
import proofs.«412457_j20298015441381_1_alg».proof.Proof.KNet
import proofs.«412457_j20298015441381_1_alg».proof.Proof.KBridge
import proofs.«412457_j20298015441381_1_alg».proof.Proof.PreSrc
import proofs.«412457_j20298015441381_1_alg».proof.Proof.RefRun
import proofs.«412457_j20298015441381_1_alg».proof.Proof.RNet
import Idealize.ShloMosaic.Adequacy
import Idealize.ShloMosaic.Init

noncomputable section

namespace Cert.Proof

open Idealize.ShloMosaic Idealize.SL.Sem

/-- The word-level kernel program runs and leaves its arguments: the generated frame. -/
theorem frame_k : Cert.frame_Kernel := fun m ρ _ => Cert.Kernel.Gen.frame m ρ

/-- The idealized kernel program likewise. -/
theorem frame_ki : Cert.frame_KernelIdeal := fun m ρ _ => Cert.KernelIdeal.Gen.frame m ρ

/-- The reference runs and leaves its arguments: no host operation writes one. -/
theorem frame_ri : Cert.frame_ReferenceIdeal := fun m ρ _ =>
  (θ_run Cert.ReferenceIdeal.defs _ _).mono (fun r h c =>
    ⟨(h c Cert.ReferenceIdeal.main_arg0).trans (Cert.ReferenceIdeal.RV.kept m c Cert.ReferenceIdeal.main_arg0 (by simp)),
     (h c Cert.ReferenceIdeal.main_arg1).trans (Cert.ReferenceIdeal.RV.kept m c Cert.ReferenceIdeal.main_arg1 (by simp)),
     (h c Cert.ReferenceIdeal.main_arg2).trans (Cert.ReferenceIdeal.RV.kept m c Cert.ReferenceIdeal.main_arg2 (by simp)),
     (h c Cert.ReferenceIdeal.main_arg3).trans (Cert.ReferenceIdeal.RV.kept m c Cert.ReferenceIdeal.main_arg3 (by simp)),
     (h c Cert.ReferenceIdeal.main_arg4).trans (Cert.ReferenceIdeal.RV.kept m c Cert.ReferenceIdeal.main_arg4 (by simp)),
     (h c Cert.ReferenceIdeal.main_arg5).trans (Cert.ReferenceIdeal.RV.kept m c Cert.ReferenceIdeal.main_arg5 (by simp)),
     (h c Cert.ReferenceIdeal.main_arg6).trans (Cert.ReferenceIdeal.RV.kept m c Cert.ReferenceIdeal.main_arg6 (by simp)),
     (h c Cert.ReferenceIdeal.main_arg7).trans (Cert.ReferenceIdeal.RV.kept m c Cert.ReferenceIdeal.main_arg7 (by simp)),
     (h c Cert.ReferenceIdeal.main_arg8).trans (Cert.ReferenceIdeal.RV.kept m c Cert.ReferenceIdeal.main_arg8 (by simp)),
     (h c Cert.ReferenceIdeal.main_arg9).trans (Cert.ReferenceIdeal.RV.kept m c Cert.ReferenceIdeal.main_arg9 (by simp)),
     (h c Cert.ReferenceIdeal.main_arg10).trans (Cert.ReferenceIdeal.RV.kept m c Cert.ReferenceIdeal.main_arg10 (by simp)),
     (h c Cert.ReferenceIdeal.main_arg11).trans (Cert.ReferenceIdeal.RV.kept m c Cert.ReferenceIdeal.main_arg11 (by simp)),
     (h c Cert.ReferenceIdeal.main_arg12).trans (Cert.ReferenceIdeal.RV.kept m c Cert.ReferenceIdeal.main_arg12 (by simp))⟩)
    (Cert.ReferenceIdeal.RunP.run_after (F := Ideal) m ρ)

/-- Where the precondition holds of the kernel program's arguments, every source index is a node. -/
theorem src_ok (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.KV.SrcOk (Cert.KernelIdeal.KV.srcK (Cert.KernelIdeal.KV.a2 m c)) :=
  Cert.Pre_finite_inputs.Decode.src_ok_of_pre _ _ _ _ _ _ _ _ _ _ _ _ _ (hpre c)

/-- From memories agreeing on the arguments both programs end with the network's function of the arguments in their
    result buffers. -/
theorem algebraic : Cert.algebraic_KernelIdeal_ReferenceIdeal := by
  intro m ρ m' ρ' hpre hagree
  refine ⟨fun c => Cert.KernelIdeal.KV.outK m c, ?_, ?_⟩
  · exact (θ_run Cert.KernelIdeal.defs _ _).mono
      (fun r h c => ⟨(h c).1.trans (Cert.KernelIdeal.KV.W16_v44 m ρ c), (h c).2⟩)
      (Cert.KernelIdeal.GenRun.run_result (F := Ideal) m ρ)
  · refine (θ_run Cert.ReferenceIdeal.defs _ _).mono (fun r h c => ⟨?_,
      (h c Cert.ReferenceIdeal.main_arg0).trans (Cert.ReferenceIdeal.RV.kept m' c Cert.ReferenceIdeal.main_arg0 (by simp)),
      (h c Cert.ReferenceIdeal.main_arg1).trans (Cert.ReferenceIdeal.RV.kept m' c Cert.ReferenceIdeal.main_arg1 (by simp)),
      (h c Cert.ReferenceIdeal.main_arg2).trans (Cert.ReferenceIdeal.RV.kept m' c Cert.ReferenceIdeal.main_arg2 (by simp)),
      (h c Cert.ReferenceIdeal.main_arg3).trans (Cert.ReferenceIdeal.RV.kept m' c Cert.ReferenceIdeal.main_arg3 (by simp)),
      (h c Cert.ReferenceIdeal.main_arg4).trans (Cert.ReferenceIdeal.RV.kept m' c Cert.ReferenceIdeal.main_arg4 (by simp)),
      (h c Cert.ReferenceIdeal.main_arg5).trans (Cert.ReferenceIdeal.RV.kept m' c Cert.ReferenceIdeal.main_arg5 (by simp)),
      (h c Cert.ReferenceIdeal.main_arg6).trans (Cert.ReferenceIdeal.RV.kept m' c Cert.ReferenceIdeal.main_arg6 (by simp)),
      (h c Cert.ReferenceIdeal.main_arg7).trans (Cert.ReferenceIdeal.RV.kept m' c Cert.ReferenceIdeal.main_arg7 (by simp)),
      (h c Cert.ReferenceIdeal.main_arg8).trans (Cert.ReferenceIdeal.RV.kept m' c Cert.ReferenceIdeal.main_arg8 (by simp)),
      (h c Cert.ReferenceIdeal.main_arg9).trans (Cert.ReferenceIdeal.RV.kept m' c Cert.ReferenceIdeal.main_arg9 (by simp)),
      (h c Cert.ReferenceIdeal.main_arg10).trans (Cert.ReferenceIdeal.RV.kept m' c Cert.ReferenceIdeal.main_arg10 (by simp)),
      (h c Cert.ReferenceIdeal.main_arg11).trans (Cert.ReferenceIdeal.RV.kept m' c Cert.ReferenceIdeal.main_arg11 (by simp)),
      (h c Cert.ReferenceIdeal.main_arg12).trans (Cert.ReferenceIdeal.RV.kept m' c Cert.ReferenceIdeal.main_arg12 (by simp))⟩)
      (Cert.ReferenceIdeal.RunP.run_after (F := Ideal) m' ρ')
    obtain ⟨e0, e1, e2, e3, e4, e5, e6, e7, e8, e9, e10, e11, e12⟩ := hagree c
    refine (h c Cert.ReferenceIdeal.main_v118).trans ((Cert.ReferenceIdeal.RV.result m' c).trans ?_)
    rw [e0, e1, e2, e3, e4, e5, e6, e7, e8, e9, e10, e11, e12]
    exact (Cert.KernelIdeal.KV.outK_eq m c (src_ok m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
